-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg17
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S128x64 .f32) (main_arg16 : FVec F S64 .f32) (main_arg17 : FVec F S64x2 .f32) (main_arg18 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x64 .f32) (main_arg16 : FVec F S64 .f32) (main_arg17 : FVec F S64x2 .f32) (main_arg18 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x64 .f32) (main_arg16 : FVec F S64 .f32) (main_arg17 : FVec F S64x2 .f32) (main_arg18 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x800000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128 .f32) (main_arg12 : FVec F S128x128 .f32) (main_arg13 : FVec F S128x128 .f32) (main_arg14 : FVec F S128 .f32) (main_arg15 : FVec F S128x64 .f32) (main_arg16 : FVec F S64 .f32) (main_arg17 : FVec F S64x2 .f32) (main_arg18 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S64x128 : Shape := ⟨2, ![64, 128]⟩
abbrev S64x1 : Shape := ⟨2, ![64, 1]⟩
abbrev S5000x1 : Shape := ⟨2, ![5000, 1]⟩
abbrev S5000x64 : Shape := ⟨2, ![5000, 64]⟩
abbrev S64x64 : Shape := ⟨2, ![64, 64]⟩
abbrev S1x64 : Shape := ⟨2, ![1, 64]⟩
abbrev S1x2 : Shape := ⟨2, ![1, 2]⟩

abbrev nBuf : Space → Nat
  | .hbm => 62
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S100000x128, .bf16⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .bf16⟩
  | .hbm, ⟨33, _⟩ => ⟨S800000x128, .f32⟩
  | .hbm, ⟨34, _⟩ => ⟨S_, .f32⟩
  | .hbm, ⟨35, _⟩ => ⟨S100000x128, .f32⟩
  | .hbm, ⟨36, _⟩ => ⟨S800000x1, .i32⟩
  | .hbm, ⟨37, _⟩ => ⟨S100000x128, .f32⟩
  | .hbm, ⟨38, _⟩ => ⟨S100000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S_, .f32⟩
  | .hbm, ⟨50, _⟩ => ⟨S100000x128, .f32⟩
  | .hbm, ⟨51, _⟩ => ⟨S800000x1, .i32⟩
  | .hbm, ⟨52, _⟩ => ⟨S100000x128, .f32⟩
  | .hbm, ⟨53, _⟩ => ⟨S100000x1, .i32⟩
  | .hbm, ⟨54, _⟩ => ⟨S64x128, .f32⟩
  | .hbm, ⟨55, _⟩ => ⟨S64x1, .f32⟩
  | .hbm, ⟨56, _⟩ => ⟨S_, .f32⟩
  | .hbm, ⟨57, _⟩ => ⟨S64x1, .f32⟩
  | .hbm, ⟨58, _⟩ => ⟨S64x1, .f32⟩
  | .hbm, ⟨59, _⟩ => ⟨S64x128, .f32⟩
  | .hbm, ⟨60, _⟩ => ⟨S64x128, .f32⟩
  | .hbm, ⟨61, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .bf16⟩
  | .local _ .vmem, ⟨9, _⟩ => ⟨S5000x128, .bf16⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S128x128, .f32⟩
  | .local _ .vmem, ⟨22, _⟩ => ⟨S128, .f32⟩
  | .local _ .vmem, ⟨23, _⟩ => ⟨S128x128, .f32⟩
  | .local _ .vmem, ⟨24, _⟩ => ⟨S5000x1, .i32⟩
  | .local _ .vmem, ⟨25, _⟩ => ⟨S5000x1, .i32⟩
  | .local _ .vmem, ⟨26, _⟩ => ⟨S64x128, .f32⟩
  | .local _ .vmem, ⟨27, _⟩ => ⟨S64x1, .f32⟩
  | .local _ .vmem, ⟨28, _⟩ => ⟨S64x128, .f32⟩
  | .local _ .vmem, ⟨29, _⟩ => ⟨S128x128, .f32⟩
  | .local _ .vmem, ⟨30, _⟩ => ⟨S128, .f32⟩
  | .local _ .vmem, ⟨31, _⟩ => ⟨S128x64, .f32⟩
  | .local _ .vmem, ⟨32, _⟩ => ⟨S64, .f32⟩
  | .local _ .vmem, ⟨33, _⟩ => ⟨S64x2, .f32⟩
  | .local _ .vmem, ⟨34, _⟩ => ⟨S2, .f32⟩
  | .local _ .vmem, ⟨35, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  shapeCasts_S5000x128_S5000x128 : S5000x128.ShapeCasts S5000x128
  shapeCasts_S100000_S100000x1 : S100000.ShapeCasts S100000x1
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  shapeCasts_S64x1_S64x1 : S64x1.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .bf16 = 32 ∨ (Rect.block (s := S100000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .i32 = 32 ∨ (Rect.block (s := S100000x1) S5000x1.size (cc2_transform_5 i) (hinb2_5 i)).WholeWords (EltTy.packing .i32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x2.size a ≤ S64x2.size a
  hwx3_5 : ∀ i : grid3.Coords, EltTy.bits .f32 = 32 ∨ (Rect.block (s := S64x2) S64x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2.size a ≤ S2.size a
  hwx3_6 : ∀ i : grid3.Coords, EltTy.bits .f32 = 32 ∨ (Rect.block (s := S2) S2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x2.size a ≤ S64x2.size a
  hwx3_7 : ∀ i : grid3.Coords, EltTy.bits .f32 = 32 ∨ (Rect.block (s := S64x2) S64x2.size (cc3_transform_7 i) (hinb3_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v29_0) S64x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29_1) S64x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v33) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg16) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg17) S64x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg18) S2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S64x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S64x128 : Shape := ⟨2, ![64, 128]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x800000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128x128, .f32⟩
  | 14 => ⟨S128, .f32⟩
  | 15 => ⟨S128x64, .f32⟩
  | 16 => ⟨S64, .f32⟩
  | 17 => ⟨S64x2, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S_, .f32⟩
  | 29 => ⟨S100000x128, .f32⟩
  | 30 => ⟨S100000x128, .i1⟩
  | 31 => ⟨S_, .f32⟩
  | 32 => ⟨S100000x128, .f32⟩
  | 33 => ⟨S100000x128, .f32⟩
  | 34 => ⟨S100000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S100000x128, .f32⟩
  | 46 => ⟨S800000x1, .i32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S_, .f32⟩
  | 55 => ⟨S_, .f32⟩
  | 56 => ⟨S100000x128, .f32⟩
  | 57 => ⟨S100000x128, .i1⟩
  | 58 => ⟨S_, .f32⟩
  | 59 => ⟨S100000x128, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S_, .f32⟩
  | 68 => ⟨S100000x128, .f32⟩
  | 69 => ⟨S100000x128, .i1⟩
  | 70 => ⟨S_, .f32⟩
  | 71 => ⟨S100000x128, .f32⟩
  | 72 => ⟨S100000x128, .f32⟩
  | 73 => ⟨S100000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S100000x128, .f32⟩
  | 85 => ⟨S800000x1, .i32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S_, .f32⟩
  | 94 => ⟨S_, .f32⟩
  | 95 => ⟨S100000x128, .f32⟩
  | 96 => ⟨S100000x128, .i1⟩
  | 97 => ⟨S_, .f32⟩
  | 98 => ⟨S100000x128, .f32⟩
  | 99 => ⟨S100000x128, .f32⟩
  | 100 => ⟨S100000x128, .f32⟩
  | 101 => ⟨S_, .f32⟩
  | 102 => ⟨S64x128, .f32⟩
  | 103 => ⟨S100000x1, .i32⟩
  | 104 => ⟨S64x128, .f32⟩
  | 105 => ⟨S_, .f32⟩
  | 106 => ⟨S100000x1, .f32⟩
  | 107 => ⟨S_, .f32⟩
  | 108 => ⟨S64x1, .f32⟩
  | 109 => ⟨S100000x1, .i32⟩
  | 110 => ⟨S64x1, .f32⟩
  | 111 => ⟨S_, .f32⟩
  | 112 => ⟨S64x1, .f32⟩
  | 113 => ⟨S64x1, .f32⟩
  | 114 => ⟨S64x128, .f32⟩
  | 115 => ⟨S64x128, .f32⟩
  | 116 => ⟨S64x128, .f32⟩
  | 117 => ⟨S1x128, .f32⟩
  | 118 => ⟨S64x128, .f32⟩
  | 119 => ⟨S64x128, .f32⟩
  | 120 => ⟨S_, .f32⟩
  | 121 => ⟨S_, .f32⟩
  | 122 => ⟨S64x128, .f32⟩
  | 123 => ⟨S64x128, .i1⟩
  | 124 => ⟨S_, .f32⟩
  | 125 => ⟨S64x128, .f32⟩
  | 126 => ⟨S64x128, .f32⟩
  | 127 => ⟨S64x128, .f32⟩
  | _ => ⟨S100000x128, .f32⟩

abbrev hbmTy0_1 (i : Nat) : BufTy := match i % 128 with
  | 0 => ⟨S64x64, .f32⟩
  | 1 => ⟨S1x64, .f32⟩
  | 2 => ⟨S64x64, .f32⟩
  | 3 => ⟨S64x64, .f32⟩
  | 4 => ⟨S_, .f32⟩
  | 5 => ⟨S_, .f32⟩
  | 6 => ⟨S64x64, .f32⟩
  | 7 => ⟨S64x64, .i1⟩
  | 8 => ⟨S_, .f32⟩
  | 9 => ⟨S64x64, .f32⟩
  | 10 => ⟨S64x64, .f32⟩
  | 11 => ⟨S64x64, .f32⟩
  | 12 => ⟨S64x2, .f32⟩
  | 13 => ⟨S1x2, .f32⟩
  | 14 => ⟨S64x2, .f32⟩
  | 15 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v8 : Ref sig .tc := ⟨.hbm, 34, rfl⟩
abbrev main_c : Ref sig .tc := ⟨.hbm, 35, rfl⟩
abbrev main_v9 : Ref sig .tc := ⟨.hbm, 36, rfl⟩
abbrev main_v10 : Ref sig .tc := ⟨.hbm, 37, rfl⟩
abbrev main_c_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_2 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v30 : Ref sig .tc := ⟨.hbm, 73, rfl⟩
abbrev main_c_4 : Ref sig .tc := ⟨.hbm, 74, rfl⟩
abbrev main_v31 : Ref sig .tc := ⟨.hbm, 75, rfl⟩
abbrev main_v32 : Ref sig .tc := ⟨.hbm, 76, rfl⟩
abbrev main_c_5 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_6 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_7 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v47 : Ref sig .tc := ⟨.hbm, 100, rfl⟩
abbrev main_cst_8 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_9 : Ref sig .tc := ⟨.hbm, 105, rfl⟩
abbrev main_v51 : Ref sig .tc := ⟨.hbm, 106, rfl⟩
abbrev main_cst_10 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_11 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_12 : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_13 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S64x128_S100000x1_S100000x128_1_0_0_1_wf : ScatterDims.WF S64x128 S100000x1 S100000x128 [1] [0] [0] 1
  scatter_S64x1_S100000x1_S100000x1_1_0_0_1_wf : ScatterDims.WF S64x1 S100000x1 S100000x1 [1] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.Spec.lean ====
/-
  The graph network both programs compute, written index by index over the extended reals.

  A node table `x` of 100000 rows and 128 columns goes through a dense layer with a leaky rectifier; two rounds of
  message passing follow, each summing, for every node `n`, the current rows of the source nodes of the edges that
  end at `n`, mixing that sum and the node's own row through two weight matrices and a bias, and rectifying (a dense
  layer sits between the rounds); the rows of each of 64 graphs are then averaged (a graph with no node divides by
  one), and three dense layers, the first two rectified, give two numbers per graph.

  Nothing here mentions a program: the sums are `Finset` sums over literal index types, the products and sums those
  of the extended reals, the quotient and the maximum the ones the ideal reading gives a float division and maximum.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.GNN

open Idealize.ShloMosaic

/-- A table of extended reals with `n` rows and `m` columns. -/
abbrev Mat (n m : ℕ) := Fin n → Fin m → EReal

/-- The slope on the negative side: the binary32 number nearest one hundredth, the word both programs print. -/
def slope : EReal := Ideal.ofBits .f32 0x3C23D70A#32

/-- The leaky rectifier: the identity on positive numbers, the slope times the argument elsewhere. -/
def lrelu (z : EReal) : EReal := if 0 < z then z else slope * z

/-- Testing `0 ≤ z` instead of `0 < z` gives the same function: the two tests differ only at `z = 0`, where the
    slope times zero is zero. -/
theorem lrelu_of_le (z : EReal) : (if 0 ≤ z then z else slope * z) = lrelu z := by
  unfold lrelu
  by_cases h : 0 < z
  · rw [if_pos h.le, if_pos h]
  · rw [if_neg h]
    by_cases h0 : 0 ≤ z
    · have hz : z = 0 := le_antisymm (not_lt.mp h) h0
      rw [if_pos h0, hz, mul_zero]
    · rw [if_neg h0]

/-- The rectifier applied to every entry. -/
def act {n p : ℕ} (f : Mat n p) : Mat n p := fun r j => lrelu (f r j)

/-- A dense layer: row `r` of `x` against column `j` of `W`, plus the bias. -/
def dense {n k p : ℕ} (x : Mat n k) (W : Mat k p) (b : Fin p → EReal) : Mat n p :=
  fun r j => (∑ l, x r l * W l j) + b j

/-- One round's mixing before the rectifier: the neighbours' sum `a` through `Wrel`, plus the bias, plus the node's
    own row `h` through `Wroot`. -/
def conv {n k p : ℕ} (a h : Mat n k) (Wrel : Mat k p) (brel : Fin p → EReal) (Wroot : Mat k p) : Mat n p :=
  fun r j => ((∑ l, a r l * Wrel l j) + brel j) + ∑ l, h r l * Wroot l j

/-- Adding the bias after both products gives the same number: addition of extended reals is commutative and
    associative. -/
theorem conv_bias_last {n k p : ℕ} (a h : Mat n k) (Wrel : Mat k p) (brel : Fin p → EReal) (Wroot : Mat k p)
    (r : Fin n) (j : Fin p) :
    ((∑ l, a r l * Wrel l j) + ∑ l, h r l * Wroot l j) + brel j = conv a h Wrel brel Wroot r j := by
  unfold conv
  exact add_right_comm _ _ _

/-- A source word made a row number the way both programs do: a word that is negative when read signed has the
    table's length added to it as a 32-bit word. -/
def wrap (s : BitVec 32) : BitVec 32 := Scalar.select (IntOp.cmpi .slt s 0#32) (IntOp.addi s 100000#32) s

/-- The row a source word selects: the wrapped word read signed, a negative reading sent to row 0, a reading past
    the table clipped to its last row. -/
def row (s : BitVec 32) : Fin 100000 := ⟨min (wrap s).toInt.toNat 99999, by omega⟩

/-- The neighbours' sum: entry `(n, k)` adds column `k` of the rows selected by the source words of the edges whose
    target word, read signed, is `n`. -/
def aggr (src dst : Fin 800000 → BitVec 32) (h : Mat 100000 128) : Mat 100000 128 :=
  fun n k => ∑ e ∈ Finset.univ.filter (fun e : Fin 800000 => (dst e).toInt = (n.val : ℤ)), h (row (src e)) k

/-- The per-graph sums: entry `(g, j)` adds column `j` of the rows of the nodes whose graph word, read signed, is `g`. -/
def segSum (batch : Fin 100000 → BitVec 32) (y : Mat 100000 128) : Mat 64 128 :=
  fun g j => ∑ n ∈ Finset.univ.filter (fun n : Fin 100000 => (batch n).toInt = (g.val : ℤ)), y n j

/-- The number of nodes of each graph. -/
def segCount (batch : Fin 100000 → BitVec 32) : Fin 64 → EReal :=
  fun g => ∑ _n ∈ Finset.univ.filter (fun n : Fin 100000 => (batch n).toInt = (g.val : ℤ)), (1 : EReal)

/-- The per-graph mean: the sum over the count, a count below one replaced by one. -/
def mean (s : Mat 64 128) (cnt : Fin 64 → EReal) : Mat 64 128 := fun g j => Ideal.div (s g j) (max (cnt g) 1)

/-- The three closing layers on the 64 graph rows. -/
def head (g : Mat 64 128) (W3 : Mat 128 128) (b3 : Fin 128 → EReal) (W4 : Mat 128 64) (b4 : Fin 64 → EReal)
    (W5 : Mat 64 2) (b5 : Fin 2 → EReal) : Mat 64 2 :=
  dense (act (dense (act (dense g W3 b3)) W4 b4)) W5 b5

/-- The network before the closing layers: the pooled graph rows. -/
def pooled (x : Mat 100000 128) (src dst : Fin 800000 → BitVec 32) (batch : Fin 100000 → BitVec 32)
    (W1 : Mat 128 128) (b1 : Fin 128 → EReal) (Wr1 : Mat 128 128) (br1 : Fin 128 → EReal) (Wo1 : Mat 128 128)
    (W2 : Mat 128 128) (b2 : Fin 128 → EReal) (Wr2 : Mat 128 128) (br2 : Fin 128 → EReal) (Wo2 : Mat 128 128) :
    Mat 64 128 :=
  mean
    (segSum batch (act (conv (aggr src dst (act (dense (act (conv (aggr src dst (act (dense x W1 b1)))
      (act (dense x W1 b1)) Wr1 br1 Wo1)) W2 b2))) (act (dense (act (conv (aggr src dst (act (dense x W1 b1)))
      (act (dense x W1 b1)) Wr1 br1 Wo1)) W2 b2)) Wr2 br2 Wo2)))
    (segCount batch)

/-- The whole network: the pooled graph rows through the closing layers. -/
def net (x : Mat 100000 128) (src dst : Fin 800000 → BitVec 32) (batch : Fin 100000 → BitVec 32)
    (W1 : Mat 128 128) (b1 : Fin 128 → EReal) (Wr1 : Mat 128 128) (br1 : Fin 128 → EReal) (Wo1 : Mat 128 128)
    (W2 : Mat 128 128) (b2 : Fin 128 → EReal) (Wr2 : Mat 128 128) (br2 : Fin 128 → EReal) (Wo2 : Mat 128 128)
    (W3 : Mat 128 128) (b3 : Fin 128 → EReal) (W4 : Mat 128 64) (b4 : Fin 64 → EReal) (W5 : Mat 64 2)
    (b5 : Fin 2 → EReal) : Mat 64 2 :=
  head (pooled x src dst batch W1 b1 Wr1 br1 Wo1 W2 b2 Wr2 br2 Wo2) W3 b3 W4 b4 W5 b5

/-! ## Arrays read as tables -/

/-- A rank-2 array of extended reals read as a table. -/
def tab2 {A B : ℕ} (v : (⟨2, ![A, B]⟩ : Shape).Idx → EReal) : Mat A B := fun r j => v (ValueIdx.ix2 r j)

/-- A rank-1 array of extended reals read as a row. -/
def tab1 {A : ℕ} (v : (⟨1, ![A]⟩ : Shape).Idx → EReal) : Fin A → EReal := fun j => v (ValueIdx.ix1 j)

/-- A rank-1 array of 32-bit words read as a sequence. -/
def words {A : ℕ} (v : (⟨1, ![A]⟩ : Shape).Idx → BitVec 32) : Fin A → BitVec 32 := fun e => v (ValueIdx.ix1 e)

/-- A one-column array of 32-bit words read as a sequence. -/
def col0 {A : ℕ} (v : (⟨2, ![A, 1]⟩ : Shape).Idx → BitVec 32) : Fin A → BitVec 32 := fun n => v (ValueIdx.ix2 n 0)

/-- Row `i` of a two-row array of 32-bit words read as a sequence. -/
def rowWords {A : ℕ} (v : (⟨2, ![2, A]⟩ : Shape).Idx → BitVec 32) (i : Fin 2) : Fin A → BitVec 32 :=
  fun e => v (ValueIdx.ix2 i e)

end Cert.GNN

end
-- ==== Proof.LibDot.lean ====
/-
  The two matrix products of this network read at an entry, over the extended reals.

  * rows by columns: `[M, K]` against `[K, N]`, entry `(a, b)` the sum over `l` of `x (a, l) · w (l, b)`, for the
    kernel's product into a zero accumulator and for the host's product;
  * columns by columns: `[K, M]` against `[K, N]`, both contracted along their first axis, entry `(a, b)` the sum
    over `l` of `x (l, a) · w (l, b)`.

  Each is stated over the record given by its literal fields, with the well-formedness proof a variable, so that it
  applies to any program's record with those fields by unfolding the record's name.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- Rows by columns: `[M, K]` against `[K, N]`. -/
abbrev rowColDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Columns by columns: `[K, M]` against `[K, N]`, both contracted along their first axis. -/
abbrev colColDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-! ## The operand indices of the two records, axis by axis

  At the result index `i` and the contraction index `q`, each operand's index reads `i` on its free axis and `q`'s one
  coordinate on its contracted axis. One lemma per operand axis, at the literal axes `0` and `1`. -/

section RowCol
variable {M K N : Nat} (wf : DotDims.WF ⟨2, ![M, K]⟩ ⟨2, ![K, N]⟩ ⟨2, ![M, N]⟩ [1] [0] [0] [1] [] [])

/-- Rows by columns: the left operand's row is the result's row. -/
theorem lhs_rowCol_0 (i : (⟨2, ![M, N]⟩ : Shape).Idx) (q : (rowColDims M K N wf).contr.Idx) :
    ((rowColDims M K N wf).lhsIdx i q 0).val = (i 0).val := by
  unfold DotDims.lhsIdx
  rw [dif_neg (show ¬(0 : Fin (⟨2, ![M, K]⟩ : Shape).rank) ∈ (rowColDims M K N wf).lhsBatch from List.not_mem_nil),
    dif_pos (show (0 : Fin (⟨2, ![M, K]⟩ : Shape).rank) ∈ (rowColDims M K N wf).lhsNonContracting from List.mem_singleton.mpr rfl)]
  rfl

/-- Rows by columns: the left operand's column is the contraction's coordinate. -/
theorem lhs_rowCol_1 (i : (⟨2, ![M, N]⟩ : Shape).Idx) (q : (rowColDims M K N wf).contr.Idx) :
    ((rowColDims M K N wf).lhsIdx i q 1).val = (q ⟨0, Nat.zero_lt_one⟩).val :=
  (rowColDims M K N wf).lhsIdx_val_of_single rfl i q

/-- Rows by columns: the right operand's row is the contraction's coordinate. -/
theorem rhs_rowCol_0 (i : (⟨2, ![M, N]⟩ : Shape).Idx) (q : (rowColDims M K N wf).contr.Idx) :
    ((rowColDims M K N wf).rhsIdx i q 0).val = (q ⟨0, Nat.zero_lt_one⟩).val :=
  (rowColDims M K N wf).rhsIdx_val_of_single rfl i q

/-- Rows by columns: the right operand's column is the result's column. -/
theorem rhs_rowCol_1 (i : (⟨2, ![M, N]⟩ : Shape).Idx) (q : (rowColDims M K N wf).contr.Idx) :
    ((rowColDims M K N wf).rhsIdx i q 1).val = (i 1).val := by
  unfold DotDims.rhsIdx
  rw [dif_neg (show ¬(1 : Fin (⟨2, ![K, N]⟩ : Shape).rank) ∈ (rowColDims M K N wf).rhsBatch from List.not_mem_nil),
    dif_pos (show (1 : Fin (⟨2, ![K, N]⟩ : Shape).rank) ∈ (rowColDims M K N wf).rhsNonContracting from List.mem_singleton.mpr rfl)]
  rfl

/-- Rows by columns: the two operand indices at `(a, b)` and the contraction coordinate `l` are `(a, l)` and `(l, b)`. -/
theorem idx_rowCol (a : Fin M) (b : Fin N) (l : Fin K) :
    (rowColDims M K N wf).lhsIdx (ix2 a b) ((contrEquiv1 (rowColDims M K N wf) K rfl rfl).symm l) = ix2 a l
    ∧ (rowColDims M K N wf).rhsIdx (ix2 a b) ((contrEquiv1 (rowColDims M K N wf) K rfl rfl).symm l) = ix2 l b := by
  have hl := contrEquiv1_symm_val (rowColDims M K N wf) K rfl rfl l
  refine ⟨funext fun c => Fin.ext ?_, funext fun c => Fin.ext ?_⟩
  · match c with
    | ⟨0, _⟩ => exact lhs_rowCol_0 wf _ _
    | ⟨1, _⟩ => exact (lhs_rowCol_1 wf _ _).trans hl
  · match c with
    | ⟨0, _⟩ => exact (rhs_rowCol_0 wf _ _).trans hl
    | ⟨1, _⟩ => exact rhs_rowCol_1 wf _ _

end RowCol

section ColCol
variable {K M N : Nat} (wf : DotDims.WF ⟨2, ![K, M]⟩ ⟨2, ![K, N]⟩ ⟨2, ![M, N]⟩ [0] [0] [1] [1] [] [])

/-- Columns by columns: the left operand's row is the contraction's coordinate. -/
theorem lhs_colCol_0 (i : (⟨2, ![M, N]⟩ : Shape).Idx) (q : (colColDims K M N wf).contr.Idx) :
    ((colColDims K M N wf).lhsIdx i q 0).val = (q ⟨0, Nat.zero_lt_one⟩).val :=
  (colColDims K M N wf).lhsIdx_val_of_single rfl i q

/-- Columns by columns: the left operand's column is the result's row. -/
theorem lhs_colCol_1 (i : (⟨2, ![M, N]⟩ : Shape).Idx) (q : (colColDims K M N wf).contr.Idx) :
    ((colColDims K M N wf).lhsIdx i q 1).val = (i 0).val := by
  unfold DotDims.lhsIdx
  rw [dif_neg (show ¬(1 : Fin (⟨2, ![K, M]⟩ : Shape).rank) ∈ (colColDims K M N wf).lhsBatch from List.not_mem_nil),
    dif_pos (show (1 : Fin (⟨2, ![K, M]⟩ : Shape).rank) ∈ (colColDims K M N wf).lhsNonContracting from List.mem_singleton.mpr rfl)]
  rfl

/-- Columns by columns: the right operand's row is the contraction's coordinate. -/
theorem rhs_colCol_0 (i : (⟨2, ![M, N]⟩ : Shape).Idx) (q : (colColDims K M N wf).contr.Idx) :
    ((colColDims K M N wf).rhsIdx i q 0).val = (q ⟨0, Nat.zero_lt_one⟩).val :=
  (colColDims K M N wf).rhsIdx_val_of_single rfl i q

/-- Columns by columns: the right operand's column is the result's column. -/
theorem rhs_colCol_1 (i : (⟨2, ![M, N]⟩ : Shape).Idx) (q : (colColDims K M N wf).contr.Idx) :
    ((colColDims K M N wf).rhsIdx i q 1).val = (i 1).val := by
  unfold DotDims.rhsIdx
  rw [dif_neg (show ¬(1 : Fin (⟨2, ![K, N]⟩ : Shape).rank) ∈ (colColDims K M N wf).rhsBatch from List.not_mem_nil),
    dif_pos (show (1 : Fin (⟨2, ![K, N]⟩ : Shape).rank) ∈ (colColDims K M N wf).rhsNonContracting from List.mem_singleton.mpr rfl)]
  rfl

/-- Columns by columns: the two operand indices at `(a, b)` and the contraction coordinate `l` are `(l, a)` and `(l, b)`. -/
theorem idx_colCol (a : Fin M) (b : Fin N) (l : Fin K) :
    (colColDims K M N wf).lhsIdx (ix2 a b) ((contrEquiv1 (colColDims K M N wf) K rfl rfl).symm l) = ix2 l a
    ∧ (colColDims K M N wf).rhsIdx (ix2 a b) ((contrEquiv1 (colColDims K M N wf) K rfl rfl).symm l) = ix2 l b := by
  have hl := contrEquiv1_symm_val (colColDims K M N wf) K rfl rfl l
  refine ⟨funext fun c => Fin.ext ?_, funext fun c => Fin.ext ?_⟩
  · match c with
    | ⟨0, _⟩ => exact (lhs_colCol_0 wf _ _).trans hl
    | ⟨1, _⟩ => exact lhs_colCol_1 wf _ _
  · match c with
    | ⟨0, _⟩ => exact (rhs_colCol_0 wf _ _).trans hl
    | ⟨1, _⟩ => exact rhs_colCol_1 wf _ _

end ColCol

/-- THE KERNEL'S PRODUCT INTO A ZERO ACCUMULATOR, rows by columns, read at `(a, b)`. -/
theorem matmul_rowCol_apply {M K N : Nat} {φ₁ φ₂ : FTy}
    (wf : DotDims.WF ⟨2, ![M, K]⟩ ⟨2, ![K, N]⟩ ⟨2, ![M, N]⟩ [1] [0] [0] [1] [] []) (prec : Option ContractPrecision)
    (x : FVec Ideal ⟨2, ![M, K]⟩ φ₁) (w : FVec Ideal ⟨2, ![K, N]⟩ φ₂) (a : Fin M) (b : Fin N) :
    FloatOps.matmul (rowColDims M K N wf) prec x w (constant ⟨2, ![M, N]⟩ .f32 0x00000000#32) (ix2 a b)
      = ∑ l : Fin K, x (ix2 a l) * w (ix2 l b) := by
  rw [Ideal.matmul_constant_zero_apply, ← Equiv.sum_comp (contrEquiv1 (rowColDims M K N wf) K rfl rfl).symm]
  refine Finset.sum_congr rfl fun l _ => ?_
  rw [(idx_rowCol wf a b l).1, (idx_rowCol wf a b l).2]

/-- THE HOST'S PRODUCT, rows by columns, read at `(a, b)`. -/
theorem dotGeneral_rowCol_apply {M K N : Nat} {φ₁ φ₂ : FTy}
    (wf : DotDims.WF ⟨2, ![M, K]⟩ ⟨2, ![K, N]⟩ ⟨2, ![M, N]⟩ [1] [0] [0] [1] [] []) (prec : Option ContractPrecision)
    (sched : HostSchedule)
    (x : FVec Ideal ⟨2, ![M, K]⟩ φ₁) (w : FVec Ideal ⟨2, ![K, N]⟩ φ₂) (a : Fin M) (b : Fin N) :
    FloatOps.dotGeneral (rowColDims M K N wf) prec sched x w (ix2 a b) = ∑ l : Fin K, x (ix2 a l) * w (ix2 l b) := by
  rw [Ideal.dotGeneral_apply, ← Equiv.sum_comp (contrEquiv1 (rowColDims M K N wf) K rfl rfl).symm]
  refine Finset.sum_congr rfl fun l _ => ?_
  rw [(idx_rowCol wf a b l).1, (idx_rowCol wf a b l).2]

/-- THE KERNEL'S PRODUCT INTO A ZERO ACCUMULATOR, columns by columns, read at `(a, b)`. -/
theorem matmul_colCol_apply {K M N : Nat} {φ₁ φ₂ : FTy}
    (wf : DotDims.WF ⟨2, ![K, M]⟩ ⟨2, ![K, N]⟩ ⟨2, ![M, N]⟩ [0] [0] [1] [1] [] []) (prec : Option ContractPrecision)
    (x : FVec Ideal ⟨2, ![K, M]⟩ φ₁) (w : FVec Ideal ⟨2, ![K, N]⟩ φ₂) (a : Fin M) (b : Fin N) :
    FloatOps.matmul (colColDims K M N wf) prec x w (constant ⟨2, ![M, N]⟩ .f32 0x00000000#32) (ix2 a b)
      = ∑ l : Fin K, x (ix2 l a) * w (ix2 l b) := by
  rw [Ideal.matmul_constant_zero_apply, ← Equiv.sum_comp (contrEquiv1 (colColDims K M N wf) K rfl rfl).symm]
  refine Finset.sum_congr rfl fun l _ => ?_
  rw [(idx_colCol wf a b l).1, (idx_colCol wf a b l).2]

end Cert.LibDot

end
-- ==== Proof.KTypes.lean ====
/-
  The type of a core's TensorCore buffer contents at the entry of a launch, at the ideal reading.
-/
import proofs.«426622_j23862838296799_2_alg».proof.KernelIdeal
import Idealize.ShloMosaic.PureOps.Ideal

noncomputable section

namespace Cert.KernelIdeal.Val

open Idealize.ShloMosaic Idealize.ShloMosaic.TcCoe Idealize.SL.Sem
open Cert.KernelIdeal

/-- The TensorCore's buffer contents when a region is entered. -/
abbrev Entry := (c : Dev nD) → (b : Ref sig .tc) → Buf (Elt Ideal) ((c : Thread nD τ).loc b)

/-- What a core's buffers hold at a boundary between segments. -/
abbrev Vals := Valuation τ sig (Elt Ideal)

end Cert.KernelIdeal.Val

end
-- ==== Proof.KReg0.lean ====
/-
  The first launch, read as values: after its twenty points the output array holds, row by row, the rectified dense
  layer of the node table. Stated at any contents `V` the launch may find in its three input arrays.
-/
import proofs.«426622_j23862838296799_2_alg».proof.Proof.Gen.KernelIdeal.Frame
import proofs.«426622_j23862838296799_2_alg».proof.Proof.Spec
import proofs.«426622_j23862838296799_2_alg».proof.Proof.LibDot
import proofs.«426622_j23862838296799_2_alg».proof.Proof.KTypes
import Idealize.ShloMosaic.Lib.Pipeline.Value

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.GNN

namespace Reg0

/-! ## The block's arithmetic at one entry -/

/-- The kernel's rectifier on one number: the select on "greater than the zero word" between the number and the slope
    word times it is the leaky rectifier. -/
theorem lrelu_word (z : EReal) :
    Scalar.select (Ideal.cmp .ogt z (Ideal.ofBits .f32 0x00000000#32)) z (Ideal.ofBits .f32 0x3C23D70A#32 * z) = lrelu z := by
  rw [Ideal.ofBits_zero_f32]
  unfold lrelu Cert.GNN.slope Ideal.cmp Scalar.select
  by_cases h : 0 < z
  · simp [h]
  · simp [h]

/-- The bias row, cast to one row and broadcast down the block, read at `(p, j)` is entry `j` of the bias. -/
theorem bias_apply (x2 : Vec Ideal S128 .f32) (p : Fin 5000) (j : Fin 128) :
    broadcastTo S5000x128 (shapeCast S1x128 x2 shapeCasts_S128_S1x128) broadcasts_S1x128_S5000x128 (ix2 p j) = x2 (ix1 j) := by
  rw [broadcastTo_apply _ _ (ix2 p j) (ix2 (0 : Fin 1) j) (fun a => by
    match a with
    | ⟨0, _⟩ => rfl
    | ⟨1, _⟩ => rfl)]
  exact shapeCast_apply _ _ _ (ix1 j) (by rw [Shape.rowMajor_val_one, Shape.rowMajor_val_two]; simp)

/-- Entry `(p, j)` of what the body stores: row `p` of the block against column `j` of the weights, plus the bias,
    rectified (the two format changes are the identity on extended reals). -/
theorem pay0_apply (x0 : Vec Ideal S5000x128 .f32) (x1 : Vec Ideal S128x128 .f32) (x2 : Vec Ideal S128 .f32)
    (p : Fin 5000) (j : Fin 128) :
    k0_pay1 (F := Ideal) x0 x1 x2 (ix2 p j) = lrelu ((∑ l : Fin 128, x0 (ix2 p l) * x1 (ix2 l j)) + x2 (ix1 j)) := by
  have hm : ∀ (x : FVec Ideal S5000x128 .bf16) (w : FVec Ideal S128x128 .bf16),
      matmul dot_S5000x128_S128x128_S5000x128_1_0_0_1_n_n none x w (constant S5000x128 .f32 0x00000000#32) (ix2 p j)
        = ∑ l : Fin 128, x (ix2 p l) * w (ix2 l j) :=
    fun x w => Cert.LibDot.matmul_rowCol_apply dot_S5000x128_S128x128_S5000x128_1_0_0_1_n_n_wf none x w p j
  unfold k0_pay1
  rw [truncf_apply, select_apply, cmpf_apply, mulf_apply, addf_apply, broadcast_apply, broadcast_apply, hm, bias_apply]
  exact lrelu_word _

/-! ## From the blocks to the array -/

theorem hz : (![0, 0] : Fin 2 → Nat) = fun _ => 0 := funext fun a => by fin_cases a <;> rfl
theorem hz1 : (![0] : Fin 1 → Nat) = fun _ => 0 := funext fun a => by fin_cases a; rfl

/-- The index maps over the grid: the node table's window and the output's sit at block `(t, 0)`, the weights' and
    the bias's at block zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What the output array holds after the run, index by index: the rectified dense layer of the node table. -/
abbrev G0 (V : Entry) (c : Dev nD) : S100000x128.Idx → EReal := fun i =>
  act (dense (tab2 (A := 100000) (B := 128) (V c main_arg0)) (tab2 (A := 128) (B := 128) (V c main_arg3))
    (tab1 (A := 128) (V c main_arg4))) (i 0) (i 1)

/-- Row `p` of the node table's block at point `t` is row `5000 t + p` of the table. -/
theorem iblk0_0_apply (V : Entry) (c : Dev nD) (t : Fin cfg0.N) (p : Fin 5000) (l : Fin 128) (r : Fin 100000)
    (hr : r.val = 5000 * t.val + p.val) :
    (iblk0 (F := Ideal) V c 0 t : Vec Ideal S5000x128 .f32) (ix2 p l) = (V c main_arg0 : S100000x128.Idx → EReal) (ix2 r l) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * l.val = l.val; rw [e1]; omega

/-- The weights' block at any point is the weights. -/
theorem iblk0_1_apply (V : Entry) (c : Dev nD) (t : Fin cfg0.N) (l : Fin 128) (q : Fin 128) :
    (iblk0 (F := Ideal) V c 1 t : Vec Ideal S128x128 .f32) (ix2 l q) = (V c main_arg3 : S128x128.Idx → EReal) (ix2 l q) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * l.val = l.val; rw [e2]; omega
  | ⟨1, _⟩ => show win0_1.index t (1 : Fin 2) * 128 + 1 * q.val = q.val; rw [e3]; omega

/-- The bias's block at any point is the bias. -/
theorem iblk0_2_apply (V : Entry) (c : Dev nD) (t : Fin cfg0.N) (q : Fin 128) :
    (iblk0 (F := Ideal) V c 2 t : Vec Ideal S128 .f32) (ix1 q) = (V c main_arg4 : S128.Idx → EReal) (ix1 q) := by
  obtain ⟨-, -, -, -, e4, -⟩ := idx_facts0 t
  unfold iblk0
  rw [View.read_apply]
  show V c main_arg4 _ = V c main_arg4 _
  congr 1
  funext a
  apply Fin.ext
  match a with
  | ⟨0, _⟩ => show win0_2.index t (0 : Fin 1) * 128 + 1 * q.val = q.val; rw [e4]; omega

/-- Entry `(p, q)` of the output's block at point `t` sits at row `5000 t + p`, column `q` of the array. -/
theorem emb0_3 (c : Dev nD) (t : Fin cfg0.N) (p : Fin 5000) (q : Fin 128) (r : Fin 100000)
    (hr : r.val = 5000 * t.val + p.val) :
    (((cfg0.win 3).blk t).view.emb (ix2 p q) : S100000x128.Idx) = ix2 r q := by
  obtain ⟨-, -, -, -, -, e5, e6⟩ := idx_facts0 t
  funext a
  apply Fin.ext
  match a with
  | ⟨0, _⟩ => show win0_3.index t (0 : Fin 2) * 5000 + 1 * p.val = r.val; rw [e5, hr]; omega
  | ⟨1, _⟩ => show win0_3.index t (1 : Fin 2) * 128 + 1 * q.val = q.val; rw [e6]; omega

/-- What the body leaves at point `t`, entry by entry, is the array's function read where the block sits. -/
theorem block0_value (V : Entry) (c : Dev nD) (t : Fin cfg0.N) (y : S5000x128.Idx) :
    k0_pay1 (F := Ideal) (iblk0 V c 0 t) (iblk0 V c 1 t) (iblk0 V c 2 t) y
      = G0 V c (((cfg0.win 3).blk t).view.emb y) := by
  obtain ⟨p, q, rfl⟩ : ∃ (p : Fin 5000) (q : Fin 128), y = ix2 p q := ⟨y 0, y 1, eq_ix2 y⟩
  have ht : t.val < 20 := lt_of_lt_of_eq t.isLt N_0
  have hr : 5000 * t.val + p.val < 100000 := by have := p.isLt; omega
  refine (pay0_apply _ _ _ p q).trans ?_
  rw [emb0_3 c t p q ⟨5000 * t.val + p.val, hr⟩ rfl, iblk0_2_apply]
  show lrelu _ = lrelu _
  congr 2
  refine Finset.sum_congr rfl fun l _ => ?_
  rw [iblk0_0_apply V c t p l ⟨5000 * t.val + p.val, hr⟩ rfl, iblk0_1_apply]
  rfl

/-- WHAT POINT `t` WRITES BACK is block `t` of the array's function. -/
theorem flushed0_eq (V : Entry) (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S128) hz1]
  funext y
  exact block0_value V c t y

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v4).slice (win0_3.rect t)).set ↔ _
  rw [View.set_slice_whole, Rect.mem_set_unit]
  exact Iff.rfl

/-- Every index of the array is in some point's block: row `r` is in block `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk0]
  obtain ⟨-, -, -, -, -, e5, e6⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e6]; omega

/-- THE ARRAY after the run is the rectified dense layer of the node table. -/
theorem final0 (V : Entry) (c : Dev nD) : (dat0 (F := Ideal) V c).arrAt 3 cfg0.N = G0 V c :=
  (dat0 V c).arrAt_eq_of_cover 3 (G0 V c) (fun t _ => flushed0_eq V c t) cover0

end Reg0

/-- Entry `(r, j)` of the first launch's output array after its run. -/
theorem reg0_value (V : Entry) (c : Dev nD) (r : Fin 100000) (j : Fin 128) :
    (dat0 (F := Ideal) V c).arrAt 3 cfg0.N (ix2 r j)
      = act (dense (tab2 (A := 100000) (B := 128) (V c main_arg0)) (tab2 (A := 128) (B := 128) (V c main_arg3))
          (tab1 (A := 128) (V c main_arg4))) r j := by
  rw [Reg0.final0]

end Cert.KernelIdeal.Val

end
-- ==== Proof.KReg1.lean ====
/-
  The second launch, read as values: after its twenty points the output array holds, row by row, the first round's
  mixing of the neighbours' sums and the nodes' own rows, rectified, through the dense layer that follows, rectified.
  Stated at any contents `V` the launch may find in its seven input arrays.
-/
import proofs.«426622_j23862838296799_2_alg».proof.Proof.Gen.KernelIdeal.Frame
import proofs.«426622_j23862838296799_2_alg».proof.Proof.Spec
import proofs.«426622_j23862838296799_2_alg».proof.Proof.LibDot
import proofs.«426622_j23862838296799_2_alg».proof.Proof.KTypes
import Idealize.ShloMosaic.Lib.Pipeline.Value

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.GNN

namespace Reg1

/-! ## The block's arithmetic at one entry -/

/-- The kernel's rectifier on one number: the select on "greater than the zero word" between the number and the slope
    word times it is the leaky rectifier. -/
theorem lrelu_word (z : EReal) :
    Scalar.select (Ideal.cmp .ogt z (Ideal.ofBits .f32 0x00000000#32)) z (Ideal.ofBits .f32 0x3C23D70A#32 * z) = lrelu z := by
  rw [Ideal.ofBits_zero_f32]
  unfold lrelu Cert.GNN.slope Ideal.cmp Scalar.select
  by_cases h : 0 < z
  · simp [h]
  · simp [h]

/-- A bias row, cast to one row and broadcast down the block, read at `(p, j)` is entry `j` of the bias. -/
theorem bias_apply (x2 : Vec Ideal S128 .f32) (p : Fin 5000) (j : Fin 128) :
    broadcastTo S5000x128 (shapeCast S1x128 x2 shapeCasts_S128_S1x128) broadcasts_S1x128_S5000x128 (ix2 p j) = x2 (ix1 j) := by
  rw [broadcastTo_apply _ _ (ix2 p j) (ix2 (0 : Fin 1) j) (fun a => by
    match a with
    | ⟨0, _⟩ => rfl
    | ⟨1, _⟩ => rfl)]
  exact shapeCast_apply _ _ _ (ix1 j) (by rw [Shape.rowMajor_val_one, Shape.rowMajor_val_two]; simp)

/-- A product of a block by a weight matrix into a zero accumulator, read at an entry. -/
theorem prod_apply {φ₁ φ₂ : FTy} (x : FVec Ideal S5000x128 φ₁) (w : FVec Ideal S128x128 φ₂) (a : Fin 5000) (b : Fin 128) :
    matmul dot_S5000x128_S128x128_S5000x128_1_0_0_1_n_n none x w (constant S5000x128 .f32 0x00000000#32) (ix2 a b)
      = ∑ l : Fin 128, x (ix2 a l) * w (ix2 l b) :=
  Cert.LibDot.matmul_rowCol_apply dot_S5000x128_S128x128_S5000x128_1_0_0_1_n_n_wf none x w a b

/-- Entry `(p, j)` of what the body stores: the two products of row `p` (the neighbours' sums against their weights,
    the node's own row against its weights) added, the bias added, rectified; that row against column `j` of the
    next weights, plus the next bias, rectified (the format changes are the identity on extended reals). -/
theorem pay1_apply (x0 : Vec Ideal S5000x128 .f32) (x1 : Vec Ideal S5000x128 .bf16) (w5 w7 : Vec Ideal S128x128 .f32)
    (b6 : Vec Ideal S128 .f32) (w8 : Vec Ideal S128x128 .f32) (b9 : Vec Ideal S128 .f32) (p : Fin 5000) (j : Fin 128) :
    k1_pay1 (F := Ideal) x0 x1 w5 w7 b6 w8 b9 (ix2 p j)
      = lrelu ((∑ m : Fin 128,
          lrelu (((∑ l : Fin 128, x0 (ix2 p l) * w5 (ix2 l m)) + ∑ l : Fin 128, x1 (ix2 p l) * w7 (ix2 l m)) + b6 (ix1 m))
            * w8 (ix2 m j)) + b9 (ix1 j)) := by
  unfold k1_pay1
  rw [shapeCast_self, shapeCast_self]
  rw [truncf_apply, select_apply, cmpf_apply, mulf_apply, addf_apply, broadcast_apply, broadcast_apply, prod_apply, bias_apply]
  refine (lrelu_word _).trans ?_
  refine congrArg lrelu (congrArg (· + b9 (ix1 j)) (Finset.sum_congr rfl fun m _ => ?_))
  refine congrArg (· * w8 (ix2 m j)) ?_
  rw [truncf_apply, select_apply, cmpf_apply, mulf_apply, addf_apply, addf_apply, broadcast_apply, broadcast_apply,
    prod_apply, prod_apply, bias_apply]
  exact lrelu_word _

/-! ## From the blocks to the array -/

theorem hz : (![0, 0] : Fin 2 → Nat) = fun _ => 0 := funext fun a => by fin_cases a <;> rfl
theorem hz1 : (![0] : Fin 1 → Nat) = fun _ => 0 := funext fun a => by fin_cases a; rfl

/-! The index maps over the grid: the two node tables' windows and the output's sit at block `(t, 0)`, the weights'
    and the biases' at block zero. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 1) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 1) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)

/-- What the output array holds after the run, index by index: the first round's mixing, rectified, through the dense
    layer that follows, rectified. -/
abbrev G1 (V : Entry) (c : Dev nD) : S100000x128.Idx → EReal := fun i =>
  act (dense (act (conv (tab2 (A := 100000) (B := 128) (V c main_v15)) (tab2 (A := 100000) (B := 128) (V c main_v4))
        (tab2 (A := 128) (B := 128) (V c main_arg5)) (tab1 (A := 128) (V c main_arg6))
        (tab2 (A := 128) (B := 128) (V c main_arg7))))
      (tab2 (A := 128) (B := 128) (V c main_arg8)) (tab1 (A := 128) (V c main_arg9))) (i 0) (i 1)

/-- Row `p` of the block of window 0 at point `t` is row `5000 t + p` of its array. -/
theorem iblk1_0_apply (V : Entry) (c : Dev nD) (t : Fin cfg1.N) (p : Fin 5000) (l : Fin 128) (r : Fin 100000)
    (hr : r.val = 5000 * t.val + p.val) :
    (iblk1 (F := Ideal) V c 0 t : Vec Ideal S5000x128 .f32) (ix2 p l) = (V c main_v15 : S100000x128.Idx → EReal) (ix2 r l) := by
  obtain ⟨e0, e1⟩ := idx1_0 t
  unfold iblk1
  rw [View.read_apply]
  show V c main_v15 _ = V c main_v15 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * l.val = l.val; rw [e1]; omega

/-- Row `p` of the block of window 1 at point `t` is row `5000 t + p` of its array. -/
theorem iblk1_1_apply (V : Entry) (c : Dev nD) (t : Fin cfg1.N) (p : Fin 5000) (l : Fin 128) (r : Fin 100000)
    (hr : r.val = 5000 * t.val + p.val) :
    (iblk1 (F := Ideal) V c 1 t : Vec Ideal S5000x128 .bf16) (ix2 p l) = (V c main_v4 : S100000x128.Idx → EReal) (ix2 r l) := by
  obtain ⟨e0, e1⟩ := idx1_1 t
  unfold iblk1
  rw [View.read_apply]
  show V c main_v4 _ = V c main_v4 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * l.val = l.val; rw [e1]; omega

/-- The block of window 2 at any point is the whole array. -/
theorem iblk1_2_apply (V : Entry) (c : Dev nD) (t : Fin cfg1.N) (l : Fin 128) (q : Fin 128) :
    (iblk1 (F := Ideal) V c 2 t : Vec Ideal S128x128 .f32) (ix2 l q) = (V c main_arg5 : S128x128.Idx → EReal) (ix2 l q) := by
  obtain ⟨e0, e1⟩ := idx1_2 t
  unfold iblk1
  rw [View.read_apply]
  show V c main_arg5 _ = V c main_arg5 _
  congr 1
  funext a
  apply Fin.ext
  match a with
  | ⟨0, _⟩ => show win1_2.index t (0 : Fin 2) * 128 + 1 * l.val = l.val; rw [e0]; omega
  | ⟨1, _⟩ => show win1_2.index t (1 : Fin 2) * 128 + 1 * q.val = q.val; rw [e1]; omega

/-- The block of window 3 at any point is the whole row. -/
theorem iblk1_3_apply (V : Entry) (c : Dev nD) (t : Fin cfg1.N) (q : Fin 128) :
    (iblk1 (F := Ideal) V c 3 t : Vec Ideal S128 .f32) (ix1 q) = (V c main_arg6 : S128.Idx → EReal) (ix1 q) := by
  have e0 := idx1_3 t
  unfold iblk1
  rw [View.read_apply]
  show V c main_arg6 _ = V c main_arg6 _
  congr 1
  funext a
  apply Fin.ext
  match a with
  | ⟨0, _⟩ => show win1_3.index t (0 : Fin 1) * 128 + 1 * q.val = q.val; rw [e0]; omega

/-- The block of window 4 at any point is the whole array. -/
theorem iblk1_4_apply (V : Entry) (c : Dev nD) (t : Fin cfg1.N) (l : Fin 128) (q : Fin 128) :
    (iblk1 (F := Ideal) V c 4 t : Vec Ideal S128x128 .f32) (ix2 l q) = (V c main_arg7 : S128x128.Idx → EReal) (ix2 l q) := by
  obtain ⟨e0, e1⟩ := idx1_4 t
  unfold iblk1
  rw [View.read_apply]
  show V c main_arg7 _ = V c main_arg7 _
  congr 1
  funext a
  apply Fin.ext
  match a with
  | ⟨0, _⟩ => show win1_4.index t (0 : Fin 2) * 128 + 1 * l.val = l.val; rw [e0]; omega
  | ⟨1, _⟩ => show win1_4.index t (1 : Fin 2) * 128 + 1 * q.val = q.val; rw [e1]; omega

/-- The block of window 5 at any point is the whole array. -/
theorem iblk1_5_apply (V : Entry) (c : Dev nD) (t : Fin cfg1.N) (l : Fin 128) (q : Fin 128) :
    (iblk1 (F := Ideal) V c 5 t : Vec Ideal S128x128 .f32) (ix2 l q) = (V c main_arg8 : S128x128.Idx → EReal) (ix2 l q) := by
  obtain ⟨e0, e1⟩ := idx1_5 t
  unfold iblk1
  rw [View.read_apply]
  show V c main_arg8 _ = V c main_arg8 _
  congr 1
  funext a
  apply Fin.ext
  match a with
  | ⟨0, _⟩ => show win1_5.index t (0 : Fin 2) * 128 + 1 * l.val = l.val; rw [e0]; omega
  | ⟨1, _⟩ => show win1_5.index t (1 : Fin 2) * 128 + 1 * q.val = q.val; rw [e1]; omega

/-- The block of window 6 at any point is the whole row. -/
theorem iblk1_6_apply (V : Entry) (c : Dev nD) (t : Fin cfg1.N) (q : Fin 128) :
    (iblk1 (F := Ideal) V c 6 t : Vec Ideal S128 .f32) (ix1 q) = (V c main_arg9 : S128.Idx → EReal) (ix1 q) := by
  have e0 := idx1_6 t
  unfold iblk1
  rw [View.read_apply]
  show V c main_arg9 _ = V c main_arg9 _
  congr 1
  funext a
  apply Fin.ext
  match a with
  | ⟨0, _⟩ => show win1_6.index t (0 : Fin 1) * 128 + 1 * q.val = q.val; rw [e0]; omega

/-- Entry `(p, q)` of the output's block at point `t` sits at row `5000 t + p`, column `q` of the array. -/
theorem emb1_7 (c : Dev nD) (t : Fin cfg1.N) (p : Fin 5000) (q : Fin 128) (r : Fin 100000)
    (hr : r.val = 5000 * t.val + p.val) :
    (((cfg1.win 7).blk t).view.emb (ix2 p q) : S100000x128.Idx) = ix2 r q := by
  obtain ⟨e0, e1⟩ := idx1_7 t
  funext a
  apply Fin.ext
  match a with
  | ⟨0, _⟩ => show win1_7.index t (0 : Fin 2) * 5000 + 1 * p.val = r.val; rw [e0, hr]; omega
  | ⟨1, _⟩ => show win1_7.index t (1 : Fin 2) * 128 + 1 * q.val = q.val; rw [e1]; omega

/-- What the body leaves at point `t`, entry by entry, is the array's function read where the block sits: the bias
    added after both products is the mixing's bias added between them. -/
theorem block1_value (V : Entry) (c : Dev nD) (t : Fin cfg1.N) (y : S5000x128.Idx) :
    k1_pay1 (F := Ideal) (iblk1 V c 0 t) (iblk1 V c 1 t) (iblk1 V c 2 t) (iblk1 V c 4 t) (iblk1 V c 3 t) (iblk1 V c 5 t)
        (iblk1 V c 6 t) y
      = G1 V c (((cfg1.win 7).blk t).view.emb y) := by
  obtain ⟨p, q, rfl⟩ : ∃ (p : Fin 5000) (q : Fin 128), y = ix2 p q := ⟨y 0, y 1, eq_ix2 y⟩
  have ht : t.val < 20 := lt_of_lt_of_eq t.isLt N_1
  have hr : 5000 * t.val + p.val < 100000 := by have := p.isLt; omega
  refine (pay1_apply _ _ _ _ _ _ _ p q).trans ?_
  rw [emb1_7 c t p q ⟨5000 * t.val + p.val, hr⟩ rfl, iblk1_6_apply]
  refine congrArg lrelu (congrArg (· + _) (Finset.sum_congr rfl fun m _ => ?_))
  rw [iblk1_5_apply, iblk1_3_apply]
  refine congrArg (fun z => lrelu z * _) ?_
  refine Eq.trans ?_ (conv_bias_last _ _ _ _ _ _ m)
  refine congrArg (· + _) (congrArg₂ (· + ·) (Finset.sum_congr rfl fun l _ => ?_) (Finset.sum_congr rfl fun l _ => ?_))
  · rw [iblk1_0_apply V c t p l ⟨5000 * t.val + p.val, hr⟩ rfl, iblk1_2_apply]; rfl
  · rw [iblk1_1_apply V c t p l ⟨5000 * t.val + p.val, hr⟩ rfl, iblk1_4_apply]; rfl

/-- WHAT POINT `t` WRITES BACK is block `t` of the array's function. -/
theorem flushed1_eq (V : Entry) (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S128) hz1]
  funext y
  exact block1_value V c t y

/-- An index of the array is in point `t`'s block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v16).slice (win1_7.rect t)).set ↔ _
  rw [View.set_slice_whole, Rect.mem_set_unit]
  exact Iff.rfl

/-- Every index of the array is in some point's block: row `r` is in block `r / 5000`. -/
theorem cover1 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_7 _, ?_⟩
  rw [mem_blk1]
  obtain ⟨e0, e1⟩ := idx1_7 ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 128 ≤ (i 1).val ∧ (i 1).val < win1_7.index _ (1 : Fin 2) * 128 + 128
    rw [e1]; omega

/-- THE ARRAY after the run is the first round's mixing, rectified, through the dense layer, rectified. -/
theorem final1 (V : Entry) (c : Dev nD) : (dat1 (F := Ideal) V c).arrAt 7 cfg1.N = G1 V c :=
  (dat1 V c).arrAt_eq_of_cover 7 (G1 V c) (fun t _ => flushed1_eq V c t) cover1

end Reg1

/-- Entry `(r, j)` of the second launch's output array after its run. -/
theorem reg1_value (V : Entry) (c : Dev nD) (r : Fin 100000) (j : Fin 128) :
    (dat1 (F := Ideal) V c).arrAt 7 cfg1.N (ix2 r j)
      = act (dense (act (conv (tab2 (A := 100000) (B := 128) (V c main_v15)) (tab2 (A := 100000) (B := 128) (V c main_v4))
            (tab2 (A := 128) (B := 128) (V c main_arg5)) (tab1 (A := 128) (V c main_arg6))
            (tab2 (A := 128) (B := 128) (V c main_arg7))))
          (tab2 (A := 128) (B := 128) (V c main_arg8)) (tab1 (A := 128) (V c main_arg9))) r j := by
  rw [Reg1.final1]

end Cert.KernelIdeal.Val

end
-- ==== Proof.KReg2.lean ====
/-
  The third launch, read as values: it carries two accumulators over its twenty points, reset at the first; after
  the run one holds the per-graph sums of the second round's rectified mixing and the other the per-graph node counts.
  A point adds, for each graph `g`, the rows of its 5000 nodes weighted by one where the node's graph word is `g` and by
  zero elsewhere, which is the sum over the block's nodes of graph `g`; the twenty blocks partition the nodes.
  Stated at any contents `V` the launch may find in its six input arrays.
-/
import proofs.«426622_j23862838296799_2_alg».proof.Proof.Gen.KernelIdeal.Frame
import proofs.«426622_j23862838296799_2_alg».proof.Proof.Spec
import proofs.«426622_j23862838296799_2_alg».proof.Proof.LibDot
import proofs.«426622_j23862838296799_2_alg».proof.Proof.KTypes
import Idealize.ShloMosaic.Lib.Pipeline.Value
import Idealize.ShloMosaic.Lib.ValueLayout

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.GNN

/-- The second round's rectified mixing, from the launch's input arrays. -/
def mixed2 (V : Entry) (c : Dev nD) : Mat 100000 128 :=
  act (conv (tab2 (A := 100000) (B := 128) (V c main_v27)) (tab2 (A := 100000) (B := 128) (V c main_v16))
    (tab2 (A := 128) (B := 128) (V c main_arg10)) (tab1 (A := 128) (V c main_arg11))
    (tab2 (A := 128) (B := 128) (V c main_arg12)))

namespace Reg2

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A later point leaves in the sums accumulator what it held plus the block's contribution. -/
theorem piece_B_6 (c : Dev nD) (i : grid2.Coords) (a1 : Memref sig .tc .vmem S5000x128 .f32) (h1 : a1.IsWhole) (a2 : Memref sig .tc .vmem S5000x128 .bf16) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x1 .i32) (h6 : a6.IsWhole) (a7 : Memref sig .tc .vmem S64x128 .f32) (h7 : a7.IsWhole) (a8 : Memref sig .tc .vmem S64x1 .f32) (h8 : a8.IsWhole) (hc : ¬cond2_0 i)
    (x0 : Vec F S5000x128 .f32) (x1 : Vec F S5000x128 .bf16) (x2 : Vec F S128x128 .f32) (x3 : Vec F S128 .f32) (x4 : Vec F S128x128 .f32) (x5 : Vec F S5000x1 .i32) (xo6 : Vec F S64x128 .f32) (xo7 : Vec F S64x1 .f32) :
    out2_B_6 c i a1 h1 a2 h2 a3 h3 a4 h4 a5 h5 a6 h6 a7 h7 a8 h8 hc x0 x1 x2 x3 x4 x5 xo6 xo7 = k2_pay1 (k2_pay6 x0 x1 x2 x4 x3 x5) xo6 := by
  unfold out2_B_6
  rw [View.read_writes_eq_canon _ _ _ (cover2_B_6 c i a1 h1 a2 h2 a3 h3 a4 h4 a5 h5 a6 h6 a7 h7 a8 h8 hc x0 x1 x2 x3 x4 x5 xo6 xo7)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread,
    View.ld_unit_zero (S := S5000x128) hz2, View.ld_unit_zero (S := S128x128) hz2, View.ld_unit_zero (S := S128) hz1,
    View.ld_unit_zero (S := S5000x1) hz2, View.ld_unit_zero (S := S64x128) hz2, View.ld_unit_zero (S := S64x1) hz2]

/-- A later point leaves in the counts accumulator what it held plus the block's count. -/
theorem piece_B_7 (c : Dev nD) (i : grid2.Coords) (a1 : Memref sig .tc .vmem S5000x128 .f32) (h1 : a1.IsWhole) (a2 : Memref sig .tc .vmem S5000x128 .bf16) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x1 .i32) (h6 : a6.IsWhole) (a7 : Memref sig .tc .vmem S64x128 .f32) (h7 : a7.IsWhole) (a8 : Memref sig .tc .vmem S64x1 .f32) (h8 : a8.IsWhole) (hc : ¬cond2_0 i)
    (x0 : Vec F S5000x128 .f32) (x1 : Vec F S5000x128 .bf16) (x2 : Vec F S128x128 .f32) (x3 : Vec F S128 .f32) (x4 : Vec F S128x128 .f32) (x5 : Vec F S5000x1 .i32) (xo6 : Vec F S64x128 .f32) (xo7 : Vec F S64x1 .f32) :
    out2_B_7 c i a1 h1 a2 h2 a3 h3 a4 h4 a5 h5 a6 h6 a7 h7 a8 h8 hc x0 x1 x2 x3 x4 x5 xo6 xo7 = k2_pay2 (k2_pay7 x5) xo7 := by
  unfold out2_B_7
  rw [View.read_writes_eq_canon _ _ _ (cover2_B_7 c i a1 h1 a2 h2 a3 h3 a4 h4 a5 h5 a6 h6 a7 h7 a8 h8 hc x0 x1 x2 x3 x4 x5 xo6 xo7)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread,
    View.ld_unit_zero (S := S5000x128) hz2, View.ld_unit_zero (S := S128x128) hz2, View.ld_unit_zero (S := S128) hz1,
    View.ld_unit_zero (S := S5000x1) hz2, View.ld_unit_zero (S := S64x128) hz2, View.ld_unit_zero (S := S64x1) hz2]

/-- The first point resets the sums accumulator to zero and adds its block's contribution. -/
theorem piece_A_6 (c : Dev nD) (i : grid2.Coords) (a1 : Memref sig .tc .vmem S5000x128 .f32) (h1 : a1.IsWhole) (a2 : Memref sig .tc .vmem S5000x128 .bf16) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x1 .i32) (h6 : a6.IsWhole) (a7 : Memref sig .tc .vmem S64x128 .f32) (h7 : a7.IsWhole) (a8 : Memref sig .tc .vmem S64x1 .f32) (h8 : a8.IsWhole) (hc : cond2_0 i)
    (x0 : Vec F S5000x128 .f32) (x1 : Vec F S5000x128 .bf16) (x2 : Vec F S128x128 .f32) (x3 : Vec F S128 .f32) (x4 : Vec F S128x128 .f32) (x5 : Vec F S5000x1 .i32) :
    out2_A_6 c i a1 h1 a2 h2 a3 h3 a4 h4 a5 h5 a6 h6 a7 h7 a8 h8 hc x0 x1 x2 x3 x4 x5 = k2_pay1 (k2_pay6 x0 x1 x2 x4 x3 x5) (k2_pay3 (F := F)) := by
  unfold out2_A_6
  rw [View.read_writes_eq_canon _ _ _ (cover2_A_6 c i a1 h1 a2 h2 a3 h3 a4 h4 a5 h5 a6 h6 a7 h7 a8 h8 hc x0 x1 x2 x3 x4 x5)]
  unfold kernelRun2_A
  dsimp only
  sl_unfold_words
  rw [View.canon_cons_unit_zero (S := S64x128) hz2, View.readCov_unit_zero (S := S64x128) _ hz2]
  simp only [View.readAt_eq_ld, h1.read_unread, h2.read_unread, h3.read_unread, h4.read_unread, h5.read_unread, h6.read_unread, h7.read_unread, h8.read_unread,
    View.ld_unit_zero (S := S5000x128) hz2, View.ld_unit_zero (S := S128x128) hz2, View.ld_unit_zero (S := S128) hz1,
    View.ld_unit_zero (S := S5000x1) hz2, View.ld_unit_zero (S := S64x128) hz2, View.ld_unit_zero (S := S64x1) hz2]

/-- The first point resets the counts accumulator to zero and adds its block's count. -/
theorem piece_A_7 (c : Dev nD) (i : grid2.Coords) (a1 : Memref sig .tc .vmem S5000x128 .f32) (h1 : a1.IsWhole) (a2 : Memref sig .tc .vmem S5000x128 .bf16) (h2 : a2.IsWhole) (a3 : Memref sig .tc .vmem S128x128 .f32) (h3 : a3.IsWhole) (a4 : Memref sig .tc .vmem S128 .f32) (h4 : a4.IsWhole) (a5 : Memref sig .tc .vmem S128x128 .f32) (h5 : a5.IsWhole) (a6 : Memref sig .tc .vmem S5000x1 .i32) (h6 : a6.IsWhole) (a7 : Memref sig .tc .vmem S64x128 .f32) (h7 : a7.IsWhole) (a8 : Memref sig .tc .vmem S64x1 .f32) (h8 : a8.IsWhole) (hc : cond2_0 i)
    (x0 : Vec F S5000x128 .f32) (x1 : Vec F S5000x128 .bf16) (x2 : Vec F S128x128 .f32) (x3 : Vec F S128 .f32) (x4 : Vec F S128x128 .f32) (x5 : Vec F S5000x1 .i32) :
    out2_A_7 c i a1 h1 a2 h2 a3 h3 a4 h4 a5 h5 a6 h6 a7 h7 a8 h8 hc x0 x1 x2 x3 x4 x5 = k2_pay2 (k2_pay7 x5) (k2_pay4 (F := F)) := by
  unfold out2_A_7
  rw [View.read_writes_eq_canon _ _ _ (cover2_A_7 c i a1 h1 a2 h2 a3 h3 a4 h4 a5 h5 a6 h6 a7 h7 a8 h8 hc x0 x1 x2 x3 x4 x5)]
  unfold kernelRun2_A
  dsimp only
  sl_unfold_words
  rw [View.canon_cons_unit_zero (S := S64x1) hz2, View.readCov_unit_zero (S := S64x1) _ hz2]
  simp only [View.readAt_eq_ld, h1.read_unread, h2.read_unread, h3.read_unread, h4.read_unread, h5.read_unread, h6.read_unread, h7.read_unread, h8.read_unread,
    View.ld_unit_zero (S := S5000x128) hz2, View.ld_unit_zero (S := S128x128) hz2, View.ld_unit_zero (S := S128) hz1,
    View.ld_unit_zero (S := S5000x1) hz2, View.ld_unit_zero (S := S64x128) hz2, View.ld_unit_zero (S := S64x1) hz2]

end Pieces

section Payloads

/-- The weight of a row whose graph word is `w` in the sums of graph `g`: one when the word is `g`, zero otherwise. -/
def hot (w : BitVec 32) (g : Fin 64) : EReal := if w = BitVec.ofNat 32 g.val then 1 else 0

theorem cmpi_eq_one {a b : BitVec 32} (h : a = b) : IntOp.cmpi .eq a b = 1#1 := by
  subst h; simp [IntOp.cmpi]
theorem cmpi_eq_zero {a b : BitVec 32} (h : a ≠ b) : IntOp.cmpi .eq a b = 0#1 := by
  simp only [IntOp.cmpi]
  rw [show (a == b) = false from beq_eq_false_iff_ne.mpr h]
  rfl

/-- The rectifier as the kernel writes it: a comparison with zero selecting the number or the slope times it. -/
theorem lrelu_select (z : EReal) :
    Scalar.select (Ideal.cmp .ogt z (Ideal.ofBits .f32 0x00000000#32)) z (Ideal.ofBits .f32 0x3C23D70A#32 * z) = lrelu z := by
  rw [Ideal.ofBits_zero_f32]
  unfold lrelu GNN.slope Scalar.select Ideal.cmp
  by_cases h : 0 < z
  · simp [h]
  · simp [h]

/-- The one-hot table at a row and a graph. -/
theorem pay5_apply (v25 : Vec Ideal S5000x1 .i32) (p : Fin 5000) (g : Fin 64) :
    k2_pay5 (F := Ideal) v25 (ix2 p g) = hot (v25 (ix2 p (0 : Fin 1))) g := by
  have e1 : broadcastTo S5000x64 (shapeCast S5000x1 v25 shapeCasts_S5000x1_S5000x1) broadcasts_S5000x1_S5000x64 (ix2 p g)
      = v25 (ix2 p (0 : Fin 1)) := by
    rw [shapeCast_self]
    exact broadcastTo_apply _ _ (ix2 p g) (ix2 p (0 : Fin 1)) (fun a => by match a with | ⟨0, _⟩ => rfl | ⟨1, _⟩ => rfl)
  have e2 : iota .tc S5000x64 32 [1] iota_S5000x64_d1_w32 (ix2 p g) = BitVec.ofNat 32 g.val :=
    iota_single_apply .tc S5000x64 32 1 iota_S5000x64_d1_w32 (ix2 p g)
  show ((((IntOp.cmpi .eq (broadcastTo S5000x64 (shapeCast S5000x1 v25 shapeCasts_S5000x1_S5000x1) broadcasts_S5000x1_S5000x64 (ix2 p g)) (iota .tc S5000x64 32 [1] iota_S5000x64_d1_w32 (ix2 p g))).setWidth 32).toInt : ℝ) : EReal) = _
  rw [e1, e2]
  unfold hot
  by_cases h : v25 (ix2 p (0 : Fin 1)) = BitVec.ofNat 32 g.val
  · rw [if_pos h, cmpi_eq_one h, show ((1#1 : BitVec 1).setWidth 32).toInt = 1 from by decide]; simp
  · rw [if_neg h, cmpi_eq_zero h, show ((0#1 : BitVec 1).setWidth 32).toInt = 0 from by decide]; simp

/-- The bias row broadcast down the block's rows. -/
theorem bias_row_apply (v15 : Vec Ideal S128 .f32) (p : Fin 5000) (j : Fin 128) :
    broadcastTo S5000x128 (shapeCast S1x128 v15 shapeCasts_S128_S1x128) broadcasts_S1x128_S5000x128 (ix2 p j) = v15 (ix1 j) :=
  (broadcastTo_1b_ab_apply _ _ p j).trans (shapeCast_a_1a_apply v15 _ 0 j)

/-- The block's contribution to the sums: for graph `g` and column `j`, the rectified mixing of the block's rows
    weighted by the one-hot table. -/
theorem pay6_apply (v3 : Vec Ideal S5000x128 .f32) (v6 : Vec Ideal S5000x128 .bf16) (v8 : Vec Ideal S128x128 .f32)
    (v10 : Vec Ideal S128x128 .f32) (v15 : Vec Ideal S128 .f32) (v25 : Vec Ideal S5000x1 .i32) (g : Fin 64) (j : Fin 128) :
    k2_pay6 (F := Ideal) v3 v6 v8 v10 v15 v25 (ix2 g j)
      = ∑ p : Fin 5000, hot (v25 (ix2 p (0 : Fin 1))) g
          * lrelu (((∑ l : Fin 128, v3 (ix2 p l) * v8 (ix2 l j)) + ∑ l : Fin 128, v6 (ix2 p l) * v10 (ix2 l j)) + v15 (ix1 j)) := by
  unfold k2_pay6
  refine (LibDot.matmul_colCol_apply (K := 5000) (M := 64) (N := 128) dot_S5000x64_S5000x128_S64x128_0_0_1_1_n_n_wf none _ _ g j).trans ?_
  refine Finset.sum_congr rfl fun p _ => ?_
  rw [pay5_apply]
  refine congrArg (fun z => hot (v25 (ix2 p (0 : Fin 1))) g * z) ?_
  refine (lrelu_select _).trans (congrArg lrelu ?_)
  refine congrArg₂ (· + ·) (congrArg₂ (· + ·) ?_ ?_) (bias_row_apply v15 p j)
  · refine (LibDot.matmul_rowCol_apply (M := 5000) (K := 128) (N := 128) dot_S5000x128_S128x128_S5000x128_1_0_0_1_n_n_wf none _ _ p j).trans ?_
    refine Finset.sum_congr rfl fun l _ => ?_
    rw [shapeCast_self]; rfl
  · refine (LibDot.matmul_rowCol_apply (M := 5000) (K := 128) (N := 128) dot_S5000x128_S128x128_S5000x128_1_0_0_1_n_n_wf none _ _ p j).trans ?_
    refine Finset.sum_congr rfl fun l _ => ?_
    rw [shapeCast_self]; rfl

/-- The block's contribution to the counts: for graph `g`, the number of the block's rows the table marks. -/
theorem pay7_apply (v25 : Vec Ideal S5000x1 .i32) (g : Fin 64) :
    k2_pay7 (F := Ideal) v25 (ix2 g (0 : Fin 1)) = ∑ p : Fin 5000, hot (v25 (ix2 p (0 : Fin 1))) g := by
  unfold k2_pay7
  refine (LibDot.matmul_colCol_apply (K := 5000) (M := 64) (N := 1) dot_S5000x64_S5000x1_S64x1_0_0_1_1_n_n_wf none _ _ g 0).trans ?_
  refine Finset.sum_congr rfl fun p _ => ?_
  rw [pay5_apply]
  show _ * Ideal.ofBits .bf16 0x3F80#16 = _
  rw [Ideal.ofBits_one_bf16, mul_one]

theorem pay1_apply (v33 : FVec Ideal S64x128 .f32) (v36 : Vec Ideal S64x128 .f32) (g : Fin 64) (j : Fin 128) :
    k2_pay1 (F := Ideal) v33 v36 (ix2 g j) = v36 (ix2 g j) + v33 (ix2 g j) := by
  unfold k2_pay1
  rw [shapeCast_self]
  rfl

theorem pay2_apply (v35 : FVec Ideal S64x1 .f32) (v40 : Vec Ideal S64x1 .f32) (g : Fin 64) :
    k2_pay2 (F := Ideal) v35 v40 (ix2 g (0 : Fin 1)) = v40 (ix2 g (0 : Fin 1)) + v35 (ix2 g (0 : Fin 1)) := by
  unfold k2_pay2
  rw [shapeCast_self]
  rfl

theorem pay3_apply (i : S64x128.Idx) : k2_pay3 (F := Ideal) i = 0 := Ideal.ofBits_zero_f32
theorem pay4_apply (i : S64x1.Idx) : k2_pay4 (F := Ideal) i = 0 := Ideal.ofBits_zero_f32

end Payloads

section Blocks

/-- The block index maps of the third launch's input windows, decided over its twenty points: the three big windows
    move down the rows with the point, the weights and the bias stay. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : Entry) (c : Dev nD)

/-- Row `p` of the neighbours' sums block at point `t` is row `5000 t + p` of the array. -/
theorem blk0_apply (t : Fin cfg2.N) (p : Fin 5000) (l : Fin 128) (h : 5000 * t.val + p.val < 100000) :
    (iblk2 V c 0 t : Vec Ideal S5000x128 .f32) (ix2 p l) = tab2 (A := 100000) (B := 128) (V c main_v27) ⟨5000 * t.val + p.val, h⟩ l := by
  obtain ⟨e0, e1, -⟩ := idx2_facts t
  unfold iblk2 tab2
  rw [View.read_apply]
  show V c main_v27 _ = V c main_v27 _
  congr 1
  funext a; apply Fin.ext
  match a with
  | ⟨0, _⟩ => show win2_0.index t (0 : Fin 2) * 5000 + 1 * p.val = 5000 * t.val + p.val; omega
  | ⟨1, _⟩ => show win2_0.index t (1 : Fin 2) * 128 + 1 * l.val = l.val; omega

/-- Row `p` of the nodes' own rows block at point `t` is row `5000 t + p` of the array. -/
theorem blk1_apply (t : Fin cfg2.N) (p : Fin 5000) (l : Fin 128) (h : 5000 * t.val + p.val < 100000) :
    (iblk2 V c 1 t : Vec Ideal S5000x128 .bf16) (ix2 p l) = tab2 (A := 100000) (B := 128) (V c main_v16) ⟨5000 * t.val + p.val, h⟩ l := by
  obtain ⟨-, -, e0, e1, -⟩ := idx2_facts t
  unfold iblk2 tab2
  rw [View.read_apply]
  show V c main_v16 _ = V c main_v16 _
  congr 1
  funext a; apply Fin.ext
  match a with
  | ⟨0, _⟩ => show win2_1.index t (0 : Fin 2) * 5000 + 1 * p.val = 5000 * t.val + p.val; omega
  | ⟨1, _⟩ => show win2_1.index t (1 : Fin 2) * 128 + 1 * l.val = l.val; omega

/-- The first weight matrix's block is the whole matrix at every point. -/
theorem blk2_apply (t : Fin cfg2.N) (l : Fin 128) (j : Fin 128) :
    (iblk2 V c 2 t : Vec Ideal S128x128 .f32) (ix2 l j) = tab2 (A := 128) (B := 128) (V c main_arg10) l j := by
  obtain ⟨-, -, -, -, e0, e1, -⟩ := idx2_facts t
  unfold iblk2 tab2
  rw [View.read_apply]
  show V c main_arg10 _ = V c main_arg10 _
  congr 1
  funext a; apply Fin.ext
  match a with
  | ⟨0, _⟩ => show win2_2.index t (0 : Fin 2) * 128 + 1 * l.val = l.val; omega
  | ⟨1, _⟩ => show win2_2.index t (1 : Fin 2) * 128 + 1 * j.val = j.val; omega

/-- The bias's block is the whole bias at every point. -/
theorem blk3_apply (t : Fin cfg2.N) (j : Fin 128) :
    (iblk2 V c 3 t : Vec Ideal S128 .f32) (ix1 j) = tab1 (A := 128) (V c main_arg11) j := by
  obtain ⟨-, -, -, -, -, -, e0, -⟩ := idx2_facts t
  unfold iblk2 tab1
  rw [View.read_apply]
  show V c main_arg11 _ = V c main_arg11 _
  congr 1
  funext a; apply Fin.ext
  match a with
  | ⟨0, _⟩ => show win2_3.index t (0 : Fin 1) * 128 + 1 * j.val = j.val; omega

/-- The second weight matrix's block is the whole matrix at every point. -/
theorem blk4_apply (t : Fin cfg2.N) (l : Fin 128) (j : Fin 128) :
    (iblk2 V c 4 t : Vec Ideal S128x128 .f32) (ix2 l j) = tab2 (A := 128) (B := 128) (V c main_arg12) l j := by
  obtain ⟨-, -, -, -, -, -, -, e0, e1, -⟩ := idx2_facts t
  unfold iblk2 tab2
  rw [View.read_apply]
  show V c main_arg12 _ = V c main_arg12 _
  congr 1
  funext a; apply Fin.ext
  match a with
  | ⟨0, _⟩ => show win2_4.index t (0 : Fin 2) * 128 + 1 * l.val = l.val; omega
  | ⟨1, _⟩ => show win2_4.index t (1 : Fin 2) * 128 + 1 * j.val = j.val; omega

/-- Row `p` of the graph words block at point `t` is the graph word of node `5000 t + p`. -/
theorem blk5_apply (t : Fin cfg2.N) (p : Fin 5000) (h : 5000 * t.val + p.val < 100000) :
    (iblk2 V c 5 t : Vec Ideal S5000x1 .i32) (ix2 p (0 : Fin 1)) = col0 (A := 100000) (V c main_v28) ⟨5000 * t.val + p.val, h⟩ := by
  obtain ⟨-, -, -, -, -, -, -, -, -, e0, e1⟩ := idx2_facts t
  unfold iblk2 col0
  rw [View.read_apply]
  show V c main_v28 _ = V c main_v28 _
  congr 1
  funext a; apply Fin.ext
  match a with
  | ⟨0, _⟩ => show win2_5.index t (0 : Fin 2) * 5000 + 1 * p.val = 5000 * t.val + p.val; omega
  | ⟨1, _⟩ => show win2_5.index t (1 : Fin 2) * 1 + 1 * 0 = 0; omega

end Blocks

section Accumulation
variable (V : Entry) (c : Dev nD)

/-- Node `r`'s term in the sum of graph `g` at column `j`: its rectified mixing where its graph word is `g`, zero
    elsewhere and past the table's end. -/
def sumTerm (g : Fin 64) (j : Fin 128) (r : ℕ) : EReal :=
  if h : r < 100000 then hot (col0 (A := 100000) (V c main_v28) ⟨r, h⟩) g * mixed2 V c ⟨r, h⟩ j else 0

/-- Node `r`'s term in the count of graph `g`: one where its graph word is `g`, zero elsewhere and past the table's end. -/
def cntTerm (g : Fin 64) (r : ℕ) : EReal :=
  if h : r < 100000 then hot (col0 (A := 100000) (V c main_v28) ⟨r, h⟩) g else 0

/-- The block's contribution to the sums at point `t` is the sum of the terms of nodes `5000 t … 5000 t + 4999`. -/
theorem block_sum (t : Fin cfg2.N) (g : Fin 64) (j : Fin 128) :
    k2_pay6 (F := Ideal) (iblk2 V c 0 t) (iblk2 V c 1 t) (iblk2 V c 2 t) (iblk2 V c 4 t) (iblk2 V c 3 t) (iblk2 V c 5 t) (ix2 g j)
      = ∑ p ∈ Finset.range 5000, sumTerm V c g j (5000 * t.val + p) := by
  have hN : t.val < 20 := lt_of_lt_of_eq t.isLt (show cfg2.N = 20 from N_2)
  refine (pay6_apply (iblk2 V c 0 t) (iblk2 V c 1 t) (iblk2 V c 2 t) (iblk2 V c 4 t) (iblk2 V c 3 t) (iblk2 V c 5 t) g j).trans ?_
  rw [← Fin.sum_univ_eq_sum_range (fun p => sumTerm V c g j (5000 * t.val + p)) 5000]
  refine Finset.sum_congr rfl fun p _ => ?_
  have hp : 5000 * t.val + p.val < 100000 := by have := p.isLt; omega
  unfold sumTerm
  rw [dif_pos hp]
  refine congrArg₂ (· * ·) (congrArg (fun w => hot w g) (blk5_apply V c t p hp)) ?_
  unfold mixed2 act
  refine congrArg lrelu ?_
  refine Eq.trans ?_ (conv_bias_last _ _ _ _ _ _ _)
  refine congrArg₂ (· + ·) (congrArg₂ (· + ·) (Finset.sum_congr rfl fun l _ => ?_) (Finset.sum_congr rfl fun l _ => ?_)) ?_
  · exact congrArg₂ (· * ·) (blk0_apply V c t p l hp) (blk2_apply V c t l j)
  · exact congrArg₂ (· * ·) (blk1_apply V c t p l hp) (blk4_apply V c t l j)
  · exact blk3_apply V c t j

/-- The block's contribution to the counts at point `t` is the sum of the count terms of its nodes. -/
theorem block_cnt (t : Fin cfg2.N) (g : Fin 64) :
    k2_pay7 (F := Ideal) (iblk2 V c 5 t) (ix2 g (0 : Fin 1)) = ∑ p ∈ Finset.range 5000, cntTerm V c g (5000 * t.val + p) := by
  have hN : t.val < 20 := lt_of_lt_of_eq t.isLt (show cfg2.N = 20 from N_2)
  refine (pay7_apply (iblk2 V c 5 t) g).trans ?_
  rw [← Fin.sum_univ_eq_sum_range (fun p => cntTerm V c g (5000 * t.val + p)) 5000]
  refine Finset.sum_congr rfl fun p _ => ?_
  have hp : 5000 * t.val + p.val < 100000 := by have := p.isLt; omega
  unfold cntTerm
  rw [dif_pos hp]
  exact congrArg (fun w => hot w g) (blk5_apply V c t p hp)

end Accumulation

section Invariant
variable (V : Entry) (c : Dev nD)

/-- After point `n` the sums accumulator holds, at `(g, j)`, the sum of the terms of the nodes below `5000 (n + 1)`:
    the first point starts from zero, every later one adds its block to what the point before left. -/
theorem sums_at : ∀ (n : ℕ) (h : n < cfg2.N) (g : Fin 64) (j : Fin 128),
    (outsAt2 (F := Ideal) V c n h).1 (ix2 g j) = ∑ r ∈ Finset.range (5000 * (n + 1)), sumTerm V c g j r
  | 0, h, g, j => by
    rw [outsAt2_A V c ⟨0, h⟩ rfl]
    dsimp only
    refine (congrFun (piece_A_6 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (ix2 g j)).trans ?_
    refine (pay1_apply _ _ g j).trans ?_
    rw [pay3_apply, zero_add]
    refine (block_sum V c ⟨0, h⟩ g j).trans ?_
    refine Finset.sum_congr rfl fun p _ => ?_
    show sumTerm V c g j (5000 * 0 + p) = _
    rw [Nat.mul_zero, Nat.zero_add]
  | n + 1, h, g, j => by
    have hN : cfg2.N = 20 := N_2
    have hB : ¬(⟨n + 1, h⟩ : Fin cfg2.N).val % 20 = 0 := by dsimp only; omega
    rw [outsAt2_B V c ⟨n + 1, h⟩ hB]
    dsimp only
    refine (congrFun (piece_B_6 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).1 (outsAt2 V c n (Nat.lt_of_succ_lt h)).2) (ix2 g j)).trans ?_
    refine (pay1_apply _ _ g j).trans ?_
    rw [sums_at n (Nat.lt_of_succ_lt h) g j, show 5000 * (n + 1 + 1) = 5000 * (n + 1) + 5000 from by ring, Finset.sum_range_add]
    exact congrArg (fun z => _ + z) (block_sum V c ⟨n + 1, h⟩ g j)

/-- After point `n` the counts accumulator holds, at `g`, the number of nodes below `5000 (n + 1)` whose graph word is `g`. -/
theorem counts_at : ∀ (n : ℕ) (h : n < cfg2.N) (g : Fin 64),
    (outsAt2 (F := Ideal) V c n h).2 (ix2 g (0 : Fin 1)) = ∑ r ∈ Finset.range (5000 * (n + 1)), cntTerm V c g r
  | 0, h, g => by
    rw [outsAt2_A V c ⟨0, h⟩ rfl]
    dsimp only
    refine (congrFun (piece_A_7 (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr rfl) (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (ix2 g (0 : Fin 1))).trans ?_
    refine (pay2_apply _ _ g).trans ?_
    rw [pay4_apply, zero_add]
    refine (block_cnt V c ⟨0, h⟩ g).trans ?_
    refine Finset.sum_congr rfl fun p _ => ?_
    show cntTerm V c g (5000 * 0 + p) = _
    rw [Nat.mul_zero, Nat.zero_add]
  | n + 1, h, g => by
    have hN : cfg2.N = 20 := N_2
    have hB : ¬(⟨n + 1, h⟩ : Fin cfg2.N).val % 20 = 0 := by dsimp only; omega
    rw [outsAt2_B V c ⟨n + 1, h⟩ hB]
    dsimp only
    refine (congrFun (piece_B_7 (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (outsAt2 V c n (Nat.lt_of_succ_lt h)).1 (outsAt2 V c n (Nat.lt_of_succ_lt h)).2) (ix2 g (0 : Fin 1))).trans ?_
    refine (pay2_apply _ _ g).trans ?_
    rw [counts_at n (Nat.lt_of_succ_lt h) g, show 5000 * (n + 1 + 1) = 5000 * (n + 1) + 5000 from by ring, Finset.sum_range_add]
    exact congrArg (fun z => _ + z) (block_cnt V c ⟨n + 1, h⟩ g)

end Invariant

section Words

/-- The word of a graph number below 64, read signed, is the number. -/
theorem toInt_ofNat_graph (g : Fin 64) : (BitVec.ofNat 32 g.val).toInt = (g.val : ℤ) := by
  have hg := g.isLt
  rw [BitVec.toInt_eq_toNat_cond, BitVec.toNat_ofNat, Nat.mod_eq_of_lt (by omega : g.val < 2 ^ 32)]
  rw [if_pos (by omega)]

/-- A word is the word of graph `g` exactly when it reads signed as `g`. -/
theorem word_eq_iff (w : BitVec 32) (g : Fin 64) : w = BitVec.ofNat 32 g.val ↔ w.toInt = (g.val : ℤ) := by
  constructor
  · rintro rfl; exact toInt_ofNat_graph g
  · intro h; apply BitVec.eq_of_toInt_eq; rw [h, toInt_ofNat_graph]

/-- Weighting by the one-hot entry keeps the number where the word reads `g` and gives zero elsewhere. -/
theorem hot_mul (w : BitVec 32) (g : Fin 64) (y : EReal) : hot w g * y = if w.toInt = (g.val : ℤ) then y else 0 := by
  unfold hot
  by_cases h : w = BitVec.ofNat 32 g.val
  · rw [if_pos h, if_pos ((word_eq_iff w g).mp h), one_mul]
  · rw [if_neg h, if_neg (fun h' => h ((word_eq_iff w g).mpr h')), zero_mul]

theorem hot_eq (w : BitVec 32) (g : Fin 64) : hot w g = if w.toInt = (g.val : ℤ) then 1 else 0 := by
  have := hot_mul w g 1
  rwa [mul_one] at this

end Words

section Final
variable (V : Entry) (c : Dev nD)

/-- The terms of all the nodes add up to the per-graph sum. -/
theorem sum_all (g : Fin 64) (j : Fin 128) :
    ∑ r ∈ Finset.range (5000 * (19 + 1)), sumTerm V c g j r = segSum (col0 (A := 100000) (V c main_v28)) (mixed2 V c) g j := by
  rw [show 5000 * (19 + 1) = 100000 from rfl, Finset.sum_range]
  unfold segSum
  rw [Finset.sum_filter]
  refine Finset.sum_congr rfl fun r _ => ?_
  unfold sumTerm
  rw [dif_pos r.isLt]
  exact hot_mul _ _ _

/-- The count terms of all the nodes add up to the per-graph count. -/
theorem cnt_all (g : Fin 64) :
    ∑ r ∈ Finset.range (5000 * (19 + 1)), cntTerm V c g r = segCount (col0 (A := 100000) (V c main_v28)) g := by
  rw [show 5000 * (19 + 1) = 100000 from rfl, Finset.sum_range]
  unfold segCount
  rw [Finset.sum_filter]
  refine Finset.sum_congr rfl fun r _ => ?_
  unfold cntTerm
  rw [dif_pos r.isLt]
  exact hot_eq _ _

theorem last_lt : 19 < cfg2.N := by rw [show cfg2.N = 20 from N_2]; decide

/-- The last point of the launch. -/
abbrev tLast : Fin cfg2.N := ⟨19, last_lt⟩

/-- What the sums accumulator holds after the last point, as contents of the sums array. -/
abbrev sumsResult : Buf (Elt Ideal) ((c : Thread nD τ).loc main_v29_0) := (outsAt2 (F := Ideal) V c 19 last_lt).1
/-- What the counts accumulator holds after the last point, as contents of the counts array. -/
abbrev countsResult : Buf (Elt Ideal) ((c : Thread nD τ).loc main_v29_1) := (outsAt2 (F := Ideal) V c 19 last_lt).2

/-- The one write-back of the sums, after the last point, writes the accumulator: its one block is the whole array. -/
theorem flushed6_eq (t : Fin cfg2.N) (hf : (cfg2.win 6).flush t = true) :
    (dat2 (F := Ideal) V c).flushed 6 t = ((cfg2.win 6).blk t).view.read (Elt Ideal) (sumsResult V c) := by
  have hN : cfg2.N = 20 := N_2
  have h19 : t.val = 19 := by have := (flush2_6 t).mp hf; have := t.isLt; omega
  obtain rfl : t = tLast := Fin.ext h19
  show (cfg2.win 6).cut (grid2.coords tLast) ((dat2 V c).after 6 tLast) = _
  rw [after2_6]
  have hz' : (fun a => win2_6.index tLast a * main_v29_0.ty.shape.size a) = fun _ => 0 := funext fun a => by fin_cases a <;> decide +kernel
  exact (Memref.read_access_unit_zero (Elt Ideal) main_v29_0 hz' (fun a => by rw [congrFun hz' a]; simp) (sumsResult V c)).symm

/-- The one write-back of the counts, after the last point, writes the accumulator: its one block is the whole array. -/
theorem flushed7_eq (t : Fin cfg2.N) (hf : (cfg2.win 7).flush t = true) :
    (dat2 (F := Ideal) V c).flushed 7 t = ((cfg2.win 7).blk t).view.read (Elt Ideal) (countsResult V c) := by
  have hN : cfg2.N = 20 := N_2
  have h19 : t.val = 19 := by have := (flush2_7 t).mp hf; have := t.isLt; omega
  obtain rfl : t = tLast := Fin.ext h19
  show (cfg2.win 7).cut (grid2.coords tLast) ((dat2 V c).after 7 tLast) = _
  rw [after2_7]
  have hz' : (fun a => win2_7.index tLast a * main_v29_1.ty.shape.size a) = fun _ => 0 := funext fun a => by fin_cases a <;> decide +kernel
  exact (Memref.read_access_unit_zero (Elt Ideal) main_v29_1 hz' (fun a => by rw [congrFun hz' a]; simp) (countsResult V c)).symm

/-- So the sums array ends holding the accumulator after the last point: that point's block covers it. -/
theorem final6 : (dat2 (F := Ideal) V c).arrAt 6 cfg2.N = sumsResult V c :=
  (dat2 V c).arrAt_eq_of_cover 6 (sumsResult V c) (flushed6_eq V c) fun i =>
    ⟨tLast, (flush2_6 tLast).mpr rfl, by
      show i ∈ ((View.whole main_v29_0).slice (win2_6.rect tLast)).set
      rw [View.set_slice_whole, Rect.mem_set_unit]
      intro a
      have h0 : (i 0 : Nat) < 64 := (i 0).isLt
      have h1 : (i 1 : Nat) < 128 := (i 1).isLt
      match a with
      | ⟨0, _⟩ => show win2_6.index tLast 0 * win2_6.size 0 ≤ (i 0 : Nat) ∧ (i 0 : Nat) < win2_6.index tLast 0 * win2_6.size 0 + win2_6.xsize (grid2.coords tLast) 0
                  rw [show win2_6.index tLast 0 * win2_6.size 0 = 0 from by decide +kernel, show win2_6.xsize (grid2.coords tLast) 0 = 64 from by decide +kernel]; omega
      | ⟨1, _⟩ => show win2_6.index tLast 1 * win2_6.size 1 ≤ (i 1 : Nat) ∧ (i 1 : Nat) < win2_6.index tLast 1 * win2_6.size 1 + win2_6.xsize (grid2.coords tLast) 1
                  rw [show win2_6.index tLast 1 * win2_6.size 1 = 0 from by decide +kernel, show win2_6.xsize (grid2.coords tLast) 1 = 128 from by decide +kernel]; omega⟩

/-- So the counts array ends holding the accumulator after the last point: that point's block covers it. -/
theorem final7 : (dat2 (F := Ideal) V c).arrAt 7 cfg2.N = countsResult V c :=
  (dat2 V c).arrAt_eq_of_cover 7 (countsResult V c) (flushed7_eq V c) fun i =>
    ⟨tLast, (flush2_7 tLast).mpr rfl, by
      show i ∈ ((View.whole main_v29_1).slice (win2_7.rect tLast)).set
      rw [View.set_slice_whole, Rect.mem_set_unit]
      intro a
      have h0 : (i 0 : Nat) < 64 := (i 0).isLt
      have h1 : (i 1 : Nat) < 1 := (i 1).isLt
      match a with
      | ⟨0, _⟩ => show win2_7.index tLast 0 * win2_7.size 0 ≤ (i 0 : Nat) ∧ (i 0 : Nat) < win2_7.index tLast 0 * win2_7.size 0 + win2_7.xsize (grid2.coords tLast) 0
                  rw [show win2_7.index tLast 0 * win2_7.size 0 = 0 from by decide +kernel, show win2_7.xsize (grid2.coords tLast) 0 = 64 from by decide +kernel]; omega
      | ⟨1, _⟩ => show win2_7.index tLast 1 * win2_7.size 1 ≤ (i 1 : Nat) ∧ (i 1 : Nat) < win2_7.index tLast 1 * win2_7.size 1 + win2_7.xsize (grid2.coords tLast) 1
                  rw [show win2_7.index tLast 1 * win2_7.size 1 = 0 from by decide +kernel, show win2_7.xsize (grid2.coords tLast) 1 = 1 from by decide +kernel]; omega⟩

end Final

end Reg2

open Reg2

/-- Entry `(g, j)` of the sums array after the run. -/
theorem reg2_sums (V : Entry) (c : Dev nD) (g : Fin 64) (j : Fin 128) :
    (dat2 (F := Ideal) V c).arrAt 6 cfg2.N (ix2 g j) = segSum (col0 (A := 100000) (V c main_v28)) (mixed2 V c) g j := by
  refine (congrFun (final6 V c) (ix2 g j)).trans ?_
  refine (sums_at V c 19 last_lt g j).trans ?_
  exact sum_all V c g j

/-- Entry `(g, 0)` of the counts array after the run. -/
theorem reg2_counts (V : Entry) (c : Dev nD) (g : Fin 64) :
    (dat2 (F := Ideal) V c).arrAt 7 cfg2.N (ix2 g (0 : Fin 1)) = segCount (col0 (A := 100000) (V c main_v28)) g := by
  refine (congrFun (final7 V c) (ix2 g (0 : Fin 1))).trans ?_
  refine (counts_at V c 19 last_lt g).trans ?_
  exact cnt_all V c g

end Cert.KernelIdeal.Val

end
-- ==== Proof.KReg3.lean ====
/-
  The fourth launch, read as values: its one point stores the three closing layers of the 64 graph rows.
  Stated at any contents `V` the launch may find in its seven input arrays.
-/
import proofs.«426622_j23862838296799_2_alg».proof.Proof.Gen.KernelIdeal.Frame
import proofs.«426622_j23862838296799_2_alg».proof.Proof.Spec
import proofs.«426622_j23862838296799_2_alg».proof.Proof.LibDot
import proofs.«426622_j23862838296799_2_alg».proof.Proof.KTypes
import Idealize.ShloMosaic.Lib.Pipeline.Value

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.GNN

/-! ## The rectifier and a dense layer of the kernel, at an entry -/

/-- The kernel's rectifier — keep `z` where `z` is above zero, the slope times `z` elsewhere — is `lrelu`. -/
theorem krelu_eq (z : EReal) :
    Scalar.select (Ideal.cmp .ogt z (Ideal.ofBits .f32 0x00000000#32)) z (Ideal.ofBits .f32 0x3C23D70A#32 * z) = lrelu z := by
  rw [Ideal.ofBits_zero_f32]
  unfold lrelu GNN.slope Ideal.cmp Scalar.select
  by_cases h : 0 < z
  · simp [h]
  · simp [h]

/-- The rectifier on a table, whatever the table is known to be. -/
theorem kact_entry {A B : Nat} (z : FVec Ideal ⟨2, ![A, B]⟩ .f32) (Z : Mat A B) (hz : ∀ r j, z (ix2 r j) = Z r j)
    (r : Fin A) (j : Fin B) :
    select (cmpf .ogt z (broadcast ⟨2, ![A, B]⟩ (Scalar.ofBits (F := Ideal) .f32 0x00000000#32))) z
        (mulf (broadcast ⟨2, ![A, B]⟩ (Scalar.ofBits (F := Ideal) .f32 0x3C23D70A#32)) z) (ix2 r j) = act Z r j := by
  unfold act
  rw [← hz r j]
  exact krelu_eq _

/-- A bias row spread over the rows of a table reads the bias at the column. -/
theorem bias_entry {M N : Nat} (b : FVec Ideal ⟨1, ![N]⟩ .f32) (hs : (⟨1, ![N]⟩ : Shape).ShapeCasts ⟨2, ![1, N]⟩)
    (hb : (⟨2, ![1, N]⟩ : Shape).Broadcasts ⟨2, ![M, N]⟩) (r : Fin M) (j : Fin N) :
    broadcastTo ⟨2, ![M, N]⟩ (shapeCast ⟨2, ![1, N]⟩ b hs) hb (ix2 r j) = b (ix1 j) := by
  refine (broadcastTo_apply _ hb (ix2 r j) (ix2 (0 : Fin 1) j) (fun a => ?_)).trans ?_
  · match a with
    | ⟨0, _⟩ => show (0 : ℕ) = if (1 : ℕ) = 1 then 0 else _; rw [if_pos rfl]
    | ⟨1, _⟩ =>
      show j.val = if N = 1 then 0 else j.val
      split
      · have := j.isLt; omega
      · rfl
  · refine (shapeCast_addUnit_apply ![N] b hs (ix2 (0 : Fin 1) j)).trans ?_
    exact congrArg b (funext fun a => by match a with | ⟨0, _⟩ => rfl)

/-- A dense layer of the kernel — the product into a zero accumulator plus the spread bias — at an entry, whatever
    its input table is known to be. -/
theorem kdense_entry {M K N : Nat} (wf : DotDims.WF ⟨2, ![M, K]⟩ ⟨2, ![K, N]⟩ ⟨2, ![M, N]⟩ [1] [0] [0] [1] [] [])
    (x : FVec Ideal ⟨2, ![M, K]⟩ .bf16) (w : FVec Ideal ⟨2, ![K, N]⟩ .bf16) (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (X : Mat M K) (hx : ∀ r l, x (ix2 r l) = X r l) (r : Fin M) (j : Fin N) :
    addf (FloatOps.matmul (Cert.LibDot.rowColDims M K N wf) none x w (constant ⟨2, ![M, N]⟩ .f32 0x00000000#32))
        (broadcastTo ⟨2, ![M, N]⟩ (shapeCast ⟨2, ![1, N]⟩ b hs) hb) (ix2 r j)
      = dense X (tab2 w) (tab1 b) r j := by
  show FloatOps.matmul (Cert.LibDot.rowColDims M K N wf) none x w (constant ⟨2, ![M, N]⟩ .f32 0x00000000#32) (ix2 r j)
      + broadcastTo ⟨2, ![M, N]⟩ (shapeCast ⟨2, ![1, N]⟩ b hs) hb (ix2 r j) = _
  rw [Cert.LibDot.matmul_rowCol_apply, bias_entry]
  unfold dense tab2 tab1
  exact congrArg (· + b (ix1 j)) (Finset.sum_congr rfl fun l _ => by rw [hx r l])

/-- THE PAYLOAD AT AN ENTRY: three dense layers, the first two rectified. -/
theorem pay_entry (x0 : Vec Ideal S64x128 .f32) (x1 : Vec Ideal S128x128 .f32) (x2 : Vec Ideal S128 .f32)
    (x3 : Vec Ideal S128x64 .f32) (x4 : Vec Ideal S64 .f32) (x5 : Vec Ideal S64x2 .f32) (x6 : Vec Ideal S2 .f32)
    (g : Fin 64) (j : Fin 2) :
    k3_pay1 (F := Ideal) x0 x1 x2 x3 x4 x5 x6 (ix2 g j)
      = head (tab2 (A := 64) (B := 128) x0) (tab2 (A := 128) (B := 128) x1) (tab1 (A := 128) x2)
          (tab2 (A := 128) (B := 64) x3) (tab1 (A := 64) x4) (tab2 (A := 64) (B := 2) x5) (tab1 (A := 2) x6) g j := by
  unfold k3_pay1 head
  refine kdense_entry dot_S64x64_S64x2_S64x2_1_0_0_1_n_n_wf _ _ _ _ _ _ (fun r l => ?_) g j
  refine kact_entry _ _ (fun r l => ?_) r l
  refine kdense_entry dot_S64x128_S128x64_S64x64_1_0_0_1_n_n_wf _ _ _ _ _ _ (fun r l => ?_) r l
  refine kact_entry _ _ (fun r l => ?_) r l
  refine kdense_entry dot_S64x128_S128x128_S64x128_1_0_0_1_n_n_wf _ _ _ _ _ _ (fun r l => ?_) r l
  show shapeCast S64x128 x0 shapeCasts_S64x128_S64x128 (ix2 r l) = x0 (ix2 r l)
  rw [shapeCast_self]

/-! ## From the one point's block to the array -/

theorem hz1 : (![0] : Fin 1 → Nat) = fun _ => 0 := funext fun a => by fin_cases a <;> rfl
theorem hz2 : (![0, 0] : Fin 2 → Nat) = fun _ => 0 := funext fun a => by fin_cases a <;> rfl

/-- What the output array ends holding: the payload of the seven input arrays as the launch finds them. -/
abbrev G3 (a0 : S64x128.Idx → Elt Ideal .f32) (a1 : S128x128.Idx → Elt Ideal .f32) (a2 : S128.Idx → Elt Ideal .f32)
    (a3 : S128x64.Idx → Elt Ideal .f32) (a4 : S64.Idx → Elt Ideal .f32) (a5 : S64x2.Idx → Elt Ideal .f32)
    (a6 : S2.Idx → Elt Ideal .f32) : S64x2.Idx → Elt Ideal .f32 := k3_pay1 (F := Ideal) a0 a1 a2 a3 a4 a5 a6

/-- The printed index maps, decided over the grid: every window's block index is zero on every axis. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0 :=
  (by decide +kernel : ∀ t : Fin grid3.N, _)

/-- WHAT THE POINT WRITES BACK is the block of `G3` of the input arrays as the launch finds them. -/
theorem flushed3_eq (V : Entry) (c : Dev nD) (t : Fin cfg3.N) :
    (dat3 (F := Ideal) V c).flushed 7 t = ((cfg3.win 7).blk t).view.read (Elt Ideal)
      (G3 (V c main_v33) (V c main_arg13) (V c main_arg14) (V c main_arg15) (V c main_arg16) (V c main_arg17) (V c main_arg18)) := by
  show (cfg3.win 7).cut (grid3.coords t) ((dat3 (F := Ideal) V c).after 7 t) = _
  rw [after3_7]
  unfold out3_7
  rw [View.canon_unit_zero hz2]
  simp only [View.ld_unit_zero (S := S64x128) hz2, View.ld_unit_zero (S := S128x128) hz2, View.ld_unit_zero (S := S128) hz1,
    View.ld_unit_zero (S := S128x64) hz2, View.ld_unit_zero (S := S64) hz1, View.ld_unit_zero (S := S64x2) hz2,
    View.ld_unit_zero (S := S2) hz1]
  obtain ⟨e00, e01, e10, e11, e20, e30, e31, e40, e50, e51, e60, e70, e71⟩ := idx_facts3 t
  have b0 : (iblk3 (F := Ideal) V c 0 t : S64x128.Idx → Elt Ideal .f32) = V c main_v33 := by
    funext y
    show V c main_v33 (((cfg3.win 0).blk t).view.emb y) = V c main_v33 y
    refine congrArg _ (funext fun a => Fin.ext ?_)
    match a with
    | ⟨0, _⟩ => show win3_0.index t (0 : Fin 2) * 64 + 1 * (y 0).val = (y 0).val; omega
    | ⟨1, _⟩ => show win3_0.index t (1 : Fin 2) * 128 + 1 * (y 1).val = (y 1).val; omega
  have b1 : (iblk3 (F := Ideal) V c 1 t : S128x128.Idx → Elt Ideal .f32) = V c main_arg13 := by
    funext y
    show V c main_arg13 (((cfg3.win 1).blk t).view.emb y) = V c main_arg13 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have b2 : (iblk3 (F := Ideal) V c 2 t : S128.Idx → Elt Ideal .f32) = V c main_arg14 := by
    funext y
    show V c main_arg14 (((cfg3.win 2).blk t).view.emb y) = V c main_arg14 y
    refine congrArg _ (funext fun a => Fin.ext ?_)
    match a with
    | ⟨0, _⟩ => show win3_2.index t (0 : Fin 1) * 128 + 1 * (y 0).val = (y 0).val; omega
  have b3 : (iblk3 (F := Ideal) V c 3 t : S128x64.Idx → Elt Ideal .f32) = V c main_arg15 := by
    funext y
    show V c main_arg15 (((cfg3.win 3).blk t).view.emb y) = V c main_arg15 y
    refine congrArg _ (funext fun a => Fin.ext ?_)
    match a with
    | ⟨0, _⟩ => show win3_3.index t (0 : Fin 2) * 128 + 1 * (y 0).val = (y 0).val; omega
    | ⟨1, _⟩ => show win3_3.index t (1 : Fin 2) * 64 + 1 * (y 1).val = (y 1).val; omega
  have b4 : (iblk3 (F := Ideal) V c 4 t : S64.Idx → Elt Ideal .f32) = V c main_arg16 := by
    funext y
    show V c main_arg16 (((cfg3.win 4).blk t).view.emb y) = V c main_arg16 y
    refine congrArg _ (funext fun a => Fin.ext ?_)
    match a with
    | ⟨0, _⟩ => show win3_4.index t (0 : Fin 1) * 64 + 1 * (y 0).val = (y 0).val; omega
  have b5 : (iblk3 (F := Ideal) V c 5 t : S64x2.Idx → Elt Ideal .f32) = V c main_arg17 := by
    funext y
    show V c main_arg17 (((cfg3.win 5).blk t).view.emb y) = V c main_arg17 y
    refine congrArg _ (funext fun a => Fin.ext ?_)
    match a with
    | ⟨0, _⟩ => show win3_5.index t (0 : Fin 2) * 64 + 1 * (y 0).val = (y 0).val; omega
    | ⟨1, _⟩ => show win3_5.index t (1 : Fin 2) * 2 + 1 * (y 1).val = (y 1).val; omega
  have b6 : (iblk3 (F := Ideal) V c 6 t : S2.Idx → Elt Ideal .f32) = V c main_arg18 := by
    funext y
    show V c main_arg18 (((cfg3.win 6).blk t).view.emb y) = V c main_arg18 y
    refine congrArg _ (funext fun a => Fin.ext ?_)
    match a with
    | ⟨0, _⟩ => show win3_6.index t (0 : Fin 1) * 2 + 1 * (y 0).val = (y 0).val; omega
  rw [b0, b1, b2, b3, b4, b5, b6]
  funext y
  show k3_pay1 (F := Ideal) (V c main_v33) (V c main_arg13) (V c main_arg14) (V c main_arg15) (V c main_arg16) (V c main_arg17)
      (V c main_arg18) y
    = k3_pay1 (F := Ideal) (V c main_v33) (V c main_arg13) (V c main_arg14) (V c main_arg15) (V c main_arg16) (V c main_arg17)
      (V c main_arg18) (((cfg3.win 7).blk t).view.emb y)
  refine congrArg _ (funext fun a => Fin.ext ?_)
  match a with
  | ⟨0, _⟩ => show (y 0).val = win3_7.index t (0 : Fin 2) * 64 + 1 * (y 0).val; omega
  | ⟨1, _⟩ => show (y 1).val = win3_7.index t (1 : Fin 2) * 2 + 1 * (y 1).val; omega

/-- An index of the output array is in the point's block iff each coordinate is in the block's range on its axis. -/
theorem mem_blk3 (t : Fin cfg3.N) (i : S64x2.Idx) :
    i ∈ ((cfg3.win 7).blk t).view.set ↔ ∀ a : Fin 2, win3_7.index t a * S64x2.size a ≤ (i a).val
      ∧ (i a).val < win3_7.index t a * S64x2.size a + S64x2.size a := by
  show i ∈ ((View.whole main_v34).slice (win3_7.rect t)).set ↔ _
  rw [View.set_slice_whole, Rect.mem_set_unit]
  exact Iff.rfl

/-- THE COVER: every index of the output array is in the one point's block. -/
theorem cover3 (i : S64x2.Idx) :
    ∃ t : Fin cfg3.N, (cfg3.win 7).flush t = true ∧ i ∈ ((cfg3.win 7).blk t).view.set := by
  refine ⟨t3_0, flush3_7 t3_0, ?_⟩
  rw [mem_blk3]
  obtain ⟨-, -, -, -, -, -, -, -, -, -, -, e70, e71⟩ := idx_facts3 t3_0
  have hi0 : (i 0).val < 64 := (i 0).isLt
  have hi1 : (i 1).val < 2 := (i 1).isLt
  intro a
  match a with
  | ⟨0, _⟩ =>
    show win3_7.index t3_0 (0 : Fin 2) * 64 ≤ (i 0).val ∧ (i 0).val < win3_7.index t3_0 (0 : Fin 2) * 64 + 64
    omega
  | ⟨1, _⟩ =>
    show win3_7.index t3_0 (1 : Fin 2) * 2 ≤ (i 1).val ∧ (i 1).val < win3_7.index t3_0 (1 : Fin 2) * 2 + 2
    omega

/-- Entry `(g, j)` of the fourth launch's output array after its run. -/
theorem reg3_value (V : Entry) (c : Dev nD) (g : Fin 64) (j : Fin 2) :
    (dat3 (F := Ideal) V c).arrAt 7 cfg3.N (ix2 g j)
      = head (tab2 (A := 64) (B := 128) (V c main_v33)) (tab2 (A := 128) (B := 128) (V c main_arg13))
          (tab1 (A := 128) (V c main_arg14)) (tab2 (A := 128) (B := 64) (V c main_arg15)) (tab1 (A := 64) (V c main_arg16))
          (tab2 (A := 64) (B := 2) (V c main_arg17)) (tab1 (A := 2) (V c main_arg18)) g j := by
  have h := (dat3 (F := Ideal) V c).arrAt_eq_of_cover 7
    (G3 (V c main_v33) (V c main_arg13) (V c main_arg14) (V c main_arg15) (V c main_arg16) (V c main_arg17) (V c main_arg18))
    (fun t _ => flushed3_eq V c t) cover3
  exact (congrFun h (ix2 g j)).trans (pay_entry _ _ _ _ _ _ _ g j)

end Cert.KernelIdeal.Val

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.KHost.lean ====
/-
  The host operations between the launches, read as values at any contents `W` they may start from:
  the two rows of the edge table as sequences of words; the neighbours' sums (each source word made a row number, the
  rows looked up, and added into the rows the target words name) — the same stretch before the second and the third
  launch —; the graph words as a column; and the per-graph means from the sums and the counts.
-/
import proofs.«426622_j23862838296799_2_alg».proof.Proof.Gen.KernelIdeal.Launch
import proofs.«426622_j23862838296799_2_alg».proof.Proof.Spec
import proofs.«426622_j23862838296799_2_alg».proof.Proof.LibGS
import proofs.«426622_j23862838296799_2_alg».proof.Proof.KTypes
import Idealize.ShloMosaic.Lib.StableHlo.Run
import Idealize.ShloMosaic.Lib.Pipeline.Value

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.GNN

/-! ## The single operations read at an index (in a namespace of their own) -/

namespace HostOps

/-- Row `r` of the two-row edge table, cut out as a one-row table and flattened, reads at `e` the table's entry
    `(r, e)`: the flattening keeps the row-major position `0 * 800000 + e = e`, the cut shifts the row by `r`. -/
theorem row_apply (W : Vals) (r : Fin 2) (e : Fin 800000) (h1 : S2x800000.Slices ![r.val, 0] S1x800000) :
    shapeCast S800000 (extractStridedSlice S1x800000 ![r.val, 0] (W (Proc.devRef .tc main_arg1)) h1) shapeCasts_S1x800000_S800000 (ix1 e)
      = rowWords (A := 800000) (W (Proc.devRef .tc main_arg1)) r e := by
  refine (shapeCast_apply _ _ (ix1 e) (ix2 (0 : Fin 1) e) ?_).trans ?_
  · rw [Shape.rowMajor_val_two, Shape.rowMajor_val_one]
    show 0 * 800000 + e.val = e.val
    omega
  refine (extractStridedSlice_apply _ _ _ (ix2 (0 : Fin 1) e) (ix2 r e) ?_).trans rfl
  intro a
  match a with
  | ⟨0, _⟩ => show r.val = r.val + 0; omega
  | ⟨1, _⟩ => show e.val = 0 + e.val; omega

/-- A sequence of words written as a column reads, at row `e`, the sequence at `e`. -/
theorem col_apply (v : S800000.Idx → BitVec 32) (e : Fin 800000) :
    broadcastInDim S800000x1 ![0] bcast_S800000_S800000x1_0 v (ix2 e (0 : Fin 1)) = v (ix1 e) := by
  refine broadcastInDim_apply _ _ v (ix2 e (0 : Fin 1)) (ix1 e) ?_
  intro a
  match a with
  | ⟨0, _⟩ => rfl

/-- The neighbours' sums as the host operations compute them from the source words, the target words and the
    table: the source words made row numbers, written as a column, the table's rows looked up and widened, and
    added into a table of zeros at the rows the target words name. -/
def aggrOps (src dst : S800000.Idx → BitVec 32) (h : S100000x128.Idx → EReal) : S100000x128.Idx → EReal :=
  Host.scatterAdd (F := Ideal) (φ := .f32) scatter_S100000x128_S800000x1_S800000x128_1_0_0_1
    (broadcastInDim S100000x128 ![] bcast_S_S100000x128 (constant (F := Ideal) S_ .f32 0x00000000#32))
    (broadcastInDim S800000x1 ![0] bcast_S800000_S800000x1_0 dst)
    (extf (F := Ideal) (φ := .bf16) .f32
      (Host.gather gather_S100000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 100000#32))) src)))
      bitsLt_bf16_f32)

/-- The second stretch writes exactly that term of the first launch's rows … -/
theorem host1_eq (W : Vals) :
    StableHlo.after hostOps1 W (Proc.devRef .tc main_v15)
      = aggrOps (W (Proc.devRef .tc main_v1)) (W (Proc.devRef .tc main_v3)) (W (Proc.devRef .tc main_v4)) := by
  after_results
  rfl

/-- … and the third stretch the same term of the second launch's rows. -/
theorem host2_eq (W : Vals) :
    StableHlo.after hostOps2 W (Proc.devRef .tc main_v27)
      = aggrOps (W (Proc.devRef .tc main_v1)) (W (Proc.devRef .tc main_v3)) (W (Proc.devRef .tc main_v16)) := by
  after_results
  rfl

/-- The accumulating scatter of the generated record is the row segment sum: the record's fields are the literal
    ones. -/
theorem scatterAdd_eq (x : S100000x128.Idx → EReal) (idx : IVec S800000x1 32) (upd : S800000x128.Idx → EReal) :
    Host.scatterAdd (F := Ideal) (φ := .f32) scatter_S100000x128_S800000x1_S800000x128_1_0_0_1 x idx upd
      = Ideal.hostScatterAdd (Cert.LibGS.rowScatterDims 100000 800000 128 scatter_S100000x128_S800000x1_S800000x128_1_0_0_1_wf) x idx upd := rfl

/-- The lookup of the generated record is the row lookup: the record's fields are the literal ones. -/
theorem gather_eq (x : S100000x128.Idx → EReal) (idx : IVec S800000x1 32) :
    Host.gather gather_S100000x128_S800000x1_S800000x128_1_0_n_n_0_1_1128 x idx
      = Host.gather (Cert.LibGS.rowGatherDims 100000 800000 128 gather_S100000x128_S800000x1_S800000x128_1_0_n_n_0_1_1128_wf) x idx := rfl

/-- The zero table reads zero everywhere. -/
theorem zeros_apply (j : S100000x128.Idx) :
    broadcastInDim S100000x128 ![] bcast_S_S100000x128 (constant (F := Ideal) S_ .f32 0x00000000#32) j = 0 :=
  Ideal.ofBits_zero_f32

/-- The source words made row numbers, as a column: row `e` holds the wrapped word (the comparison with zero, the
    sum with the table's length and the choice between them are taken entry by entry, the two constants the same at
    every entry). -/
theorem wrapCol_apply (src : S800000.Idx → BitVec 32) (e : Fin 800000) :
    broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 100000#32))) src) (ix2 e (0 : Fin 1))
      = wrap (src (ix1 e)) :=
  (col_apply _ e).trans rfl

/-- The neighbours' sums read at `(n, k)`: zero plus the sum, over the edges whose target word read signed is `n`,
    of column `k` of the looked-up row — the row the wrapped source word selects, widening being the identity on
    extended reals. -/
theorem aggrOps_apply (src dst : S800000.Idx → BitVec 32) (h : S100000x128.Idx → EReal) (n : Fin 100000) (k : Fin 128) :
    aggrOps src dst h (ix2 n k) = aggr (words (A := 800000) src) (words (A := 800000) dst) (tab2 (A := 100000) (B := 128) h) n k := by
  unfold aggrOps
  refine (congrFun (scatterAdd_eq _ _ _) (ix2 n k)).trans ?_
  refine (Cert.LibGS.scatterAdd_rows_apply _ _ _ _ n k).trans ?_
  rw [zeros_apply, zero_add]
  unfold aggr
  refine Finset.sum_congr (Finset.filter_congr fun e _ => ?_) (fun e _ => ?_)
  · rw [col_apply]; rfl
  · show Host.gather gather_S100000x128_S800000x1_S800000x128_1_0_n_n_0_1_1128 h _ (ix2 e k) = _
    refine (congrFun (gather_eq _ _) (ix2 e k)).trans ?_
    refine (Cert.LibGS.gather_rows_apply (by decide) _ _ _ e k).trans ?_
    refine congrArg (fun r : Fin 100000 => h (ix2 r k)) (Fin.ext ?_)
    show min _ (100000 - 1) = min (wrap (src (ix1 e))).toInt.toNat 99999
    rw [wrapCol_apply]

/-- The counts against a column of ones: the larger of the count and one. -/
theorem maxOne_apply (c : S64x1.Idx → EReal) (i : S64x1.Idx) :
    maximumf (F := Ideal) (φ := .f32) c (broadcastInDim S64x1 ![] bcast_S_S64x1 (constant (F := Ideal) S_ .f32 0x3F800000#32)) i
      = max (c i) 1 := by
  show max (c i) (Ideal.ofBits .f32 0x3F800000#32) = _
  rw [Ideal.ofBits_one_f32]

end HostOps

/-! ## The stretches read -/

/-- After the first stretch the source words are row 0 of the edge table … -/
theorem host0_src (W : Vals) (e : Fin 800000) :
    StableHlo.after hostOps0 W (Proc.devRef .tc main_v1) (ix1 e) = rowWords (A := 800000) (W (Proc.devRef .tc main_arg1)) 0 e := by
  have h : StableHlo.after hostOps0 W (Proc.devRef .tc main_v1)
      = (shapeCast S800000 (extractStridedSlice S1x800000 ![0, 0] (W (Proc.devRef .tc main_arg1)) slices_S2x800000_S1x800000_0_0) shapeCasts_S1x800000_S800000 : S800000.Idx → BitVec 32) := by
    after_results
    rfl
  exact (congrFun h (ix1 e)).trans (HostOps.row_apply W 0 e _)

/-- … and the target words its row 1. -/
theorem host0_dst (W : Vals) (e : Fin 800000) :
    StableHlo.after hostOps0 W (Proc.devRef .tc main_v3) (ix1 e) = rowWords (A := 800000) (W (Proc.devRef .tc main_arg1)) 1 e := by
  have h : StableHlo.after hostOps0 W (Proc.devRef .tc main_v3)
      = (shapeCast S800000 (extractStridedSlice S1x800000 ![1, 0] (W (Proc.devRef .tc main_arg1)) slices_S2x800000_S1x800000_1_0) shapeCasts_S1x800000_S800000 : S800000.Idx → BitVec 32) := by
    after_results
    rfl
  exact (congrFun h (ix1 e)).trans (HostOps.row_apply W 1 e _)

/-- After the second stretch: the neighbours' sums of the first launch's rows. -/
theorem host1_aggr (W : Vals) (n : Fin 100000) (k : Fin 128) :
    StableHlo.after hostOps1 W (Proc.devRef .tc main_v15) (ix2 n k)
      = aggr (words (A := 800000) (W (Proc.devRef .tc main_v1))) (words (A := 800000) (W (Proc.devRef .tc main_v3)))
          (tab2 (A := 100000) (B := 128) (W (Proc.devRef .tc main_v4))) n k :=
  (congrFun (HostOps.host1_eq W) (ix2 n k)).trans (HostOps.aggrOps_apply _ _ _ n k)

/-- After the third stretch: the neighbours' sums of the second launch's rows … -/
theorem host2_aggr (W : Vals) (n : Fin 100000) (k : Fin 128) :
    StableHlo.after hostOps2 W (Proc.devRef .tc main_v27) (ix2 n k)
      = aggr (words (A := 800000) (W (Proc.devRef .tc main_v1))) (words (A := 800000) (W (Proc.devRef .tc main_v3)))
          (tab2 (A := 100000) (B := 128) (W (Proc.devRef .tc main_v16))) n k :=
  (congrFun (HostOps.host2_eq W) (ix2 n k)).trans (HostOps.aggrOps_apply _ _ _ n k)

/-- … and the graph words as a column. -/
theorem host2_batch (W : Vals) (n : Fin 100000) :
    StableHlo.after hostOps2 W (Proc.devRef .tc main_v28) (ix2 n (0 : Fin 1)) = words (A := 100000) (W (Proc.devRef .tc main_arg2)) n := by
  have h : StableHlo.after hostOps2 W (Proc.devRef .tc main_v28)
      = (shapeCast S100000x1 (W (Proc.devRef .tc main_arg2)) shapeCasts_S100000_S100000x1 : S100000x1.Idx → BitVec 32) := by
    after_results
    rfl
  refine (congrFun h (ix2 n (0 : Fin 1))).trans ?_
  refine (shapeCast_apply _ _ (ix2 n (0 : Fin 1)) (ix1 n) ?_).trans rfl
  rw [Shape.rowMajor_val_two, Shape.rowMajor_val_one]
  show n.val = n.val * 1 + 0
  omega

/-- After the fourth stretch: the per-graph means. -/
theorem host3_mean (W : Vals) (g : Fin 64) (j : Fin 128) :
    StableHlo.after hostOps3 W (Proc.devRef .tc main_v33) (ix2 g j)
      = mean (tab2 (A := 64) (B := 128) (W (Proc.devRef .tc main_v29_0)))
          (fun g => W (Proc.devRef .tc main_v29_1) (ix2 g (0 : Fin 1))) g j := by
  have h : StableHlo.after hostOps3 W (Proc.devRef .tc main_v33)
      = (Host.divf (F := Ideal) (φ := .f32) (W (Proc.devRef .tc main_v29_0))
          (broadcastInDim S64x128 ![0, 1] bcast_S64x1_S64x128_0_1
            (maximumf (F := Ideal) (φ := .f32) (W (Proc.devRef .tc main_v29_1))
              (broadcastInDim S64x1 ![] bcast_S_S64x1 (constant (F := Ideal) S_ .f32 0x3F800000#32)))) : S64x128.Idx → EReal) := by
    after_results
  refine (congrFun h (ix2 g j)).trans ?_
  show Ideal.div (W (Proc.devRef .tc main_v29_0) (ix2 g j)) (broadcastInDim (s := S64x1) S64x128 ![0, 1] bcast_S64x1_S64x128_0_1 _ (ix2 g j)) = _
  unfold mean
  refine congrArg (Ideal.div _) ?_
  refine (broadcastInDim_apply _ _ _ (ix2 g j) (ix2 g (0 : Fin 1)) ?_).trans ?_
  · intro a
    match a with
    | ⟨0, _⟩ => rfl
    | ⟨1, _⟩ => rfl
  exact HostOps.maxOne_apply _ _

end Cert.KernelIdeal.Val

end
-- ==== Proof.KKeep.lean ====
/-
  What each segment of the kernel's program leaves untouched. The program is four stretches of host operations and
  four launches in alternation; the contents of the core's buffers at the nine boundaries are a fold from the launch
  memory. A stretch of host operations writes only its operations' result buffers, so every other buffer holds after
  it what it held before; a launch writes back only its output arrays, so an input array, and every buffer that is
  no array of the launch, holds after it what it held at its entry.
-/
import proofs.«426622_j23862838296799_2_alg».proof.Proof.Gen.KernelIdeal.Frame
import Idealize.ShloMosaic.Lib.StableHlo.Run

set_option maxRecDepth 16384

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The buffers stretch 0 of host operations writes: the results of its operations, in order. -/
abbrev written0 : List (Ref sig .tc) := [main_v0, main_v1, main_v2, main_v3]

theorem writes0 : (hostOps0 : List (HloOp τ sig (Elt F))).Forall fun op =>
    op.writes ⊆ ((written0).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer stretch 0 does not write holds after it what it held before. -/
theorem kept_host0 (c : Dev nD) (b : Ref sig .tc) (hb : b ∉ written0) :
    W1 m ρ c (Proc.devRef .tc b) = W0 m ρ c (Proc.devRef .tc b) :=
  StableHlo.after_of_writes_sub _ _ writes0 hb

/-- The buffers stretch 1 of host operations writes: the results of its operations, in order. -/
abbrev written1 : List (Ref sig .tc) := [main_c, main_v5, main_v6, main_c_0, main_v7, main_v8, main_v9, main_v10, main_v11, main_v12, main_cst, main_v13, main_v14, main_v15]

theorem writes1 : (hostOps1 : List (HloOp τ sig (Elt F))).Forall fun op =>
    op.writes ⊆ ((written1).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer stretch 1 does not write holds after it what it held before. -/
theorem kept_host1 (c : Dev nD) (b : Ref sig .tc) (hb : b ∉ written1) :
    W3 m ρ c (Proc.devRef .tc b) = W2 m ρ c (Proc.devRef .tc b) :=
  StableHlo.after_of_writes_sub _ _ writes1 hb

/-- The buffers stretch 2 of host operations writes: the results of its operations, in order. -/
abbrev written2 : List (Ref sig .tc) := [main_c_1, main_v17, main_v18, main_c_2, main_v19, main_v20, main_v21, main_v22, main_v23, main_v24, main_cst_3, main_v25, main_v26, main_v27, main_v28]

theorem writes2 : (hostOps2 : List (HloOp τ sig (Elt F))).Forall fun op =>
    op.writes ⊆ ((written2).map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer stretch 2 does not write holds after it what it held before. -/
theorem kept_host2 (c : Dev nD) (b : Ref sig .tc) (hb : b ∉ written2) :
    W5 m ρ c (Proc.devRef .tc b) = W4 m ρ c (Proc.devRef .tc b) :=
  StableHlo.after_of_writes_sub _ _ writes2 hb

/-- The buffers stretch 3 of host operations writes: the results of its operations, in order. -/
abbrev written3 : List (Ref sig .tc) := [main_cst_4, main_v30, main_v31, main_v32, main_v33]

theorem writes3 : (hostOps3 : List (HloOp τ sig (Elt F))).Forall fun op =>
    op.writes ⊆ ((written3).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- A buffer stretch 3 does not write holds after it what it held before. -/
theorem kept_host3 (c : Dev nD) (b : Ref sig .tc) (hb : b ∉ written3) :
    W7 m ρ c (Proc.devRef .tc b) = W6 m ρ c (Proc.devRef .tc b) :=
  StableHlo.after_of_writes_sub _ _ writes3 hb

/-! ## A buffer nothing has written yet still holds its launch contents

At each boundary, a buffer that is no result of the host stretches so far and no array of the launches so far holds
what the launch memory holds. -/

theorem at1 (c : Dev nD) (b : Ref sig .tc) (h0 : b ∉ written0) :
    W1 m ρ c (Proc.devRef .tc b) = m ((c : Thread nD τ).loc b) :=
  kept_host0 m ρ c b h0

theorem at2 (c : Dev nD) (b : Ref sig .tc) (h0 : b ∉ written0) (n0 : ∀ w, Pipeline.arrRef spec0 w ≠ b) :
    W2 m ρ c (Proc.devRef .tc b) = m ((c : Thread nD τ).loc b) :=
  (W2_of_ne m ρ c b n0).trans (at1 m ρ c b h0)

theorem at3 (c : Dev nD) (b : Ref sig .tc) (h0 : b ∉ written0) (n0 : ∀ w, Pipeline.arrRef spec0 w ≠ b)
    (h1 : b ∉ written1) : W3 m ρ c (Proc.devRef .tc b) = m ((c : Thread nD τ).loc b) :=
  (kept_host1 m ρ c b h1).trans (at2 m ρ c b h0 n0)

theorem at4 (c : Dev nD) (b : Ref sig .tc) (h0 : b ∉ written0) (n0 : ∀ w, Pipeline.arrRef spec0 w ≠ b)
    (h1 : b ∉ written1) (n1 : ∀ w, Pipeline.arrRef spec1 w ≠ b) :
    W4 m ρ c (Proc.devRef .tc b) = m ((c : Thread nD τ).loc b) :=
  (W4_of_ne m ρ c b n1).trans (at3 m ρ c b h0 n0 h1)

theorem at5 (c : Dev nD) (b : Ref sig .tc) (h0 : b ∉ written0) (n0 : ∀ w, Pipeline.arrRef spec0 w ≠ b)
    (h1 : b ∉ written1) (n1 : ∀ w, Pipeline.arrRef spec1 w ≠ b) (h2 : b ∉ written2) :
    W5 m ρ c (Proc.devRef .tc b) = m ((c : Thread nD τ).loc b) :=
  (kept_host2 m ρ c b h2).trans (at4 m ρ c b h0 n0 h1 n1)

theorem at6 (c : Dev nD) (b : Ref sig .tc) (h0 : b ∉ written0) (n0 : ∀ w, Pipeline.arrRef spec0 w ≠ b)
    (h1 : b ∉ written1) (n1 : ∀ w, Pipeline.arrRef spec1 w ≠ b) (h2 : b ∉ written2)
    (n2 : ∀ w, Pipeline.arrRef spec2 w ≠ b) :
    W6 m ρ c (Proc.devRef .tc b) = m ((c : Thread nD τ).loc b) :=
  (W6_of_ne m ρ c b n2).trans (at5 m ρ c b h0 n0 h1 n1 h2)

theorem at7 (c : Dev nD) (b : Ref sig .tc) (h0 : b ∉ written0) (n0 : ∀ w, Pipeline.arrRef spec0 w ≠ b)
    (h1 : b ∉ written1) (n1 : ∀ w, Pipeline.arrRef spec1 w ≠ b) (h2 : b ∉ written2)
    (n2 : ∀ w, Pipeline.arrRef spec2 w ≠ b) (h3 : b ∉ written3) :
    W7 m ρ c (Proc.devRef .tc b) = m ((c : Thread nD τ).loc b) :=
  (kept_host3 m ρ c b h3).trans (at6 m ρ c b h0 n0 h1 n1 h2 n2)

end Cert.KernelIdeal.Val

end
-- ==== Proof.KValue.lean ====
/-
  The kernel's result, entry by entry: the network of Spec.lean of the launch memory's argument arrays.

  The program is four stretches of host operations and four launches in alternation, and the buffer contents at the
  nine boundaries are a fold from the launch memory. Walking the fold back from the result: the fourth launch stores
  the closing layers of the per-graph means; the means are the quotient of the third launch's two accumulators; those
  sum the second round's rectified mixing per graph; its inputs are the neighbours' sums of the second launch's rows
  and those rows; and so on down to the first launch, which reads the node table. Every weight, bias and index array
  is read where nothing has written it, so it still holds what the launch memory holds.
-/
import proofs.«426622_j23862838296799_2_alg».proof.Proof.KReg0
import proofs.«426622_j23862838296799_2_alg».proof.Proof.KReg1
import proofs.«426622_j23862838296799_2_alg».proof.Proof.KReg2
import proofs.«426622_j23862838296799_2_alg».proof.Proof.KReg3
import proofs.«426622_j23862838296799_2_alg».proof.Proof.KHost
import proofs.«426622_j23862838296799_2_alg».proof.Proof.KKeep

set_option maxRecDepth 16384

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen Cert.GNN

variable (m : (ℓ : Loc nD τ sig) → Buf (Elt Ideal) ℓ) (ρ : Dev nD → PrngReg) (c : Dev nD)

/-! ## The argument arrays as tables -/

/-- The node table. -/
def argX : Mat 100000 128 := tab2 (A := 100000) (B := 128) (m ((c : Thread nD τ).loc main_arg0))
/-- The source words and the target words of the edges. -/
def argSrc : Fin 800000 → BitVec 32 := rowWords (A := 800000) (m ((c : Thread nD τ).loc main_arg1)) 0
def argDst : Fin 800000 → BitVec 32 := rowWords (A := 800000) (m ((c : Thread nD τ).loc main_arg1)) 1
/-- The graph words of the nodes. -/
def argBatch : Fin 100000 → BitVec 32 := words (A := 100000) (m ((c : Thread nD τ).loc main_arg2))

/-- The first layer's rows. -/
def rows1 : Mat 100000 128 :=
  act (dense (argX m c) (tab2 (A := 128) (B := 128) (m ((c : Thread nD τ).loc main_arg3)))
    (tab1 (A := 128) (m ((c : Thread nD τ).loc main_arg4))))

/-- The rows after the first round and the dense layer that follows it. -/
def rows2 : Mat 100000 128 :=
  act (dense (act (conv (aggr (argSrc m c) (argDst m c) (rows1 m c)) (rows1 m c)
      (tab2 (A := 128) (B := 128) (m ((c : Thread nD τ).loc main_arg5))) (tab1 (A := 128) (m ((c : Thread nD τ).loc main_arg6)))
      (tab2 (A := 128) (B := 128) (m ((c : Thread nD τ).loc main_arg7)))))
    (tab2 (A := 128) (B := 128) (m ((c : Thread nD τ).loc main_arg8))) (tab1 (A := 128) (m ((c : Thread nD τ).loc main_arg9))))

/-- The rows after the second round. -/
def rows3 : Mat 100000 128 :=
  act (conv (aggr (argSrc m c) (argDst m c) (rows2 m c)) (rows2 m c)
    (tab2 (A := 128) (B := 128) (m ((c : Thread nD τ).loc main_arg10))) (tab1 (A := 128) (m ((c : Thread nD τ).loc main_arg11)))
    (tab2 (A := 128) (B := 128) (m ((c : Thread nD τ).loc main_arg12))))

/-! ## The boundaries, walked -/

theorem src_at1 : words (A := 800000) (W1 m ρ c (Proc.devRef .tc main_v1)) = argSrc m c :=
  funext fun e => host0_src (W0 m ρ c) e

theorem dst_at1 : words (A := 800000) (W1 m ρ c (Proc.devRef .tc main_v3)) = argDst m c :=
  funext fun e => host0_dst (W0 m ρ c) e

/-- After the first launch its output array holds the first layer's rows. -/
theorem rows1_at2 : tab2 (A := 100000) (B := 128) (W2 m ρ c (Proc.devRef .tc main_v4)) = rows1 m c := by
  funext r j
  show W2 m ρ c (Proc.devRef .tc main_v4) (ix2 r j) = _
  rw [show W2 m ρ c (Proc.devRef .tc main_v4) = (dat0 (V1 m ρ) c).arrAt 3 cfg0.N from W2_arr m ρ c 3, reg0_value]
  have e0 : V1 m ρ c main_arg0 = m ((c : Thread nD τ).loc main_arg0) := at1 m ρ c main_arg0 (by decide)
  have e3 : V1 m ρ c main_arg3 = m ((c : Thread nD τ).loc main_arg3) := at1 m ρ c main_arg3 (by decide)
  have e4 : V1 m ρ c main_arg4 = m ((c : Thread nD τ).loc main_arg4) := at1 m ρ c main_arg4 (by decide)
  rw [e0, e3, e4]
  rfl

/-- The source and target words are read again before each of the two lookups: nothing has written them meanwhile. -/
theorem src_at2 : words (A := 800000) (W2 m ρ c (Proc.devRef .tc main_v1)) = argSrc m c := by
  rw [show W2 m ρ c (Proc.devRef .tc main_v1) = W1 m ρ c (Proc.devRef .tc main_v1) from W2_of_ne m ρ c main_v1 (by decide)]
  exact src_at1 m ρ c

theorem dst_at2 : words (A := 800000) (W2 m ρ c (Proc.devRef .tc main_v3)) = argDst m c := by
  rw [show W2 m ρ c (Proc.devRef .tc main_v3) = W1 m ρ c (Proc.devRef .tc main_v3) from W2_of_ne m ρ c main_v3 (by decide)]
  exact dst_at1 m ρ c

/-- After the second stretch: the neighbours' sums of the first layer's rows. -/
theorem aggr1_at3 : tab2 (A := 100000) (B := 128) (W3 m ρ c (Proc.devRef .tc main_v15)) = aggr (argSrc m c) (argDst m c) (rows1 m c) := by
  funext n k
  show StableHlo.after hostOps1 (W2 m ρ c) (Proc.devRef .tc main_v15) (ix2 n k) = _
  rw [host1_aggr, src_at2, dst_at2, rows1_at2]

/-- The first layer's rows are still in place after the second stretch. -/
theorem rows1_at3 : tab2 (A := 100000) (B := 128) (W3 m ρ c (Proc.devRef .tc main_v4)) = rows1 m c := by
  rw [show W3 m ρ c (Proc.devRef .tc main_v4) = W2 m ρ c (Proc.devRef .tc main_v4) from kept_host1 m ρ c main_v4 (by decide)]
  exact rows1_at2 m ρ c

/-- After the second launch its output array holds the rows after the first round. -/
theorem rows2_at4 : tab2 (A := 100000) (B := 128) (W4 m ρ c (Proc.devRef .tc main_v16)) = rows2 m c := by
  funext r j
  show W4 m ρ c (Proc.devRef .tc main_v16) (ix2 r j) = _
  rw [show W4 m ρ c (Proc.devRef .tc main_v16) = (dat1 (V3 m ρ) c).arrAt 7 cfg1.N from W4_arr m ρ c 7, reg1_value]
  have e15 : tab2 (A := 100000) (B := 128) (V3 m ρ c main_v15) = aggr (argSrc m c) (argDst m c) (rows1 m c) := aggr1_at3 m ρ c
  have e4 : tab2 (A := 100000) (B := 128) (V3 m ρ c main_v4) = rows1 m c := rows1_at3 m ρ c
  have a5 : V3 m ρ c main_arg5 = (m ((c : Thread nD τ).loc main_arg5)) := at3 m ρ c main_arg5 (by decide) (by decide) (by decide)
  have a6 : V3 m ρ c main_arg6 = (m ((c : Thread nD τ).loc main_arg6)) := at3 m ρ c main_arg6 (by decide) (by decide) (by decide)
  have a7 : V3 m ρ c main_arg7 = (m ((c : Thread nD τ).loc main_arg7)) := at3 m ρ c main_arg7 (by decide) (by decide) (by decide)
  have a8 : V3 m ρ c main_arg8 = (m ((c : Thread nD τ).loc main_arg8)) := at3 m ρ c main_arg8 (by decide) (by decide) (by decide)
  have a9 : V3 m ρ c main_arg9 = (m ((c : Thread nD τ).loc main_arg9)) := at3 m ρ c main_arg9 (by decide) (by decide) (by decide)
  rw [e15, e4, a5, a6, a7, a8, a9]
  rfl

theorem src_at4 : words (A := 800000) (W4 m ρ c (Proc.devRef .tc main_v1)) = argSrc m c := by
  rw [show W4 m ρ c (Proc.devRef .tc main_v1) = W3 m ρ c (Proc.devRef .tc main_v1) from W4_of_ne m ρ c main_v1 (by decide),
    show W3 m ρ c (Proc.devRef .tc main_v1) = W2 m ρ c (Proc.devRef .tc main_v1) from kept_host1 m ρ c main_v1 (by decide)]
  exact src_at2 m ρ c

theorem dst_at4 : words (A := 800000) (W4 m ρ c (Proc.devRef .tc main_v3)) = argDst m c := by
  rw [show W4 m ρ c (Proc.devRef .tc main_v3) = W3 m ρ c (Proc.devRef .tc main_v3) from W4_of_ne m ρ c main_v3 (by decide),
    show W3 m ρ c (Proc.devRef .tc main_v3) = W2 m ρ c (Proc.devRef .tc main_v3) from kept_host1 m ρ c main_v3 (by decide)]
  exact dst_at2 m ρ c

/-- After the third stretch: the neighbours' sums of the rows after the first round … -/
theorem aggr2_at5 : tab2 (A := 100000) (B := 128) (W5 m ρ c (Proc.devRef .tc main_v27)) = aggr (argSrc m c) (argDst m c) (rows2 m c) := by
  funext n k
  show StableHlo.after hostOps2 (W4 m ρ c) (Proc.devRef .tc main_v27) (ix2 n k) = _
  rw [host2_aggr, src_at4, dst_at4, rows2_at4]

/-- … the graph words as a column … -/
theorem batch_at5 : col0 (A := 100000) (W5 m ρ c (Proc.devRef .tc main_v28)) = argBatch m c := by
  funext n
  show StableHlo.after hostOps2 (W4 m ρ c) (Proc.devRef .tc main_v28) (ix2 n (0 : Fin 1)) = _
  rw [host2_batch, show W4 m ρ c (Proc.devRef .tc main_arg2) = (m ((c : Thread nD τ).loc main_arg2)) from at4 m ρ c main_arg2 (by decide) (by decide) (by decide) (by decide)]
  rfl

/-- … and the rows after the first round still in place. -/
theorem rows2_at5 : tab2 (A := 100000) (B := 128) (W5 m ρ c (Proc.devRef .tc main_v16)) = rows2 m c := by
  rw [show W5 m ρ c (Proc.devRef .tc main_v16) = W4 m ρ c (Proc.devRef .tc main_v16) from kept_host2 m ρ c main_v16 (by decide)]
  exact rows2_at4 m ρ c

/-- What the third launch sums per graph: the rows after the second round. -/
theorem mixed2_at5 : mixed2 (V5 m ρ) c = rows3 m c := by
  unfold mixed2 rows3
  have e27 : tab2 (A := 100000) (B := 128) (V5 m ρ c main_v27) = aggr (argSrc m c) (argDst m c) (rows2 m c) := aggr2_at5 m ρ c
  have e16 : tab2 (A := 100000) (B := 128) (V5 m ρ c main_v16) = rows2 m c := rows2_at5 m ρ c
  have a10 : V5 m ρ c main_arg10 = (m ((c : Thread nD τ).loc main_arg10)) := at5 m ρ c main_arg10 (by decide) (by decide) (by decide) (by decide) (by decide)
  have a11 : V5 m ρ c main_arg11 = (m ((c : Thread nD τ).loc main_arg11)) := at5 m ρ c main_arg11 (by decide) (by decide) (by decide) (by decide) (by decide)
  have a12 : V5 m ρ c main_arg12 = (m ((c : Thread nD τ).loc main_arg12)) := at5 m ρ c main_arg12 (by decide) (by decide) (by decide) (by decide) (by decide)
  rw [e27, e16, a10, a11, a12]

/-- After the third launch: the per-graph sums and the per-graph counts. -/
theorem sums_at6 : tab2 (A := 64) (B := 128) (W6 m ρ c (Proc.devRef .tc main_v29_0)) = segSum (argBatch m c) (rows3 m c) := by
  funext g j
  show W6 m ρ c (Proc.devRef .tc main_v29_0) (ix2 g j) = _
  rw [show W6 m ρ c (Proc.devRef .tc main_v29_0) = (dat2 (V5 m ρ) c).arrAt 6 cfg2.N from W6_arr m ρ c 6, reg2_sums, mixed2_at5]
  rw [show col0 (A := 100000) (V5 m ρ c main_v28) = argBatch m c from batch_at5 m ρ c]

theorem counts_at6 : (fun g : Fin 64 => W6 m ρ c (Proc.devRef .tc main_v29_1) (ix2 g (0 : Fin 1))) = segCount (argBatch m c) := by
  funext g
  rw [show W6 m ρ c (Proc.devRef .tc main_v29_1) = (dat2 (V5 m ρ) c).arrAt 7 cfg2.N from W6_arr m ρ c 7, reg2_counts]
  rw [show col0 (A := 100000) (V5 m ρ c main_v28) = argBatch m c from batch_at5 m ρ c]

/-- After the fourth stretch: the per-graph means. -/
theorem mean_at7 : tab2 (A := 64) (B := 128) (W7 m ρ c (Proc.devRef .tc main_v33))
    = mean (segSum (argBatch m c) (rows3 m c)) (segCount (argBatch m c)) := by
  funext g j
  show StableHlo.after hostOps3 (W6 m ρ c) (Proc.devRef .tc main_v33) (ix2 g j) = _
  rw [host3_mean, sums_at6, counts_at6]

/-- THE RESULT, entry by entry: the network of the launch memory's argument arrays. -/
theorem result_value (g : Fin 64) (j : Fin 2) :
    W8 m ρ c (Proc.devRef .tc main_v34) (ix2 g j)
      = net (argX m c) (argSrc m c) (argDst m c) (argBatch m c)
          (tab2 (A := 128) (B := 128) (m ((c : Thread nD τ).loc main_arg3))) (tab1 (A := 128) (m ((c : Thread nD τ).loc main_arg4)))
          (tab2 (A := 128) (B := 128) (m ((c : Thread nD τ).loc main_arg5))) (tab1 (A := 128) (m ((c : Thread nD τ).loc main_arg6)))
          (tab2 (A := 128) (B := 128) (m ((c : Thread nD τ).loc main_arg7)))
          (tab2 (A := 128) (B := 128) (m ((c : Thread nD τ).loc main_arg8))) (tab1 (A := 128) (m ((c : Thread nD τ).loc main_arg9)))
          (tab2 (A := 128) (B := 128) (m ((c : Thread nD τ).loc main_arg10))) (tab1 (A := 128) (m ((c : Thread nD τ).loc main_arg11)))
          (tab2 (A := 128) (B := 128) (m ((c : Thread nD τ).loc main_arg12)))
          (tab2 (A := 128) (B := 128) (m ((c : Thread nD τ).loc main_arg13))) (tab1 (A := 128) (m ((c : Thread nD τ).loc main_arg14)))
          (tab2 (A := 128) (B := 64) (m ((c : Thread nD τ).loc main_arg15))) (tab1 (A := 64) (m ((c : Thread nD τ).loc main_arg16)))
          (tab2 (A := 64) (B := 2) (m ((c : Thread nD τ).loc main_arg17))) (tab1 (A := 2) (m ((c : Thread nD τ).loc main_arg18))) g j := by
  rw [show W8 m ρ c (Proc.devRef .tc main_v34) = (dat3 (V7 m ρ) c).arrAt 7 cfg3.N from W8_arr m ρ c 7, reg3_value]
  have e33 : tab2 (A := 64) (B := 128) (V7 m ρ c main_v33)
      = mean (segSum (argBatch m c) (rows3 m c)) (segCount (argBatch m c)) := mean_at7 m ρ c
  have a13 : V7 m ρ c main_arg13 = (m ((c : Thread nD τ).loc main_arg13)) := at7 m ρ c main_arg13 (by decide) (by decide) (by decide) (by decide) (by decide) (by decide) (by decide)
  have a14 : V7 m ρ c main_arg14 = (m ((c : Thread nD τ).loc main_arg14)) := at7 m ρ c main_arg14 (by decide) (by decide) (by decide) (by decide) (by decide) (by decide) (by decide)
  have a15 : V7 m ρ c main_arg15 = (m ((c : Thread nD τ).loc main_arg15)) := at7 m ρ c main_arg15 (by decide) (by decide) (by decide) (by decide) (by decide) (by decide) (by decide)
  have a16 : V7 m ρ c main_arg16 = (m ((c : Thread nD τ).loc main_arg16)) := at7 m ρ c main_arg16 (by decide) (by decide) (by decide) (by decide) (by decide) (by decide) (by decide)
  have a17 : V7 m ρ c main_arg17 = (m ((c : Thread nD τ).loc main_arg17)) := at7 m ρ c main_arg17 (by decide) (by decide) (by decide) (by decide) (by decide) (by decide) (by decide)
  have a18 : V7 m ρ c main_arg18 = (m ((c : Thread nD τ).loc main_arg18)) := at7 m ρ c main_arg18 (by decide) (by decide) (by decide) (by decide) (by decide) (by decide) (by decide)
  rw [e33, a13, a14, a15, a16, a17, a18]
  rfl

end Cert.KernelIdeal.Val

end
-- ==== Proof.RTypes.lean ====
/-
  The type of a core's buffer contents at a point of the reference's straight line, at the ideal reading.
-/
import proofs.«426622_j23862838296799_2_alg».proof.ReferenceIdeal
import Idealize.ShloMosaic.PureOps.Ideal

noncomputable section

namespace Cert.ReferenceIdeal.Val

open Idealize.ShloMosaic Idealize.ShloMosaic.TcCoe Idealize.SL.Sem
open Cert.ReferenceIdeal

/-- What a core's buffers hold at a point of the straight line, at the ideal reading. -/
abbrev Vals := Valuation τ sig (Elt Ideal)

end Cert.ReferenceIdeal.Val

end
-- ==== Proof.RDense.lean ====
/-
  The reference's dense stretches as straight lines of host operations, and what each leaves, entry by entry:
  the first dense layer with its rectifier; a round's mixing, rectified, through the dense layer after it; the second
  round's mixing; the three closing layers. The rectifier is a called function of seven operations (zero, its
  broadcast, the comparison `0 ≤ z`, the slope converted and broadcast, the product, the selection), written out at
  each call over that call's buffers.
-/
import proofs.«426622_j23862838296799_2_alg».proof.ReferenceIdeal
import proofs.«426622_j23862838296799_2_alg».proof.Proof.Gen.ReferenceIdeal
import proofs.«426622_j23862838296799_2_alg».proof.Proof.RTypes
import proofs.«426622_j23862838296799_2_alg».proof.Proof.Spec
import proofs.«426622_j23862838296799_2_alg».proof.Proof.LibDot
import proofs.«426622_j23862838296799_2_alg».proof.Proof.LibGS
import Idealize.ShloMosaic.Lib.StableHlo.Run
import Idealize.ShloMosaic.Lib.Pipeline.Value

set_option maxRecDepth 16384

noncomputable section

open scoped BigOperators

namespace Cert.ReferenceIdeal.Val

open Idealize.ShloMosaic Idealize.ShloMosaic.ValueIdx Idealize.ShloMosaic.TcCoe Idealize.ShloMosaic.StableHlo Idealize.SL.Sem
open Cert.ReferenceIdeal Cert.GNN
open Facts₀ Facts

variable {F : FTy → Type} [FloatOps F]

/-- Statements %4 … %8 of @main: the product with the first weights, the bias broadcast and added, the rectifier's call. -/
abbrev opsL1 : List (HloOp τ sig (Elt F)) :=
  [ StableHlo.binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v7 : StableHlo.TRef sig ⟨S100000x128, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S100000x128 ![] bcast_S_S100000x128),
    StableHlo.TRef.binary main_call0.v3 (.of main_v7 : StableHlo.TRef sig ⟨S100000x128, .f32⟩) main_call0.v4 mulf,
    StableHlo.TRef.ternary main_call0.v1 (.of main_v7 : StableHlo.TRef sig ⟨S100000x128, .f32⟩) main_call0.v4 main_call0.call0.v0 select ]

/-- Statements %19 … %30: the first round's mixing and its rectifier, the dense layer after it and its rectifier. -/
abbrev opsC1 : List (HloOp τ sig (Elt F)) :=
  [ StableHlo.binary main_v18 main_arg5 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v19 main_v21 main_v22 (addf : (⟨S100000x128, .f32⟩ : BufTy).Contents (Elt F) → (⟨S100000x128, .f32⟩ : BufTy).Contents (Elt F) → (⟨S100000x128, .f32⟩ : BufTy).Contents (Elt F)),
    StableHlo.binary main_v8 main_arg7 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v22 main_v23 main_v24 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v24 : StableHlo.TRef sig ⟨S100000x128, .f32⟩) main_call1.v0 main_call1.v1 (cmpf .oge),
    StableHlo.TRef.unary (.of main_cst_2 : StableHlo.TRef sig ⟨S_, .f32⟩) main_call1.v2 id,
    StableHlo.TRef.unary main_call1.v2 main_call1.v3 (broadcastInDim S100000x128 ![] bcast_S_S100000x128),
    StableHlo.TRef.binary main_call1.v3 (.of main_v24 : StableHlo.TRef sig ⟨S100000x128, .f32⟩) main_call1.v4 mulf,
    StableHlo.TRef.ternary main_call1.v1 (.of main_v24 : StableHlo.TRef sig ⟨S100000x128, .f32⟩) main_call1.v4 main_call1.call0.v0 select,
    StableHlo.binary main_v25 main_arg8 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v28 main_v29 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v29 : StableHlo.TRef sig ⟨S100000x128, .f32⟩) main_call2.v0 main_call2.v1 (cmpf .oge),
    StableHlo.TRef.unary (.of main_cst_3 : StableHlo.TRef sig ⟨S_, .f32⟩) main_call2.v2 id,
    StableHlo.TRef.unary main_call2.v2 main_call2.v3 (broadcastInDim S100000x128 ![] bcast_S_S100000x128),
    StableHlo.TRef.binary main_call2.v3 (.of main_v29 : StableHlo.TRef sig ⟨S100000x128, .f32⟩) main_call2.v4 mulf,
    StableHlo.TRef.ternary main_call2.v1 (.of main_v29 : StableHlo.TRef sig ⟨S100000x128, .f32⟩) main_call2.v4 main_call2.call0.v0 select ]

/-- Statements %41 … %47: the second round's mixing and its rectifier. -/
abbrev opsC2 : List (HloOp τ sig (Elt F)) :=
  [ StableHlo.binary main_v40 main_arg10 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.binary main_v30 main_arg12 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v44 main_v45 main_v46 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v46 : StableHlo.TRef sig ⟨S100000x128, .f32⟩) main_call3.v0 main_call3.v1 (cmpf .oge),
    StableHlo.TRef.unary (.of main_cst_7 : StableHlo.TRef sig ⟨S_, .f32⟩) main_call3.v2 id,
    StableHlo.TRef.unary main_call3.v2 main_call3.v3 (broadcastInDim S100000x128 ![] bcast_S_S100000x128),
    StableHlo.TRef.binary main_call3.v3 (.of main_v46 : StableHlo.TRef sig ⟨S100000x128, .f32⟩) main_call3.v4 mulf,
    StableHlo.TRef.ternary main_call3.v1 (.of main_v46 : StableHlo.TRef sig ⟨S100000x128, .f32⟩) main_call3.v4 main_call3.call0.v0 select ]

/-- Statements %59 … %72: the three closing layers. -/
abbrev opsHead : List (HloOp τ sig (Elt F)) :=
  [ StableHlo.binary main_v58 main_arg13 main_v59 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg14 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S64x128 ![0, 1] bcast_S1x128_S64x128_0_1 : (⟨S1x128, .f32⟩ : BufTy).Contents (Elt F) → (⟨S64x128, .f32⟩ : BufTy).Contents (Elt F)),
    StableHlo.binary main_v59 main_v61 main_v62 (addf : (⟨S64x128, .f32⟩ : BufTy).Contents (Elt F) → (⟨S64x128, .f32⟩ : BufTy).Contents (Elt F) → (⟨S64x128, .f32⟩ : BufTy).Contents (Elt F)),
    StableHlo.nullary main_cst_12 (constant S_ .f32 0x3C23D70A#32),
    StableHlo.TRef.nullary main_call4.cst (constant S_ .f32 0x00000000#32),
    StableHlo.TRef.unary main_call4.cst main_call4.v0 (broadcastInDim S64x128 ![] bcast_S_S64x128),
    StableHlo.TRef.binary (.of main_v62 : StableHlo.TRef sig ⟨S64x128, .f32⟩) main_call4.v0 main_call4.v1 (cmpf .oge),
    StableHlo.TRef.unary (.of main_cst_12 : StableHlo.TRef sig ⟨S_, .f32⟩) main_call4.v2 id,
    StableHlo.TRef.unary main_call4.v2 main_call4.v3 (broadcastInDim S64x128 ![] bcast_S_S64x128),
    StableHlo.TRef.binary main_call4.v3 (.of main_v62 : StableHlo.TRef sig ⟨S64x128, .f32⟩) main_call4.v4 mulf,
    StableHlo.TRef.ternary main_call4.v1 (.of main_v62 : StableHlo.TRef sig ⟨S64x128, .f32⟩) main_call4.v4 main_call4.call0.v0 select,
    StableHlo.binary main_v63 main_arg15 main_v64 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg16 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S64x64 ![0, 1] bcast_S1x64_S64x64_0_1 : (⟨S1x64, .f32⟩ : BufTy).Contents (Elt F) → (⟨S64x64, .f32⟩ : BufTy).Contents (Elt F)),
    StableHlo.binary main_v64 main_v66 main_v67 (addf : (⟨S64x64, .f32⟩ : BufTy).Contents (Elt F) → (⟨S64x64, .f32⟩ : BufTy).Contents (Elt F) → (⟨S64x64, .f32⟩ : BufTy).Contents (Elt F)),
    StableHlo.nullary main_cst_13 (constant S_ .f32 0x3C23D70A#32),
    StableHlo.TRef.nullary main_call5.cst (constant S_ .f32 0x00000000#32),
    StableHlo.TRef.unary main_call5.cst main_call5.v0 (broadcastInDim S64x64 ![] bcast_S_S64x64),
    StableHlo.TRef.binary (.of main_v67 : StableHlo.TRef sig ⟨S64x64, .f32⟩) main_call5.v0 main_call5.v1 (cmpf .oge),
    StableHlo.TRef.unary (.of main_cst_13 : StableHlo.TRef sig ⟨S_, .f32⟩) main_call5.v2 id,
    StableHlo.TRef.unary main_call5.v2 main_call5.v3 (broadcastInDim S64x64 ![] bcast_S_S64x64),
    StableHlo.TRef.binary main_call5.v3 (.of main_v67 : StableHlo.TRef sig ⟨S64x64, .f32⟩) main_call5.v4 mulf,
    StableHlo.TRef.ternary main_call5.v1 (.of main_v67 : StableHlo.TRef sig ⟨S64x64, .f32⟩) main_call5.v4 main_call5.call0.v0 select,
    StableHlo.binary main_v68 main_arg17 main_v69 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    StableHlo.unary main_arg18 main_v70 (broadcastInDim S1x2 ![1] bcast_S2_S1x2_1 : (⟨S2, .f32⟩ : BufTy).Contents (Elt F) → (⟨S1x2, .f32⟩ : BufTy).Contents (Elt F)),
    StableHlo.unary main_v70 main_v71 (broadcastInDim S64x2 ![0, 1] bcast_S1x2_S64x2_0_1 : (⟨S1x2, .f32⟩ : BufTy).Contents (Elt F) → (⟨S64x2, .f32⟩ : BufTy).Contents (Elt F)),
    StableHlo.binary main_v69 main_v71 main_v72 (addf : (⟨S64x2, .f32⟩ : BufTy).Contents (Elt F) → (⟨S64x2, .f32⟩ : BufTy).Contents (Elt F) → (⟨S64x2, .f32⟩ : BufTy).Contents (Elt F)) ]

/-! ## A dense layer and the rectifier, at an entry

  Over literal extents and any arrays of extended reals: the bias is a row made a one-row table and repeated down the
  rows; the rectifier is zero and the slope each repeated over the table, the test `0 ≤ z`, the slope's product with
  `z`, and the choice between `z` and that product. -/

section Entry
open Cert.LibDot

/-- A row `[B]` made a one-row table `[1, B]`, read at `(0, c)`. -/
theorem row_as_table_apply {B : Nat} (h : (⟨1, ![B]⟩ : Shape).BroadcastsInDim ⟨2, ![1, B]⟩ ![1])
    (v : (⟨1, ![B]⟩ : Shape).Idx → EReal) (c : Fin B) :
    broadcastInDim ⟨2, ![1, B]⟩ ![1] h v (ix2 (0 : Fin 1) c) = v (ix1 c) := by
  refine broadcastInDim_apply _ h v _ _ fun a => ?_
  match a with
  | ⟨0, _⟩ =>
    show c.val = if B = 1 then 0 else c.val
    split
    · have := c.isLt; omega
    · rfl

/-- A one-row table `[1, B]` repeated down `A` rows, read at `(p, c)`. -/
theorem table_rows_apply {A B : Nat} (h : (⟨2, ![1, B]⟩ : Shape).BroadcastsInDim ⟨2, ![A, B]⟩ ![0, 1])
    (v : (⟨2, ![1, B]⟩ : Shape).Idx → EReal) (p : Fin A) (c : Fin B) :
    broadcastInDim ⟨2, ![A, B]⟩ ![0, 1] h v (ix2 p c) = v (ix2 (0 : Fin 1) c) := by
  refine broadcastInDim_apply _ h v _ _ fun a => ?_
  match a with
  | ⟨0, _⟩ => rfl
  | ⟨1, _⟩ =>
    show c.val = if B = 1 then 0 else c.val
    split
    · have := c.isLt; omega
    · rfl

/-- The product's entry plus the bias's, the bias a row repeated down the rows: the two summands of a dense layer. -/
theorem prod_bias_entry {A K B : Nat} (wf : DotDims.WF ⟨2, ![A, K]⟩ ⟨2, ![K, B]⟩ ⟨2, ![A, B]⟩ [1] [0] [0] [1] [] [])
    (h1 : (⟨1, ![B]⟩ : Shape).BroadcastsInDim ⟨2, ![1, B]⟩ ![1])
    (h2 : (⟨2, ![1, B]⟩ : Shape).BroadcastsInDim ⟨2, ![A, B]⟩ ![0, 1])
    (x : FVec Ideal ⟨2, ![A, K]⟩ .f32) (w : FVec Ideal ⟨2, ![K, B]⟩ .f32) (bias : FVec Ideal ⟨1, ![B]⟩ .f32)
    (a : Fin A) (b : Fin B) :
    addf (Host.dotGeneral (rowColDims A K B wf) none x w)
        (broadcastInDim ⟨2, ![A, B]⟩ ![0, 1] h2 (broadcastInDim ⟨2, ![1, B]⟩ ![1] h1 bias)) (ix2 a b)
      = (∑ l : Fin K, x (ix2 a l) * w (ix2 l b)) + bias (ix1 b) := by
  rw [addf_apply, table_rows_apply, row_as_table_apply]
  simp only [Host.dotGeneral]
  rw [dotGeneral_rowCol_apply]

/-- A dense layer at an entry. -/
theorem dense_entry {A K B : Nat} (wf : DotDims.WF ⟨2, ![A, K]⟩ ⟨2, ![K, B]⟩ ⟨2, ![A, B]⟩ [1] [0] [0] [1] [] [])
    (h1 : (⟨1, ![B]⟩ : Shape).BroadcastsInDim ⟨2, ![1, B]⟩ ![1])
    (h2 : (⟨2, ![1, B]⟩ : Shape).BroadcastsInDim ⟨2, ![A, B]⟩ ![0, 1])
    (x : FVec Ideal ⟨2, ![A, K]⟩ .f32) (w : FVec Ideal ⟨2, ![K, B]⟩ .f32) (bias : FVec Ideal ⟨1, ![B]⟩ .f32)
    (a : Fin A) (b : Fin B) :
    addf (Host.dotGeneral (rowColDims A K B wf) none x w)
        (broadcastInDim ⟨2, ![A, B]⟩ ![0, 1] h2 (broadcastInDim ⟨2, ![1, B]⟩ ![1] h1 bias)) (ix2 a b)
      = dense (tab2 x) (tab2 w) (tab1 bias) a b :=
  prod_bias_entry wf h1 h2 x w bias a b

/-- A round's mixing at an entry: the neighbours' product plus the bias, plus the node's own product. -/
theorem conv_entry {A K B : Nat} (wf : DotDims.WF ⟨2, ![A, K]⟩ ⟨2, ![K, B]⟩ ⟨2, ![A, B]⟩ [1] [0] [0] [1] [] [])
    (h1 : (⟨1, ![B]⟩ : Shape).BroadcastsInDim ⟨2, ![1, B]⟩ ![1])
    (h2 : (⟨2, ![1, B]⟩ : Shape).BroadcastsInDim ⟨2, ![A, B]⟩ ![0, 1])
    (xa xh : FVec Ideal ⟨2, ![A, K]⟩ .f32) (wrel wroot : FVec Ideal ⟨2, ![K, B]⟩ .f32) (bias : FVec Ideal ⟨1, ![B]⟩ .f32)
    (a : Fin A) (b : Fin B) :
    addf (addf (Host.dotGeneral (rowColDims A K B wf) none xa wrel)
          (broadcastInDim ⟨2, ![A, B]⟩ ![0, 1] h2 (broadcastInDim ⟨2, ![1, B]⟩ ![1] h1 bias)))
        (Host.dotGeneral (rowColDims A K B wf) none xh wroot) (ix2 a b)
      = conv (tab2 xa) (tab2 xh) (tab2 wrel) (tab1 bias) (tab2 wroot) a b := by
  rw [addf_apply, prod_bias_entry]
  simp only [Host.dotGeneral]
  rw [dotGeneral_rowCol_apply]
  rfl

/-- The rectifier's seven operations at an entry: zero and the slope each repeated over the table, the test `0 ≤ z`,
    the slope's product with `z`, the choice. -/
theorem rect_entry {A B : Nat} (hb : (⟨0, ![]⟩ : Shape).BroadcastsInDim ⟨2, ![A, B]⟩ ![])
    (z : FVec Ideal ⟨2, ![A, B]⟩ .f32) (a : Fin A) (b : Fin B) :
    select (cmpf .oge z (broadcastInDim ⟨2, ![A, B]⟩ ![] hb (constant (F := Ideal) ⟨0, ![]⟩ .f32 0x00000000#32)))
        z (mulf (broadcastInDim ⟨2, ![A, B]⟩ ![] hb (id (constant (F := Ideal) ⟨0, ![]⟩ .f32 0x3C23D70A#32))) z) (ix2 a b)
      = lrelu (z (ix2 a b)) := by
  rw [select_apply, cmpf_apply, mulf_apply, broadcastInDim_scalar_apply, broadcastInDim_scalar_apply]
  show Scalar.select (Ideal.cmp .oge (z (ix2 a b)) (Ideal.ofBits .f32 0x00000000#32)) (z (ix2 a b))
      (Ideal.ofBits .f32 0x3C23D70A#32 * z (ix2 a b)) = _
  rw [Ideal.ofBits_zero_f32, ← lrelu_of_le]
  show Scalar.select (BitVec.ofBool (decide ((0 : EReal) ≤ z (ix2 a b)))) _ _ = _
  by_cases h : (0 : EReal) ≤ z (ix2 a b)
  · rw [if_pos h, decide_eq_true h]; exact select_one _ _
  · rw [if_neg h, decide_eq_false h]; exact select_zero _ _

end Entry

/-- The first layer's rows, rectified. -/
theorem l1_value (W : Vals) (r : Fin 100000) (j : Fin 128) :
    after opsL1 W (Proc.devRef .tc main_v8) (ix2 r j)
      = act (dense (tab2 (A := 100000) (B := 128) (W (Proc.devRef .tc main_arg0))) (tab2 (A := 128) (B := 128) (W (Proc.devRef .tc main_arg3)))
          (tab1 (A := 128) (W (Proc.devRef .tc main_arg4)))) r j := by
  after_results
  refine (rect_entry (A := 100000) (B := 128) bcast_S_S100000x128 _ r j).trans ?_
  exact congrArg lrelu (dense_entry dot_S100000x128_S128x128_S100000x128_1_0_0_1_n_n_wf bcast_S128_S1x128_1
    bcast_S1x128_S100000x128_0_1 _ _ _ r j)

/-- The first round's mixing, rectified, through the dense layer after it, rectified. -/
theorem c1_value (W : Vals) (r : Fin 100000) (j : Fin 128) :
    after opsC1 W (Proc.devRef .tc main_v30) (ix2 r j)
      = act (dense (act (conv (tab2 (A := 100000) (B := 128) (W (Proc.devRef .tc main_v18))) (tab2 (A := 100000) (B := 128) (W (Proc.devRef .tc main_v8)))
            (tab2 (A := 128) (B := 128) (W (Proc.devRef .tc main_arg5))) (tab1 (A := 128) (W (Proc.devRef .tc main_arg6)))
            (tab2 (A := 128) (B := 128) (W (Proc.devRef .tc main_arg7)))))
          (tab2 (A := 128) (B := 128) (W (Proc.devRef .tc main_arg8))) (tab1 (A := 128) (W (Proc.devRef .tc main_arg9)))) r j := by
  after_results_simp
  refine (rect_entry (A := 100000) (B := 128) bcast_S_S100000x128 _ r j).trans ?_
  refine congrArg lrelu ?_
  refine (dense_entry dot_S100000x128_S128x128_S100000x128_1_0_0_1_n_n_wf bcast_S128_S1x128_1 bcast_S1x128_S100000x128_0_1 _ _ _ r j).trans ?_
  refine congrArg (fun t : Mat 100000 128 => dense t (tab2 (A := 128) (B := 128) (W (Proc.devRef .tc main_arg8)))
    (tab1 (A := 128) (W (Proc.devRef .tc main_arg9))) r j) ?_
  funext a l
  refine (rect_entry (A := 100000) (B := 128) bcast_S_S100000x128 _ a l).trans ?_
  exact congrArg lrelu (conv_entry dot_S100000x128_S128x128_S100000x128_1_0_0_1_n_n_wf bcast_S128_S1x128_1 bcast_S1x128_S100000x128_0_1 _ _ _ _ _ a l)

/-- The second round's mixing, rectified. -/
theorem c2_value (W : Vals) (r : Fin 100000) (j : Fin 128) :
    after opsC2 W (Proc.devRef .tc main_v47) (ix2 r j)
      = act (conv (tab2 (A := 100000) (B := 128) (W (Proc.devRef .tc main_v40))) (tab2 (A := 100000) (B := 128) (W (Proc.devRef .tc main_v30)))
          (tab2 (A := 128) (B := 128) (W (Proc.devRef .tc main_arg10))) (tab1 (A := 128) (W (Proc.devRef .tc main_arg11)))
          (tab2 (A := 128) (B := 128) (W (Proc.devRef .tc main_arg12)))) r j := by
  after_results_simp
  refine (rect_entry (A := 100000) (B := 128) bcast_S_S100000x128 _ r j).trans ?_
  exact congrArg lrelu (conv_entry dot_S100000x128_S128x128_S100000x128_1_0_0_1_n_n_wf bcast_S128_S1x128_1 bcast_S1x128_S100000x128_0_1 _ _ _ _ _ r j)

/-- The three closing layers of the pooled rows. -/
theorem head_value (W : Vals) (g : Fin 64) (j : Fin 2) :
    after opsHead W (Proc.devRef .tc main_v72) (ix2 g j)
      = head (tab2 (A := 64) (B := 128) (W (Proc.devRef .tc main_v58))) (tab2 (A := 128) (B := 128) (W (Proc.devRef .tc main_arg13)))
          (tab1 (A := 128) (W (Proc.devRef .tc main_arg14))) (tab2 (A := 128) (B := 64) (W (Proc.devRef .tc main_arg15))) (tab1 (A := 64) (W (Proc.devRef .tc main_arg16)))
          (tab2 (A := 64) (B := 2) (W (Proc.devRef .tc main_arg17))) (tab1 (A := 2) (W (Proc.devRef .tc main_arg18))) g j := by
  after_results_simp
  refine (dense_entry dot_S64x64_S64x2_S64x2_1_0_0_1_n_n_wf bcast_S2_S1x2_1 bcast_S1x2_S64x2_0_1 _ _ _ g j).trans ?_
  unfold head
  refine congrArg (fun t : Mat 64 64 => dense t (tab2 (A := 64) (B := 2) (W (Proc.devRef .tc main_arg17)))
    (tab1 (A := 2) (W (Proc.devRef .tc main_arg18))) g j) ?_
  funext a l
  refine (rect_entry (A := 64) (B := 64) bcast_S_S64x64 _ a l).trans ?_
  refine congrArg lrelu ?_
  refine (dense_entry dot_S64x128_S128x64_S64x64_1_0_0_1_n_n_wf bcast_S64_S1x64_1 bcast_S1x64_S64x64_0_1 _ _ _ a l).trans ?_
  refine congrArg (fun t : Mat 64 128 => dense t (tab2 (A := 128) (B := 64) (W (Proc.devRef .tc main_arg15)))
    (tab1 (A := 64) (W (Proc.devRef .tc main_arg16))) a l) ?_
  funext a' l'
  refine (rect_entry (A := 64) (B := 128) bcast_S_S64x128 _ a' l').trans ?_
  exact congrArg lrelu (dense_entry dot_S64x128_S128x128_S64x128_1_0_0_1_n_n_wf bcast_S128_S1x128_1 bcast_S1x128_S64x128_0_1
    _ _ _ a' l')

end Cert.ReferenceIdeal.Val

end
-- ==== Proof.RGraph.lean ====
/-
  The reference's graph stretches as straight lines of host operations, and what each leaves, entry by entry:
  the two rows of the edge table as sequences of words; the neighbours' sums (each source word made a row number, the
  rows looked up, and added into the rows the target words name), twice; and the per-graph sums, counts and means.
-/
import proofs.«426622_j23862838296799_2_alg».proof.ReferenceIdeal
import proofs.«426622_j23862838296799_2_alg».proof.Proof.Gen.ReferenceIdeal
import proofs.«426622_j23862838296799_2_alg».proof.Proof.Spec
import proofs.«426622_j23862838296799_2_alg».proof.Proof.RTypes
import proofs.«426622_j23862838296799_2_alg».proof.Proof.LibDot
import proofs.«426622_j23862838296799_2_alg».proof.Proof.LibGS
import Idealize.ShloMosaic.Lib.StableHlo.Run
import Idealize.ShloMosaic.Lib.ValueLayout

set_option maxRecDepth 16384

noncomputable section

open scoped BigOperators

namespace Cert.ReferenceIdeal.Val

open Idealize.ShloMosaic Idealize.ShloMosaic.ValueIdx Idealize.ShloMosaic.TcCoe Idealize.ShloMosaic.StableHlo Idealize.SL.Sem
open Cert.ReferenceIdeal Cert.GNN
open Cert.ReferenceIdeal.Facts₀ Cert.ReferenceIdeal.Facts

variable {F : FTy → Type} [FloatOps F]

/-- Statements %0 … %3 of @main: the two rows of the edge table, each sliced and reshaped. -/
abbrev opsEdges : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Statements %c … %18: the first neighbours' sums. -/
abbrev opsG1 : List (HloOp τ sig (Elt F)) :=
  [ StableHlo.nullary main_c (constantI S_ 32 0#32),
    StableHlo.unary main_c main_v9 (broadcastInDim S800000 ![] bcast_S_S800000 : (⟨S_, .i32⟩ : BufTy).Contents (Elt F) → (⟨S800000, .i32⟩ : BufTy).Contents (Elt F)),
    StableHlo.binary main_v1 main_v9 main_v10 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v11 (broadcastInDim S800000 ![] bcast_S_S800000 : (⟨S_, .i32⟩ : BufTy).Contents (Elt F) → (⟨S800000, .i32⟩ : BufTy).Contents (Elt F)),
    StableHlo.binary main_v1 main_v11 main_v12 (addi : (⟨S800000, .i32⟩ : BufTy).Contents (Elt F) → (⟨S800000, .i32⟩ : BufTy).Contents (Elt F) → (⟨S800000, .i32⟩ : BufTy).Contents (Elt F)),
    StableHlo.ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v13 main_v14 (broadcastInDim S800000x1 ![0] bcast_S800000_S800000x1_0 : (⟨S800000, .i32⟩ : BufTy).Contents (Elt F) → (⟨S800000x1, .i32⟩ : BufTy).Contents (Elt F)),
    StableHlo.binary main_v8 main_v14 main_v15 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_1 (constant S_ .f32 0x00000000#32),
    StableHlo.unary main_cst_1 main_v16 (broadcastInDim S100000x128 ![] bcast_S_S100000x128 : (⟨S_, .f32⟩ : BufTy).Contents (Elt F) → (⟨S100000x128, .f32⟩ : BufTy).Contents (Elt F)),
    StableHlo.unary main_v3 main_v17 (broadcastInDim S800000x1 ![0] bcast_S800000_S800000x1_0 : (⟨S800000, .i32⟩ : BufTy).Contents (Elt F) → (⟨S800000x1, .i32⟩ : BufTy).Contents (Elt F)),
    StableHlo.ternary main_v16 main_v17 main_v15 main_v18 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

/-- Statements %c_4 … %40: the second neighbours' sums. -/
abbrev opsG2 : List (HloOp τ sig (Elt F)) :=
  [ StableHlo.nullary main_c_4 (constantI S_ 32 0#32),
    StableHlo.unary main_c_4 main_v31 (broadcastInDim S800000 ![] bcast_S_S800000 : (⟨S_, .i32⟩ : BufTy).Contents (Elt F) → (⟨S800000, .i32⟩ : BufTy).Contents (Elt F)),
    StableHlo.binary main_v1 main_v31 main_v32 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v33 (broadcastInDim S800000 ![] bcast_S_S800000 : (⟨S_, .i32⟩ : BufTy).Contents (Elt F) → (⟨S800000, .i32⟩ : BufTy).Contents (Elt F)),
    StableHlo.binary main_v1 main_v33 main_v34 (addi : (⟨S800000, .i32⟩ : BufTy).Contents (Elt F) → (⟨S800000, .i32⟩ : BufTy).Contents (Elt F) → (⟨S800000, .i32⟩ : BufTy).Contents (Elt F)),
    StableHlo.ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v35 main_v36 (broadcastInDim S800000x1 ![0] bcast_S800000_S800000x1_0 : (⟨S800000, .i32⟩ : BufTy).Contents (Elt F) → (⟨S800000x1, .i32⟩ : BufTy).Contents (Elt F)),
    StableHlo.binary main_v30 main_v36 main_v37 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v3 main_v39 (broadcastInDim S800000x1 ![0] bcast_S800000_S800000x1_0 : (⟨S800000, .i32⟩ : BufTy).Contents (Elt F) → (⟨S800000x1, .i32⟩ : BufTy).Contents (Elt F)),
    StableHlo.ternary main_v38 main_v39 main_v37 main_v40 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]

/-- Statements %cst_8 … %58: the per-graph sums and counts, and the means. -/
abbrev opsPool : List (HloOp τ sig (Elt F)) :=
  [ StableHlo.nullary main_cst_8 (constant S_ .f32 0x00000000#32),
    StableHlo.unary main_cst_8 main_v48 (broadcastInDim S64x128 ![] bcast_S_S64x128 : (⟨S_, .f32⟩ : BufTy).Contents (Elt F) → (⟨S64x128, .f32⟩ : BufTy).Contents (Elt F)),
    StableHlo.unary main_arg2 main_v49 (broadcastInDim S100000x1 ![0] bcast_S100000_S100000x1_0 : (⟨S100000, .i32⟩ : BufTy).Contents (Elt F) → (⟨S100000x1, .i32⟩ : BufTy).Contents (Elt F)),
    StableHlo.ternary main_v48 main_v49 main_v47 main_v50 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_9 (constant S_ .f32 0x3F800000#32),
    StableHlo.unary main_cst_9 main_v51 (broadcastInDim S100000x1 ![] bcast_S_S100000x1 : (⟨S_, .f32⟩ : BufTy).Contents (Elt F) → (⟨S100000x1, .f32⟩ : BufTy).Contents (Elt F)),
    StableHlo.nullary main_cst_10 (constant S_ .f32 0x00000000#32),
    StableHlo.unary main_cst_10 main_v52 (broadcastInDim S64x1 ![] bcast_S_S64x1 : (⟨S_, .f32⟩ : BufTy).Contents (Elt F) → (⟨S64x1, .f32⟩ : BufTy).Contents (Elt F)),
    StableHlo.unary main_arg2 main_v53 (broadcastInDim S100000x1 ![0] bcast_S100000_S100000x1_0 : (⟨S100000, .i32⟩ : BufTy).Contents (Elt F) → (⟨S100000x1, .i32⟩ : BufTy).Contents (Elt F)),
    StableHlo.ternary main_v52 main_v53 main_v51 main_v54 ((fun x i u => Host.scatterAdd scatter_S64x1_S100000x1_S100000x1_1_0_0_1 x i u) : (⟨S64x1, .f32⟩ : BufTy).Contents (Elt F) → (⟨S100000x1, .i32⟩ : BufTy).Contents (Elt F) → (⟨S100000x1, .f32⟩ : BufTy).Contents (Elt F) → (⟨S64x1, .f32⟩ : BufTy).Contents (Elt F)),
    StableHlo.nullary main_cst_11 (constant S_ .f32 0x3F800000#32),
    StableHlo.unary main_cst_11 main_v55 (broadcastInDim S64x1 ![] bcast_S_S64x1 : (⟨S_, .f32⟩ : BufTy).Contents (Elt F) → (⟨S64x1, .f32⟩ : BufTy).Contents (Elt F)),
    StableHlo.binary main_v54 main_v55 main_v56 (maximumf : (⟨S64x1, .f32⟩ : BufTy).Contents (Elt F) → (⟨S64x1, .f32⟩ : BufTy).Contents (Elt F) → (⟨S64x1, .f32⟩ : BufTy).Contents (Elt F)),
    StableHlo.unary main_v56 main_v57 (broadcastInDim S64x128 ![0, 1] bcast_S64x1_S64x128_0_1 : (⟨S64x1, .f32⟩ : BufTy).Contents (Elt F) → (⟨S64x128, .f32⟩ : BufTy).Contents (Elt F)),
    StableHlo.binary main_v50 main_v57 main_v58 (Host.divf : (⟨S64x128, .f32⟩ : BufTy).Contents (Elt F) → (⟨S64x128, .f32⟩ : BufTy).Contents (Elt F) → (⟨S64x128, .f32⟩ : BufTy).Contents (Elt F)) ]

/-! ## The pieces read at an entry -/

/-- A sequence laid out as one column reads, at `(e, u)`, the sequence at `e`. -/
theorem col_apply {α : Type} {A : ℕ} (h : (⟨1, ![A]⟩ : Shape).BroadcastsInDim ⟨2, ![A, 1]⟩ ![0])
    (v : (⟨1, ![A]⟩ : Shape).Idx → α) (e : Fin A) (u : Fin 1) :
    broadcastInDim ⟨2, ![A, 1]⟩ ![0] h v (ix2 e u) = v (ix1 e) :=
  broadcastInDim_apply _ _ _ _ (ix1 e) (fun a => by
    obtain rfl : a = 0 := Subsingleton.elim _ _
    show e.val = if A = 1 then 0 else e.val
    split
    · have := e.isLt; omega
    · rfl)

/-- The zero word spread over a shape is the extended real zero at every entry. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) :=
  (broadcastInDim_scalar_apply h _ j).trans Ideal.ofBits_zero_f32

/-- The host's accumulating scatter at the ideal reading is the exact sum. -/
theorem hostScatterAdd_ideal {s si u : Shape} {w : ℕ} (d : ScatterDims s si u) (x : FVec Ideal s .f32) (idx : IVec si w)
    (upd : FVec Ideal u .f32) : Host.scatterAdd (F := Ideal) d x idx upd = Ideal.hostScatterAdd d x idx upd := rfl

/-- The host's division at the ideal reading divides entry by entry. -/
theorem hostDivf_ideal_apply {s : Shape} (x y : FVec Ideal s .f32) (i : s.Idx) :
    Host.divf (F := Ideal) x y i = Ideal.div (x i) (y i) := rfl

/-- The neighbours' sum as the reference spells it (the source words made row numbers, the table's rows looked up,
    the rows added into a zero table at the rows the target words name) is `aggr` at every entry. -/
theorem gs_apply (x : (⟨2, ![100000, 128]⟩ : Shape).Idx → EReal) (s d : (⟨1, ![800000]⟩ : Shape).Idx → BitVec 32)
    (n : Fin 100000) (k : Fin 128) :
    Host.scatterAdd (F := Ideal) (φ := .f32) scatter_S100000x128_S800000x1_S800000x128_1_0_0_1
      (broadcastInDim S100000x128 ![] bcast_S_S100000x128 (constant (F := Ideal) S_ .f32 0x00000000#32))
      (broadcastInDim S800000x1 ![0] bcast_S800000_S800000x1_0 d)
      (Host.gather gather_S100000x128_S800000x1_S800000x128_1_0_n_n_0_1_1128 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 100000#32))) s)))
      (ix2 n k)
    = aggr (words s) (words d) (tab2 x) n k := by
  refine (congrFun (hostScatterAdd_ideal _ _ _ _) _).trans ?_
  refine (Cert.LibGS.scatterAdd_rows_apply scatter_S100000x128_S800000x1_S800000x128_1_0_0_1_wf _ _ _ n k).trans ?_
  rw [zeros_apply, zero_add]
  have hd : ∀ e : Fin 800000, broadcastInDim S800000x1 ![0] bcast_S800000_S800000x1_0 d (ix2 e 0) = words d e :=
    fun e => col_apply _ d e 0
  unfold aggr
  refine Finset.sum_congr (Finset.filter_congr fun e _ => by rw [hd]) fun e _ => ?_
  have hw : broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 100000#32))) s) (ix2 e 0)
      = wrap (s (ix1 e)) := col_apply _ _ e 0
  refine (Cert.LibGS.gather_rows_apply (N := 100000) (Nat.succ_pos _)
    gather_S100000x128_S800000x1_S800000x128_1_0_n_n_0_1_1128_wf x _ e k).trans ?_
  exact congrArg (fun r : Fin 100000 => x (ix2 r k))
    (Fin.ext (congrArg (fun w : BitVec 32 => min w.toInt.toNat 99999) hw))

/-- The one word spread over a shape is the extended real one at every entry. -/
theorem ones_apply {T : Shape} (h : (⟨0, ![]⟩ : Shape).BroadcastsInDim T ![]) (j : T.Idx) :
    broadcastInDim T ![] h (constant (F := Ideal) ⟨0, ![]⟩ .f32 0x3F800000#32) j = (1 : EReal) :=
  (broadcastInDim_scalar_apply h _ j).trans Ideal.ofBits_one_f32

/-- A column spread along the rows reads, at `(g, j)`, the column at `g`. -/
theorem spread_apply {α : Type} {A B : ℕ} (h : (⟨2, ![A, 1]⟩ : Shape).BroadcastsInDim ⟨2, ![A, B]⟩ ![0, 1])
    (v : (⟨2, ![A, 1]⟩ : Shape).Idx → α) (g : Fin A) (j : Fin B) :
    broadcastInDim ⟨2, ![A, B]⟩ ![0, 1] h v (ix2 g j) = v (ix2 g 0) :=
  broadcastInDim_apply _ _ _ _ (ix2 g 0) (fun a => by
    match a with
    | ⟨0, _⟩ =>
      show g.val = if A = 1 then 0 else g.val
      split
      · have := g.isLt; omega
      · rfl
    | ⟨1, _⟩ => rfl)

/-- The per-graph sums as the reference spells them (the rows added into a zero table at the rows the graph words
    name) are `segSum` at every entry. -/
theorem segsum_apply (y : (⟨2, ![100000, 128]⟩ : Shape).Idx → EReal) (b : (⟨1, ![100000]⟩ : Shape).Idx → BitVec 32)
    (g : Fin 64) (j : Fin 128) :
    Host.scatterAdd (F := Ideal) (φ := .f32) scatter_S64x128_S100000x1_S100000x128_1_0_0_1
      (broadcastInDim S64x128 ![] bcast_S_S64x128 (constant (F := Ideal) S_ .f32 0x00000000#32))
      (broadcastInDim S100000x1 ![0] bcast_S100000_S100000x1_0 b) y (ix2 g j)
    = segSum (words b) (tab2 y) g j := by
  refine (congrFun (hostScatterAdd_ideal _ _ _ _) _).trans ?_
  refine (Cert.LibGS.scatterAdd_rows_apply scatter_S64x128_S100000x1_S100000x128_1_0_0_1_wf _ _ _ g j).trans ?_
  rw [zeros_apply, zero_add]
  have hb : ∀ e : Fin 100000, broadcastInDim S100000x1 ![0] bcast_S100000_S100000x1_0 b (ix2 e 0) = words b e :=
    fun e => col_apply _ b e 0
  unfold segSum
  exact Finset.sum_congr (Finset.filter_congr fun e _ => by rw [hb]) fun e _ => rfl

/-- The per-graph counts as the reference spells them (a column of ones added into a zero column at the rows the
    graph words name) are `segCount` at every entry. -/
theorem segcount_apply (b : (⟨1, ![100000]⟩ : Shape).Idx → BitVec 32) (g : Fin 64) :
    Host.scatterAdd (F := Ideal) (φ := .f32) scatter_S64x1_S100000x1_S100000x1_1_0_0_1
      (broadcastInDim S64x1 ![] bcast_S_S64x1 (constant (F := Ideal) S_ .f32 0x00000000#32))
      (broadcastInDim S100000x1 ![0] bcast_S100000_S100000x1_0 b)
      (broadcastInDim S100000x1 ![] bcast_S_S100000x1 (constant (F := Ideal) S_ .f32 0x3F800000#32)) (ix2 g 0)
    = segCount (words b) g := by
  refine (congrFun (hostScatterAdd_ideal _ _ _ _) _).trans ?_
  refine (Cert.LibGS.scatterAdd_rows_apply scatter_S64x1_S100000x1_S100000x1_1_0_0_1_wf _ _ _ g 0).trans ?_
  rw [zeros_apply, zero_add]
  have hb : ∀ e : Fin 100000, broadcastInDim S100000x1 ![0] bcast_S100000_S100000x1_0 b (ix2 e 0) = words b e :=
    fun e => col_apply _ b e 0
  unfold segCount
  exact Finset.sum_congr (Finset.filter_congr fun e _ => by rw [hb]) fun e _ => ones_apply _ _

/-- The per-graph means as the reference spells them (the sums over the counts, a count below one replaced by one)
    are `mean` of `segSum` and `segCount` at every entry. -/
theorem pool_apply (y : (⟨2, ![100000, 128]⟩ : Shape).Idx → EReal) (b : (⟨1, ![100000]⟩ : Shape).Idx → BitVec 32)
    (g : Fin 64) (j : Fin 128) :
    Host.divf (F := Ideal) (φ := .f32)
      (Host.scatterAdd (F := Ideal) (φ := .f32) scatter_S64x128_S100000x1_S100000x128_1_0_0_1
        (broadcastInDim S64x128 ![] bcast_S_S64x128 (constant (F := Ideal) S_ .f32 0x00000000#32))
        (broadcastInDim S100000x1 ![0] bcast_S100000_S100000x1_0 b) y)
      (broadcastInDim S64x128 ![0, 1] bcast_S64x1_S64x128_0_1
        (maximumf (F := Ideal) (φ := .f32)
          (Host.scatterAdd (F := Ideal) (φ := .f32) scatter_S64x1_S100000x1_S100000x1_1_0_0_1
            (broadcastInDim S64x1 ![] bcast_S_S64x1 (constant (F := Ideal) S_ .f32 0x00000000#32))
            (broadcastInDim S100000x1 ![0] bcast_S100000_S100000x1_0 b)
            (broadcastInDim S100000x1 ![] bcast_S_S100000x1 (constant (F := Ideal) S_ .f32 0x3F800000#32)))
          (broadcastInDim S64x1 ![] bcast_S_S64x1 (constant (F := Ideal) S_ .f32 0x3F800000#32))))
      (ix2 g j)
    = mean (segSum (words b) (tab2 y)) (segCount (words b)) g j := by
  have h3 : broadcastInDim S64x128 ![0, 1] bcast_S64x1_S64x128_0_1
        (maximumf (F := Ideal) (φ := .f32)
          (Host.scatterAdd (F := Ideal) (φ := .f32) scatter_S64x1_S100000x1_S100000x1_1_0_0_1
            (broadcastInDim S64x1 ![] bcast_S_S64x1 (constant (F := Ideal) S_ .f32 0x00000000#32))
            (broadcastInDim S100000x1 ![0] bcast_S100000_S100000x1_0 b)
            (broadcastInDim S100000x1 ![] bcast_S_S100000x1 (constant (F := Ideal) S_ .f32 0x3F800000#32)))
          (broadcastInDim S64x1 ![] bcast_S_S64x1 (constant (F := Ideal) S_ .f32 0x3F800000#32))) (ix2 g j)
      = max (segCount (words b) g) 1 := by
    refine (spread_apply _ _ g j).trans ?_
    show max _ _ = _
    rw [segcount_apply, ones_apply]
  refine (hostDivf_ideal_apply _ _ _).trans ?_
  unfold mean
  rw [segsum_apply, h3]

/-- The source words are row 0 of the edge table … -/
theorem edges_src (W : Vals) (e : Fin 800000) :
    after opsEdges W (Proc.devRef .tc main_v1) (ix1 e) = rowWords (A := 800000) (W (Proc.devRef .tc main_arg1)) 0 e := by
  after_results
  show shapeCast S800000 (extractStridedSlice S1x800000 ![0, 0] (W (Proc.devRef .tc main_arg1)) slices_S2x800000_S1x800000_0_0) shapeCasts_S1x800000_S800000 (ix1 e) = _
  refine (shapeCast_1a_a_apply _ _ e).trans ?_
  exact slice2_axis0_apply 0 _ _ (0 : Fin 1) e (0 : Fin 2) rfl

/-- … and the target words its row 1. -/
theorem edges_dst (W : Vals) (e : Fin 800000) :
    after opsEdges W (Proc.devRef .tc main_v3) (ix1 e) = rowWords (A := 800000) (W (Proc.devRef .tc main_arg1)) 1 e := by
  after_results
  show shapeCast S800000 (extractStridedSlice S1x800000 ![1, 0] (W (Proc.devRef .tc main_arg1)) slices_S2x800000_S1x800000_1_0) shapeCasts_S1x800000_S800000 (ix1 e) = _
  refine (shapeCast_1a_a_apply _ _ e).trans ?_
  exact slice2_axis0_apply 1 _ _ (0 : Fin 1) e (1 : Fin 2) rfl

/-- The neighbours' sums of the first layer's rows. -/
theorem g1_value (W : Vals) (n : Fin 100000) (k : Fin 128) :
    after opsG1 W (Proc.devRef .tc main_v18) (ix2 n k)
      = aggr (words (A := 800000) (W (Proc.devRef .tc main_v1))) (words (A := 800000) (W (Proc.devRef .tc main_v3)))
          (tab2 (A := 100000) (B := 128) (W (Proc.devRef .tc main_v8))) n k := by
  after_results
  exact gs_apply _ _ _ n k

/-- The neighbours' sums of the rows after the first round. -/
theorem g2_value (W : Vals) (n : Fin 100000) (k : Fin 128) :
    after opsG2 W (Proc.devRef .tc main_v40) (ix2 n k)
      = aggr (words (A := 800000) (W (Proc.devRef .tc main_v1))) (words (A := 800000) (W (Proc.devRef .tc main_v3)))
          (tab2 (A := 100000) (B := 128) (W (Proc.devRef .tc main_v30))) n k := by
  after_results
  exact gs_apply _ _ _ n k

/-- The per-graph means of the second round's rows. -/
theorem pool_value (W : Vals) (g : Fin 64) (j : Fin 128) :
    after opsPool W (Proc.devRef .tc main_v58) (ix2 g j)
      = mean (segSum (words (A := 100000) (W (Proc.devRef .tc main_arg2))) (tab2 (A := 100000) (B := 128) (W (Proc.devRef .tc main_v47))))
          (segCount (words (A := 100000) (W (Proc.devRef .tc main_arg2)))) g j := by
  after_results
  exact pool_apply _ _ g j

end Cert.ReferenceIdeal.Val

end
-- ==== Proof.RRun.lean ====
/-
  The reference's run: @main is one straight line of host operations, the eight stretches one after the other, so
  every weakly fair execution ends with each buffer of a core at the fold of those operations over what the core
  held at launch.
-/
import proofs.«426622_j23862838296799_2_alg».proof.ReferenceIdeal
import proofs.«426622_j23862838296799_2_alg».proof.Proof.Gen.ReferenceIdeal
import proofs.«426622_j23862838296799_2_alg».proof.Proof.RDense
import proofs.«426622_j23862838296799_2_alg».proof.Proof.RGraph
import Idealize.ShloMosaic.Lib.StableHlo.Run

set_option maxRecDepth 16384

noncomputable section

open scoped BigOperators

namespace Cert.ReferenceIdeal.Val

open Idealize.ShloMosaic Idealize.ShloMosaic.ValueIdx Idealize.ShloMosaic.TcCoe Idealize.ShloMosaic.StableHlo Idealize.SL.Sem
open Cert.ReferenceIdeal Cert.GNN
open Facts₀ Facts

variable {F : FTy → Type} [FloatOps F]

/-- @main's operations in order: the eight stretches one after the other. -/
abbrev ops : List (HloOp τ sig (Elt F)) :=
  opsEdges ++ opsL1 ++ opsG1 ++ opsC1 ++ opsG2 ++ opsC2 ++ opsPool ++ opsHead

/-- @main is that straight line: its two windows and the rectifier's functions unfolded at their calls and the
    stretches written out as one list, both sides are one chain of `hlo` steps once sequencing is reassociated
    (a function's closing `pure` disappears into the step that follows it). -/
theorem main_eq (c : Dev nD) : main (F := F) c = seq ops := by
  simp only [main, main_part0, main_part1, fn_leaky_relu.body, fn_where.body, fn_leaky_relu_0.body, fn_where_1.body,
    fn_leaky_relu_2.body, fn_where_3.body, ops, opsEdges, opsL1, opsG1, opsC1, opsG2, opsC2, opsPool, opsHead,
    List.cons_append, List.nil_append, seq, bind_assoc, pure_bind]

/-! ## Every operation touches TensorCore buffers only, and none leaves a buffer undetermined

Both are properties of each operation by itself, so they are stated stretch by stretch and joined: a property of
every entry of two lists is one of every entry of their concatenation. -/

/-- A property of every entry of two lists holds of every entry of the two joined. -/
private theorem forall_app {α : Type} {p : α → Prop} {l₁ l₂ : List α} (h₁ : l₁.Forall p) (h₂ : l₂.Forall p) :
    (l₁ ++ l₂).Forall p :=
  List.forall_append.mpr ⟨h₁, h₂⟩

/-- The two slices and their reshapes. -/
private theorem sub_Edges : (opsEdges : List (HloOp τ sig (Elt F))).Forall fun op => op.bufs ⊆ tcRefs τ sig :=
  ⟨unary_bufs_sub .., reshape_bufs_sub .., unary_bufs_sub .., reshape_bufs_sub ..⟩

/-- The product, the bias broadcast twice and added, the slope, and the rectifier's seven. -/
private theorem sub_L1 : (opsL1 : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The wrapped source words (zero, comparison, the table's length, sum, selection), their column, the rows looked
    up; the zero table, the target words' column, the rows added in. -/
private theorem sub_G1 : (opsG1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩

/-- The first round's two products, bias and sum with the rectifier's seven; the dense layer after it with the
    rectifier's seven. -/
private theorem sub_C1 : (opsC1 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The second neighbours' sums: the same thirteen kinds as the first. -/
private theorem sub_G2 : (opsG2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub ..⟩

/-- The second round's two products, bias and sum with the rectifier's seven. -/
private theorem sub_C2 : (opsC2 : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub ..,
    nullary_bufs_sub .., unary_bufs_sub .., binary_bufs_sub .., unary_bufs_sub .., unary_bufs_sub .., binary_bufs_sub ..,
    ternary_bufs_sub ..⟩

/-- The per-graph sums (zero table, graph words' column, rows added in), the counts (ones, zero column, graph words'
    column, ones added in), the maximum with one, its broadcast, the quotient. -/
private theorem sub_Pool : (opsPool : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub ..⟩

/-- The three closing layers: product, bias broadcast twice and added; the first two followed by the slope and the
    rectifier's seven. -/
private theorem sub_Head : (opsHead : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub ..⟩

theorem ops_sub : (ops : List (HloOp τ sig (Elt F))).Forall fun op => op.bufs ⊆ tcRefs τ sig :=
  forall_app (forall_app (forall_app (forall_app (forall_app (forall_app (forall_app sub_Edges sub_L1) sub_G1) sub_C1)
    sub_G2) sub_C2) sub_Pool) sub_Head

/-- No operation of a stretch allocates: each determines what it writes. By cases on where in the literal list the
    operation stands. -/
private theorem fresh_Edges : (opsEdges : List (HloOp τ sig (Elt F))).Forall fun op => op.fresh = ∅ :=
  List.forall_iff_forall_mem.mpr (by intro _ h; (repeat (cases h with | head => rfl | tail _ h => ?_)); exact nomatch h)
private theorem fresh_L1 : (opsL1 : List (HloOp τ sig (Elt F))).Forall fun op => op.fresh = ∅ :=
  List.forall_iff_forall_mem.mpr (by intro _ h; (repeat (cases h with | head => rfl | tail _ h => ?_)); exact nomatch h)
private theorem fresh_G1 : (opsG1 : List (HloOp τ sig (Elt F))).Forall fun op => op.fresh = ∅ :=
  List.forall_iff_forall_mem.mpr (by intro _ h; (repeat (cases h with | head => rfl | tail _ h => ?_)); exact nomatch h)
private theorem fresh_C1 : (opsC1 : List (HloOp τ sig (Elt F))).Forall fun op => op.fresh = ∅ :=
  List.forall_iff_forall_mem.mpr (by intro _ h; (repeat (cases h with | head => rfl | tail _ h => ?_)); exact nomatch h)
private theorem fresh_G2 : (opsG2 : List (HloOp τ sig (Elt F))).Forall fun op => op.fresh = ∅ :=
  List.forall_iff_forall_mem.mpr (by intro _ h; (repeat (cases h with | head => rfl | tail _ h => ?_)); exact nomatch h)
private theorem fresh_C2 : (opsC2 : List (HloOp τ sig (Elt F))).Forall fun op => op.fresh = ∅ :=
  List.forall_iff_forall_mem.mpr (by intro _ h; (repeat (cases h with | head => rfl | tail _ h => ?_)); exact nomatch h)
private theorem fresh_Pool : (opsPool : List (HloOp τ sig (Elt F))).Forall fun op => op.fresh = ∅ :=
  List.forall_iff_forall_mem.mpr (by intro _ h; (repeat (cases h with | head => rfl | tail _ h => ?_)); exact nomatch h)
private theorem fresh_Head : (opsHead : List (HloOp τ sig (Elt F))).Forall fun op => op.fresh = ∅ :=
  List.forall_iff_forall_mem.mpr (by intro _ h; (repeat (cases h with | head => rfl | tail _ h => ?_)); exact nomatch h)

theorem ops_fresh : ∀ op ∈ (ops : List (HloOp τ sig (Elt F))), op.fresh = ∅ :=
  List.forall_iff_forall_mem.mp
    (forall_app (forall_app (forall_app (forall_app (forall_app (forall_app (forall_app fresh_Edges fresh_L1) fresh_G1)
      fresh_C1) fresh_G2) fresh_C2) fresh_Pool) fresh_Head)

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Val

end
-- ==== Proof.RValue.lean ====
/-
  The reference's result, entry by entry: the network of Spec.lean of whatever the argument buffers hold.

  The reference's straight line is eight stretches run one after the other: the edge table's two rows; the first
  dense layer; the first neighbours' sums; the first round's mixing and the dense layer after it; the second
  neighbours' sums; the second round's mixing; the per-graph means; the closing layers. The buffer contents after a
  concatenation are the contents after the second part from those after the first, and a stretch changes only its
  own result buffers, so each stretch finds the earlier results and the argument buffers as they were left.
-/
import proofs.«426622_j23862838296799_2_alg».proof.Proof.RDense
import proofs.«426622_j23862838296799_2_alg».proof.Proof.RGraph

set_option maxRecDepth 16384

noncomputable section

open scoped BigOperators

namespace Cert.ReferenceIdeal.Val

open Idealize.ShloMosaic Idealize.ShloMosaic.ValueIdx Idealize.ShloMosaic.TcCoe Idealize.ShloMosaic.StableHlo Idealize.SL.Sem
open Cert.ReferenceIdeal Cert.GNN
open Facts₀ Facts

/-- The contents after a concatenation are the contents after its second part from those after its first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## What each stretch writes

  A stretch writes the result buffers of its operations and nothing else; each list below is those buffers in the
  stretch's order. A buffer outside the list holds after the stretch what it held before. -/

/-- The result buffers of the edge table's two rows. -/
abbrev writtenEdges : List (Ref sig .tc) :=
  [main_v0, main_v1, main_v2, main_v3]

theorem writesEdges : (opsEdges : List (HloOp τ sig (Elt Ideal))).Forall fun op =>
    op.writes ⊆ ((writtenEdges).map (Proc.devRef (τ := τ) .tc)).toFinset := by
  simp only [opsEdges, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the first dense layer. -/
abbrev writtenL1 : List (Ref sig .tc) :=
  [main_v4, main_v5, main_v6, main_v7, main_cst, main_call0_cst, main_call0_v0, main_call0_v1, main_call0_v2,
   main_call0_v3, main_call0_v4, main_v8]

theorem writesL1 : (opsL1 : List (HloOp τ sig (Elt Ideal))).Forall fun op =>
    op.writes ⊆ ((writtenL1).map (Proc.devRef (τ := τ) .tc)).toFinset := by
  simp only [opsL1, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the first neighbours' sums. -/
abbrev writtenG1 : List (Ref sig .tc) :=
  [main_c, main_v9, main_v10, main_c_0, main_v11, main_v12, main_v13, main_v14, main_v15, main_cst_1, main_v16,
   main_v17, main_v18]

theorem writesG1 : (opsG1 : List (HloOp τ sig (Elt Ideal))).Forall fun op =>
    op.writes ⊆ ((writtenG1).map (Proc.devRef (τ := τ) .tc)).toFinset := by
  simp only [opsG1, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the first round's mixing and the dense layer after it. -/
abbrev writtenC1 : List (Ref sig .tc) :=
  [main_v19, main_v20, main_v21, main_v22, main_v23, main_v24, main_cst_2, main_call1_cst, main_call1_v0,
   main_call1_v1, main_call1_v2, main_call1_v3, main_call1_v4, main_v25, main_v26, main_v27, main_v28,
   main_v29, main_cst_3, main_call2_cst, main_call2_v0, main_call2_v1, main_call2_v2, main_call2_v3,
   main_call2_v4, main_v30]

theorem writesC1 : (opsC1 : List (HloOp τ sig (Elt Ideal))).Forall fun op =>
    op.writes ⊆ ((writtenC1).map (Proc.devRef (τ := τ) .tc)).toFinset := by
  simp only [opsC1, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the second neighbours' sums. -/
abbrev writtenG2 : List (Ref sig .tc) :=
  [main_c_4, main_v31, main_v32, main_c_5, main_v33, main_v34, main_v35, main_v36, main_v37, main_cst_6,
   main_v38, main_v39, main_v40]

theorem writesG2 : (opsG2 : List (HloOp τ sig (Elt Ideal))).Forall fun op =>
    op.writes ⊆ ((writtenG2).map (Proc.devRef (τ := τ) .tc)).toFinset := by
  simp only [opsG2, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the second round's mixing. -/
abbrev writtenC2 : List (Ref sig .tc) :=
  [main_v41, main_v42, main_v43, main_v44, main_v45, main_v46, main_cst_7, main_call3_cst, main_call3_v0,
   main_call3_v1, main_call3_v2, main_call3_v3, main_call3_v4, main_v47]

theorem writesC2 : (opsC2 : List (HloOp τ sig (Elt Ideal))).Forall fun op =>
    op.writes ⊆ ((writtenC2).map (Proc.devRef (τ := τ) .tc)).toFinset := by
  simp only [opsC2, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the per-graph means. -/
abbrev writtenPool : List (Ref sig .tc) :=
  [main_cst_8, main_v48, main_v49, main_v50, main_cst_9, main_v51, main_cst_10, main_v52, main_v53, main_v54,
   main_cst_11, main_v55, main_v56, main_v57, main_v58]

theorem writesPool : (opsPool : List (HloOp τ sig (Elt Ideal))).Forall fun op =>
    op.writes ⊆ ((writtenPool).map (Proc.devRef (τ := τ) .tc)).toFinset := by
  simp only [opsPool, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-- The result buffers of the closing layers. -/
abbrev writtenHead : List (Ref sig .tc) :=
  [main_v59, main_v60, main_v61, main_v62, main_cst_12, main_call4_cst, main_call4_v0, main_call4_v1,
   main_call4_v2, main_call4_v3, main_call4_v4, main_v63, main_v64, main_v65, main_v66, main_v67, main_cst_13,
   main_call5_cst, main_call5_v0, main_call5_v1, main_call5_v2, main_call5_v3, main_call5_v4, main_v68,
   main_v69, main_v70, main_v71, main_v72]

theorem writesHead : (opsHead : List (HloOp τ sig (Elt Ideal))).Forall fun op =>
    op.writes ⊆ ((writtenHead).map (Proc.devRef (τ := τ) .tc)).toFinset := by
  simp only [opsHead, List.Forall, StableHlo.nullary_writes, StableHlo.unary_writes, StableHlo.binary_writes,
    StableHlo.ternary_writes, StableHlo.quaternary_writes, StableHlo.reshape_writes, StableHlo.binaryIndexed_writes]
  repeat' apply And.intro
  all_goals exact Finset.singleton_subset_iff.mpr (List.mem_toFinset.mpr (List.mem_map.mpr ⟨_, by decide, rfl⟩))

/-! ## The contents after each stretch -/

abbrev U1 (W : Vals) : Vals := after opsEdges W
abbrev U2 (W : Vals) : Vals := after opsL1 (U1 W)
abbrev U3 (W : Vals) : Vals := after opsG1 (U2 W)
abbrev U4 (W : Vals) : Vals := after opsC1 (U3 W)
abbrev U5 (W : Vals) : Vals := after opsG2 (U4 W)
abbrev U6 (W : Vals) : Vals := after opsC2 (U5 W)
abbrev U7 (W : Vals) : Vals := after opsPool (U6 W)
abbrev U8 (W : Vals) : Vals := after opsHead (U7 W)

/-- The whole line's contents are the last stretch's. -/
theorem after_all (W : Vals) :
    after (opsEdges ++ opsL1 ++ opsG1 ++ opsC1 ++ opsG2 ++ opsC2 ++ opsPool ++ opsHead) W = U8 W := by
  simp only [after_append]

/-! ## A buffer a stretch does not write holds after it what it held before -/

theorem kept1 (W : Vals) (b : Ref sig .tc) (hb : b ∉ writtenEdges) :
    U1 W (Proc.devRef .tc b) = W (Proc.devRef .tc b) :=
  StableHlo.after_of_writes_sub _ _ writesEdges hb

theorem kept2 (W : Vals) (b : Ref sig .tc) (hb : b ∉ writtenL1) :
    U2 W (Proc.devRef .tc b) = U1 W (Proc.devRef .tc b) :=
  StableHlo.after_of_writes_sub _ _ writesL1 hb

theorem kept3 (W : Vals) (b : Ref sig .tc) (hb : b ∉ writtenG1) :
    U3 W (Proc.devRef .tc b) = U2 W (Proc.devRef .tc b) :=
  StableHlo.after_of_writes_sub _ _ writesG1 hb

theorem kept4 (W : Vals) (b : Ref sig .tc) (hb : b ∉ writtenC1) :
    U4 W (Proc.devRef .tc b) = U3 W (Proc.devRef .tc b) :=
  StableHlo.after_of_writes_sub _ _ writesC1 hb

theorem kept5 (W : Vals) (b : Ref sig .tc) (hb : b ∉ writtenG2) :
    U5 W (Proc.devRef .tc b) = U4 W (Proc.devRef .tc b) :=
  StableHlo.after_of_writes_sub _ _ writesG2 hb

theorem kept6 (W : Vals) (b : Ref sig .tc) (hb : b ∉ writtenC2) :
    U6 W (Proc.devRef .tc b) = U5 W (Proc.devRef .tc b) :=
  StableHlo.after_of_writes_sub _ _ writesC2 hb

theorem kept7 (W : Vals) (b : Ref sig .tc) (hb : b ∉ writtenPool) :
    U7 W (Proc.devRef .tc b) = U6 W (Proc.devRef .tc b) :=
  StableHlo.after_of_writes_sub _ _ writesPool hb

theorem kept8 (W : Vals) (b : Ref sig .tc) (hb : b ∉ writtenHead) :
    U8 W (Proc.devRef .tc b) = U7 W (Proc.devRef .tc b) :=
  StableHlo.after_of_writes_sub _ _ writesHead hb

/-- The nineteen argument buffers. -/
abbrev argRefs : List (Ref sig .tc) :=
  [main_arg0, main_arg1, main_arg2, main_arg3, main_arg4, main_arg5, main_arg6, main_arg7, main_arg8,
   main_arg9, main_arg10, main_arg11, main_arg12, main_arg13, main_arg14, main_arg15, main_arg16, main_arg17,
   main_arg18]

/-- No stretch writes an argument buffer. -/
theorem args_fresh : ∀ b ∈ argRefs, b ∉ writtenEdges ∧ b ∉ writtenL1 ∧ b ∉ writtenG1 ∧ b ∉ writtenC1 ∧ b ∉ writtenG2
    ∧ b ∉ writtenC2 ∧ b ∉ writtenPool ∧ b ∉ writtenHead := by decide

/-- An argument buffer holds after stretch 1 what the line found in it. -/
theorem arg_at1 (W : Vals) (b : Ref sig .tc) (hb : b ∈ argRefs) : U1 W (Proc.devRef .tc b) = W (Proc.devRef .tc b) :=
  kept1 W b (args_fresh b hb).1

/-- An argument buffer holds after stretch 2 what the line found in it. -/
theorem arg_at2 (W : Vals) (b : Ref sig .tc) (hb : b ∈ argRefs) : U2 W (Proc.devRef .tc b) = W (Proc.devRef .tc b) :=
  (kept2 W b (args_fresh b hb).2.1).trans (arg_at1 W b hb)

/-- An argument buffer holds after stretch 3 what the line found in it. -/
theorem arg_at3 (W : Vals) (b : Ref sig .tc) (hb : b ∈ argRefs) : U3 W (Proc.devRef .tc b) = W (Proc.devRef .tc b) :=
  (kept3 W b (args_fresh b hb).2.2.1).trans (arg_at2 W b hb)

/-- An argument buffer holds after stretch 4 what the line found in it. -/
theorem arg_at4 (W : Vals) (b : Ref sig .tc) (hb : b ∈ argRefs) : U4 W (Proc.devRef .tc b) = W (Proc.devRef .tc b) :=
  (kept4 W b (args_fresh b hb).2.2.2.1).trans (arg_at3 W b hb)

/-- An argument buffer holds after stretch 5 what the line found in it. -/
theorem arg_at5 (W : Vals) (b : Ref sig .tc) (hb : b ∈ argRefs) : U5 W (Proc.devRef .tc b) = W (Proc.devRef .tc b) :=
  (kept5 W b (args_fresh b hb).2.2.2.2.1).trans (arg_at4 W b hb)

/-- An argument buffer holds after stretch 6 what the line found in it. -/
theorem arg_at6 (W : Vals) (b : Ref sig .tc) (hb : b ∈ argRefs) : U6 W (Proc.devRef .tc b) = W (Proc.devRef .tc b) :=
  (kept6 W b (args_fresh b hb).2.2.2.2.2.1).trans (arg_at5 W b hb)

/-- An argument buffer holds after stretch 7 what the line found in it. -/
theorem arg_at7 (W : Vals) (b : Ref sig .tc) (hb : b ∈ argRefs) : U7 W (Proc.devRef .tc b) = W (Proc.devRef .tc b) :=
  (kept7 W b (args_fresh b hb).2.2.2.2.2.2.1).trans (arg_at6 W b hb)

/-- An argument buffer holds after stretch 8 what the line found in it. -/
theorem arg_at8 (W : Vals) (b : Ref sig .tc) (hb : b ∈ argRefs) : U8 W (Proc.devRef .tc b) = W (Proc.devRef .tc b) :=
  (kept8 W b (args_fresh b hb).2.2.2.2.2.2.2).trans (arg_at7 W b hb)

/-! ## The tables after each stretch

  The network's intermediate tables, as functions of what the line finds in its argument buffers. -/

/-- The source words. -/
abbrev rSrc (W : Vals) : Fin 800000 → BitVec 32 := rowWords (A := 800000) (W (Proc.devRef .tc main_arg1)) 0
/-- The target words. -/
abbrev rDst (W : Vals) : Fin 800000 → BitVec 32 := rowWords (A := 800000) (W (Proc.devRef .tc main_arg1)) 1
/-- The graph words. -/
abbrev rBatch (W : Vals) : Fin 100000 → BitVec 32 := words (A := 100000) (W (Proc.devRef .tc main_arg2))
/-- The first layer's rows, rectified. -/
abbrev rRows1 (W : Vals) : Mat 100000 128 :=
  act (dense (tab2 (A := 100000) (B := 128) (W (Proc.devRef .tc main_arg0))) (tab2 (A := 128) (B := 128) (W (Proc.devRef .tc main_arg3))) (tab1 (A := 128) (W (Proc.devRef .tc main_arg4))))
/-- Their neighbours' sums. -/
abbrev rSums1 (W : Vals) : Mat 100000 128 := aggr (rSrc W) (rDst W) (rRows1 W)
/-- The rows after the first round and the dense layer after it. -/
abbrev rRows2 (W : Vals) : Mat 100000 128 :=
  act (dense (act (conv (rSums1 W) (rRows1 W) (tab2 (A := 128) (B := 128) (W (Proc.devRef .tc main_arg5))) (tab1 (A := 128) (W (Proc.devRef .tc main_arg6)))
      (tab2 (A := 128) (B := 128) (W (Proc.devRef .tc main_arg7)))))
    (tab2 (A := 128) (B := 128) (W (Proc.devRef .tc main_arg8))) (tab1 (A := 128) (W (Proc.devRef .tc main_arg9))))
/-- Their neighbours' sums. -/
abbrev rSums2 (W : Vals) : Mat 100000 128 := aggr (rSrc W) (rDst W) (rRows2 W)
/-- The rows after the second round. -/
abbrev rRows3 (W : Vals) : Mat 100000 128 :=
  act (conv (rSums2 W) (rRows2 W) (tab2 (A := 128) (B := 128) (W (Proc.devRef .tc main_arg10))) (tab1 (A := 128) (W (Proc.devRef .tc main_arg11)))
    (tab2 (A := 128) (B := 128) (W (Proc.devRef .tc main_arg12))))
/-- The per-graph means. -/
abbrev rGraphs (W : Vals) : Mat 64 128 := mean (segSum (rBatch W) (rRows3 W)) (segCount (rBatch W))

/-- After the first stretch the source words are row 0 of the edge table … -/
theorem src_at1 (W : Vals) : words (A := 800000) (U1 W (Proc.devRef .tc main_v1)) = rSrc W :=
  funext fun e => edges_src W e

/-- … and the target words its row 1. -/
theorem dst_at1 (W : Vals) : words (A := 800000) (U1 W (Proc.devRef .tc main_v3)) = rDst W :=
  funext fun e => edges_dst W e

/-- After the second stretch: the first layer's rows. -/
theorem rows1_at2 (W : Vals) : tab2 (A := 100000) (B := 128) (U2 W (Proc.devRef .tc main_v8)) = rRows1 W := by
  funext r j
  refine (l1_value (U1 W) r j).trans ?_
  rw [arg_at1 W main_arg0 (by decide), arg_at1 W main_arg3 (by decide), arg_at1 W main_arg4 (by decide)]

/-- After the third stretch: their neighbours' sums. -/
theorem sums1_at3 (W : Vals) : tab2 (A := 100000) (B := 128) (U3 W (Proc.devRef .tc main_v18)) = rSums1 W := by
  funext n k
  refine (g1_value (U2 W) n k).trans ?_
  rw [kept2 W main_v1 (by decide), kept2 W main_v3 (by decide), src_at1, dst_at1, rows1_at2]

/-- After the fourth stretch: the rows after the first round and the dense layer after it. -/
theorem rows2_at4 (W : Vals) : tab2 (A := 100000) (B := 128) (U4 W (Proc.devRef .tc main_v30)) = rRows2 W := by
  funext r j
  refine (c1_value (U3 W) r j).trans ?_
  rw [sums1_at3, kept3 W main_v8 (by decide), rows1_at2, arg_at3 W main_arg5 (by decide), arg_at3 W main_arg6 (by decide),
    arg_at3 W main_arg7 (by decide), arg_at3 W main_arg8 (by decide), arg_at3 W main_arg9 (by decide)]

/-- After the fifth stretch: their neighbours' sums. -/
theorem sums2_at5 (W : Vals) : tab2 (A := 100000) (B := 128) (U5 W (Proc.devRef .tc main_v40)) = rSums2 W := by
  funext n k
  refine (g2_value (U4 W) n k).trans ?_
  rw [kept4 W main_v1 (by decide), kept3 W main_v1 (by decide), kept2 W main_v1 (by decide),
    kept4 W main_v3 (by decide), kept3 W main_v3 (by decide), kept2 W main_v3 (by decide), src_at1, dst_at1, rows2_at4]

/-- After the sixth stretch: the rows after the second round. -/
theorem rows3_at6 (W : Vals) : tab2 (A := 100000) (B := 128) (U6 W (Proc.devRef .tc main_v47)) = rRows3 W := by
  funext r j
  refine (c2_value (U5 W) r j).trans ?_
  rw [sums2_at5, kept5 W main_v30 (by decide), rows2_at4, arg_at5 W main_arg10 (by decide),
    arg_at5 W main_arg11 (by decide), arg_at5 W main_arg12 (by decide)]

/-- After the seventh stretch: the per-graph means. -/
theorem graphs_at7 (W : Vals) : tab2 (A := 64) (B := 128) (U7 W (Proc.devRef .tc main_v58)) = rGraphs W := by
  funext g j
  refine (pool_value (U6 W) g j).trans ?_
  rw [arg_at6 W main_arg2 (by decide), rows3_at6]

/-! ## The whole line -/

/-- THE REFERENCE'S RESULT, entry by entry: the network of what the line finds in its argument buffers. -/
theorem result_value (W : Vals) (g : Fin 64) (j : Fin 2) :
      after (opsEdges ++ opsL1 ++ opsG1 ++ opsC1 ++ opsG2 ++ opsC2 ++ opsPool ++ opsHead) W (Proc.devRef .tc main_v72) (ix2 g j)
        = net (tab2 (A := 100000) (B := 128) (W (Proc.devRef .tc main_arg0))) (rowWords (A := 800000) (W (Proc.devRef .tc main_arg1)) 0) (rowWords (A := 800000) (W (Proc.devRef .tc main_arg1)) 1) (words (A := 100000) (W (Proc.devRef .tc main_arg2)))
          (tab2 (A := 128) (B := 128) (W (Proc.devRef .tc main_arg3))) (tab1 (A := 128) (W (Proc.devRef .tc main_arg4)))
          (tab2 (A := 128) (B := 128) (W (Proc.devRef .tc main_arg5))) (tab1 (A := 128) (W (Proc.devRef .tc main_arg6))) (tab2 (A := 128) (B := 128) (W (Proc.devRef .tc main_arg7)))
          (tab2 (A := 128) (B := 128) (W (Proc.devRef .tc main_arg8))) (tab1 (A := 128) (W (Proc.devRef .tc main_arg9)))
          (tab2 (A := 128) (B := 128) (W (Proc.devRef .tc main_arg10))) (tab1 (A := 128) (W (Proc.devRef .tc main_arg11))) (tab2 (A := 128) (B := 128) (W (Proc.devRef .tc main_arg12)))
          (tab2 (A := 128) (B := 128) (W (Proc.devRef .tc main_arg13))) (tab1 (A := 128) (W (Proc.devRef .tc main_arg14)))
          (tab2 (A := 128) (B := 64) (W (Proc.devRef .tc main_arg15))) (tab1 (A := 64) (W (Proc.devRef .tc main_arg16)))
          (tab2 (A := 64) (B := 2) (W (Proc.devRef .tc main_arg17))) (tab1 (A := 2) (W (Proc.devRef .tc main_arg18))) g j := by
  rw [after_all]
  refine (head_value (U7 W) g j).trans ?_
  rw [graphs_at7, arg_at7 W main_arg13 (by decide), arg_at7 W main_arg14 (by decide), arg_at7 W main_arg15 (by decide),
    arg_at7 W main_arg16 (by decide), arg_at7 W main_arg17 (by decide), arg_at7 W main_arg18 (by decide)]
  rfl

/-- THE ARGUMENT BUFFERS hold after the line what it found in them. -/
theorem args_kept (W : Vals) (b : Ref sig .tc) (hb : b ∈ ([main_arg0, main_arg1, main_arg2, main_arg3, main_arg4, main_arg5, main_arg6, main_arg7, main_arg8, main_arg9, main_arg10, main_arg11, main_arg12, main_arg13, main_arg14, main_arg15, main_arg16, main_arg17, main_arg18] : List (Ref sig .tc))) :
      after (opsEdges ++ opsL1 ++ opsG1 ++ opsC1 ++ opsG2 ++ opsC2 ++ opsPool ++ opsHead) W (Proc.devRef .tc b) = W (Proc.devRef .tc b) := by
  rw [after_all]
  exact arg_at8 W b hb

end Cert.ReferenceIdeal.Val

end
-- ==== Proof.Assemble.lean ====
/-
  The two runs joined at one function of the arguments.

  Read over the extended reals, each program ends with its result buffer holding, entry by entry, the graph network
  of Spec.lean of the nineteen argument arrays its own launch memory holds: the kernel's program at the contents of its
  last boundary, the reference's at the end of its straight line of host operations. Neither writes an argument array.
  So from two memories that agree on the arguments the tables the network is taken of are the same tables, and the two
  result buffers hold the same 64 × 2 numbers: that common function of the kernel-side memory is the witness the
  value claim asks for, and the reference's frame is its run with the result forgotten.
-/
import proofs.«426622_j23862838296799_2_alg».proof.Defs
import proofs.«426622_j23862838296799_2_alg».proof.Proof.Gen.Pre_finite_inputs
import proofs.«426622_j23862838296799_2_alg».proof.Proof.Spec
import proofs.«426622_j23862838296799_2_alg».proof.Proof.KRun
import proofs.«426622_j23862838296799_2_alg».proof.Proof.KValue
import proofs.«426622_j23862838296799_2_alg».proof.Proof.RRun
import proofs.«426622_j23862838296799_2_alg».proof.Proof.RValue
import Idealize.ShloMosaic.Lib.StableHlo.Run
import Idealize.ShloMosaic.Lib.ValueIdx

set_option maxRecDepth 16384

noncomputable section

namespace Cert.Proof

open Idealize.ShloMosaic Idealize.ShloMosaic.ValueIdx Idealize.ShloMosaic.TcCoe Idealize.ShloMosaic.StableHlo Idealize.SL.Sem
open Cert.GNN

/-- A launch memory of the kernel's program, and one of the reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-! ## The common result -/

/-- THE RESULT both programs end holding on core `c`: the network of the argument arrays the kernel's launch memory
    holds there, entry by entry. -/
def result (m : KMem) (c : Dev Cert.KernelIdeal.nD) : Buf (Elt Ideal) ((c.tc : Thread Cert.KernelIdeal.nD Cert.KernelIdeal.τ).loc Cert.KernelIdeal.main_v34) :=
  fun i => net (Cert.KernelIdeal.Val.argX m c) (Cert.KernelIdeal.Val.argSrc m c) (Cert.KernelIdeal.Val.argDst m c) (Cert.KernelIdeal.Val.argBatch m c)
    (tab2 (A := 128) (B := 128) (m ((c.tc : Thread Cert.KernelIdeal.nD Cert.KernelIdeal.τ).loc Cert.KernelIdeal.main_arg3)))
    (tab1 (A := 128) (m ((c.tc : Thread Cert.KernelIdeal.nD Cert.KernelIdeal.τ).loc Cert.KernelIdeal.main_arg4)))
    (tab2 (A := 128) (B := 128) (m ((c.tc : Thread Cert.KernelIdeal.nD Cert.KernelIdeal.τ).loc Cert.KernelIdeal.main_arg5)))
    (tab1 (A := 128) (m ((c.tc : Thread Cert.KernelIdeal.nD Cert.KernelIdeal.τ).loc Cert.KernelIdeal.main_arg6)))
    (tab2 (A := 128) (B := 128) (m ((c.tc : Thread Cert.KernelIdeal.nD Cert.KernelIdeal.τ).loc Cert.KernelIdeal.main_arg7)))
    (tab2 (A := 128) (B := 128) (m ((c.tc : Thread Cert.KernelIdeal.nD Cert.KernelIdeal.τ).loc Cert.KernelIdeal.main_arg8)))
    (tab1 (A := 128) (m ((c.tc : Thread Cert.KernelIdeal.nD Cert.KernelIdeal.τ).loc Cert.KernelIdeal.main_arg9)))
    (tab2 (A := 128) (B := 128) (m ((c.tc : Thread Cert.KernelIdeal.nD Cert.KernelIdeal.τ).loc Cert.KernelIdeal.main_arg10)))
    (tab1 (A := 128) (m ((c.tc : Thread Cert.KernelIdeal.nD Cert.KernelIdeal.τ).loc Cert.KernelIdeal.main_arg11)))
    (tab2 (A := 128) (B := 128) (m ((c.tc : Thread Cert.KernelIdeal.nD Cert.KernelIdeal.τ).loc Cert.KernelIdeal.main_arg12)))
    (tab2 (A := 128) (B := 128) (m ((c.tc : Thread Cert.KernelIdeal.nD Cert.KernelIdeal.τ).loc Cert.KernelIdeal.main_arg13)))
    (tab1 (A := 128) (m ((c.tc : Thread Cert.KernelIdeal.nD Cert.KernelIdeal.τ).loc Cert.KernelIdeal.main_arg14)))
    (tab2 (A := 128) (B := 64) (m ((c.tc : Thread Cert.KernelIdeal.nD Cert.KernelIdeal.τ).loc Cert.KernelIdeal.main_arg15)))
    (tab1 (A := 64) (m ((c.tc : Thread Cert.KernelIdeal.nD Cert.KernelIdeal.τ).loc Cert.KernelIdeal.main_arg16)))
    (tab2 (A := 64) (B := 2) (m ((c.tc : Thread Cert.KernelIdeal.nD Cert.KernelIdeal.τ).loc Cert.KernelIdeal.main_arg17)))
    (tab1 (A := 2) (m ((c.tc : Thread Cert.KernelIdeal.nD Cert.KernelIdeal.τ).loc Cert.KernelIdeal.main_arg18))) (i 0) (i 1)

/-! ## The kernel's side -/

/-- What the kernel's result buffer holds at the last boundary is the common result. -/
theorem kernel_result (m : KMem) (ρ : Dev Cert.KernelIdeal.nD → PrngReg) (c : Dev Cert.KernelIdeal.nD) :
    Cert.KernelIdeal.Gen.W8 m ρ c (Proc.devRef .tc Cert.KernelIdeal.main_v34) = result m c :=
  funext fun i => (congrArg _ (eq_ix2 i)).trans (Cert.KernelIdeal.Val.result_value m ρ c (i 0) (i 1))

/-- The kernel's run: the result buffer ends at the common result, the argument arrays as launched. -/
theorem kernel_run (m : KMem) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v34) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  (θ_run _ _ _).mono (fun r h c => ⟨(h c).1.trans (kernel_result m ρ c), (h c).2⟩) (Cert.KernelIdeal.Val.run_result (F := Ideal) m ρ)

/-! ## The reference's side -/

/-- The reference's straight line leaves an argument buffer as the launch memory has it. -/
theorem ref_kept (m' : RMem) (c : Dev Cert.ReferenceIdeal.nD) (b : Ref Cert.ReferenceIdeal.sig .tc)
    (hb : b ∈ ([Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12, Cert.ReferenceIdeal.main_arg13, Cert.ReferenceIdeal.main_arg14, Cert.ReferenceIdeal.main_arg15, Cert.ReferenceIdeal.main_arg16, Cert.ReferenceIdeal.main_arg17, Cert.ReferenceIdeal.main_arg18] : List (Ref Cert.ReferenceIdeal.sig .tc))) :
    after (Cert.ReferenceIdeal.Val.ops (F := Ideal)) (launchContents m' c) (Proc.devRef .tc b) = m' ((c.tc : Thread Cert.ReferenceIdeal.nD Cert.ReferenceIdeal.τ).loc b) :=
  Cert.ReferenceIdeal.Val.args_kept (launchContents m' c) b hb

/-- What the reference's result buffer ends holding is the common result, when its launch memory agrees with the
    kernel's on the nineteen argument arrays: the same network of the same tables. -/
theorem ref_result (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    after (Cert.ReferenceIdeal.Val.ops (F := Ideal)) (launchContents m' c) (Proc.devRef .tc Cert.ReferenceIdeal.main_v72) = result m c := by
  funext i
  refine (congrArg _ (eq_ix2 i)).trans ((Cert.ReferenceIdeal.Val.result_value (launchContents m' c) (i 0) (i 1)).trans ?_)
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  have e10 : launchContents m' c (Proc.devRef .tc Cert.ReferenceIdeal.main_arg10) = m ((c.tc : Thread Cert.KernelIdeal.nD Cert.KernelIdeal.τ).loc Cert.KernelIdeal.main_arg10) := h10
  have e11 : launchContents m' c (Proc.devRef .tc Cert.ReferenceIdeal.main_arg11) = m ((c.tc : Thread Cert.KernelIdeal.nD Cert.KernelIdeal.τ).loc Cert.KernelIdeal.main_arg11) := h11
  have e12 : launchContents m' c (Proc.devRef .tc Cert.ReferenceIdeal.main_arg12) = m ((c.tc : Thread Cert.KernelIdeal.nD Cert.KernelIdeal.τ).loc Cert.KernelIdeal.main_arg12) := h12
  have e13 : launchContents m' c (Proc.devRef .tc Cert.ReferenceIdeal.main_arg13) = m ((c.tc : Thread Cert.KernelIdeal.nD Cert.KernelIdeal.τ).loc Cert.KernelIdeal.main_arg13) := h13
  have e14 : launchContents m' c (Proc.devRef .tc Cert.ReferenceIdeal.main_arg14) = m ((c.tc : Thread Cert.KernelIdeal.nD Cert.KernelIdeal.τ).loc Cert.KernelIdeal.main_arg14) := h14
  have e15 : launchContents m' c (Proc.devRef .tc Cert.ReferenceIdeal.main_arg15) = m ((c.tc : Thread Cert.KernelIdeal.nD Cert.KernelIdeal.τ).loc Cert.KernelIdeal.main_arg15) := h15
  have e16 : launchContents m' c (Proc.devRef .tc Cert.ReferenceIdeal.main_arg16) = m ((c.tc : Thread Cert.KernelIdeal.nD Cert.KernelIdeal.τ).loc Cert.KernelIdeal.main_arg16) := h16
  have e17 : launchContents m' c (Proc.devRef .tc Cert.ReferenceIdeal.main_arg17) = m ((c.tc : Thread Cert.KernelIdeal.nD Cert.KernelIdeal.τ).loc Cert.KernelIdeal.main_arg17) := h17
  have e18 : launchContents m' c (Proc.devRef .tc Cert.ReferenceIdeal.main_arg18) = m ((c.tc : Thread Cert.KernelIdeal.nD Cert.KernelIdeal.τ).loc Cert.KernelIdeal.main_arg18) := h18
  rw [e0, e1, e2, e3, e4, e5, e6, e7, e8, e9, e10, e11, e12, e13, e14, e15, e16, e17, e18]
  rfl

/-- The reference's run from a memory agreeing with the kernel's on the arguments: the result buffer ends at the common
    result, the argument arrays as launched. -/
theorem ref_run (m : KMem) (m' : RMem) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v72) = result m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) :=
  (θ_run _ _ _).mono (fun r h c => by
    obtain ⟨h0, h1, h2, h3, h4, h5, h6, h7, h8, h9, h10, h11, h12, h13, h14, h15, h16, h17, h18⟩ := hagree c
    exact ⟨(h c Cert.ReferenceIdeal.main_v72).trans (ref_result m m' c h0 h1 h2 h3 h4 h5 h6 h7 h8 h9 h10 h11 h12 h13 h14 h15 h16 h17 h18),
      (h c Cert.ReferenceIdeal.main_arg0).trans (ref_kept m' c Cert.ReferenceIdeal.main_arg0 (by decide)),
      (h c Cert.ReferenceIdeal.main_arg1).trans (ref_kept m' c Cert.ReferenceIdeal.main_arg1 (by decide)),
      (h c Cert.ReferenceIdeal.main_arg2).trans (ref_kept m' c Cert.ReferenceIdeal.main_arg2 (by decide)),
      (h c Cert.ReferenceIdeal.main_arg3).trans (ref_kept m' c Cert.ReferenceIdeal.main_arg3 (by decide)),
      (h c Cert.ReferenceIdeal.main_arg4).trans (ref_kept m' c Cert.ReferenceIdeal.main_arg4 (by decide)),
      (h c Cert.ReferenceIdeal.main_arg5).trans (ref_kept m' c Cert.ReferenceIdeal.main_arg5 (by decide)),
      (h c Cert.ReferenceIdeal.main_arg6).trans (ref_kept m' c Cert.ReferenceIdeal.main_arg6 (by decide)),
      (h c Cert.ReferenceIdeal.main_arg7).trans (ref_kept m' c Cert.ReferenceIdeal.main_arg7 (by decide)),
      (h c Cert.ReferenceIdeal.main_arg8).trans (ref_kept m' c Cert.ReferenceIdeal.main_arg8 (by decide)),
      (h c Cert.ReferenceIdeal.main_arg9).trans (ref_kept m' c Cert.ReferenceIdeal.main_arg9 (by decide)),
      (h c Cert.ReferenceIdeal.main_arg10).trans (ref_kept m' c Cert.ReferenceIdeal.main_arg10 (by decide)),
      (h c Cert.ReferenceIdeal.main_arg11).trans (ref_kept m' c Cert.ReferenceIdeal.main_arg11 (by decide)),
      (h c Cert.ReferenceIdeal.main_arg12).trans (ref_kept m' c Cert.ReferenceIdeal.main_arg12 (by decide)),
      (h c Cert.ReferenceIdeal.main_arg13).trans (ref_kept m' c Cert.ReferenceIdeal.main_arg13 (by decide)),
      (h c Cert.ReferenceIdeal.main_arg14).trans (ref_kept m' c Cert.ReferenceIdeal.main_arg14 (by decide)),
      (h c Cert.ReferenceIdeal.main_arg15).trans (ref_kept m' c Cert.ReferenceIdeal.main_arg15 (by decide)),
      (h c Cert.ReferenceIdeal.main_arg16).trans (ref_kept m' c Cert.ReferenceIdeal.main_arg16 (by decide)),
      (h c Cert.ReferenceIdeal.main_arg17).trans (ref_kept m' c Cert.ReferenceIdeal.main_arg17 (by decide)),
      (h c Cert.ReferenceIdeal.main_arg18).trans (ref_kept m' c Cert.ReferenceIdeal.main_arg18 (by decide))⟩)
    (Cert.ReferenceIdeal.Val.run_main (F := Ideal) m' ρ')

/-! ## The claims -/

theorem frame_ref : Cert.frame_ReferenceIdeal := fun m' ρ' _ =>
  (θ_run _ _ _).mono (fun r h c =>
    ⟨(h c Cert.ReferenceIdeal.main_arg0).trans (ref_kept m' c Cert.ReferenceIdeal.main_arg0 (by decide)),
      (h c Cert.ReferenceIdeal.main_arg1).trans (ref_kept m' c Cert.ReferenceIdeal.main_arg1 (by decide)),
      (h c Cert.ReferenceIdeal.main_arg2).trans (ref_kept m' c Cert.ReferenceIdeal.main_arg2 (by decide)),
      (h c Cert.ReferenceIdeal.main_arg3).trans (ref_kept m' c Cert.ReferenceIdeal.main_arg3 (by decide)),
      (h c Cert.ReferenceIdeal.main_arg4).trans (ref_kept m' c Cert.ReferenceIdeal.main_arg4 (by decide)),
      (h c Cert.ReferenceIdeal.main_arg5).trans (ref_kept m' c Cert.ReferenceIdeal.main_arg5 (by decide)),
      (h c Cert.ReferenceIdeal.main_arg6).trans (ref_kept m' c Cert.ReferenceIdeal.main_arg6 (by decide)),
      (h c Cert.ReferenceIdeal.main_arg7).trans (ref_kept m' c Cert.ReferenceIdeal.main_arg7 (by decide)),
      (h c Cert.ReferenceIdeal.main_arg8).trans (ref_kept m' c Cert.ReferenceIdeal.main_arg8 (by decide)),
      (h c Cert.ReferenceIdeal.main_arg9).trans (ref_kept m' c Cert.ReferenceIdeal.main_arg9 (by decide)),
      (h c Cert.ReferenceIdeal.main_arg10).trans (ref_kept m' c Cert.ReferenceIdeal.main_arg10 (by decide)),
      (h c Cert.ReferenceIdeal.main_arg11).trans (ref_kept m' c Cert.ReferenceIdeal.main_arg11 (by decide)),
      (h c Cert.ReferenceIdeal.main_arg12).trans (ref_kept m' c Cert.ReferenceIdeal.main_arg12 (by decide)),
      (h c Cert.ReferenceIdeal.main_arg13).trans (ref_kept m' c Cert.ReferenceIdeal.main_arg13 (by decide)),
      (h c Cert.ReferenceIdeal.main_arg14).trans (ref_kept m' c Cert.ReferenceIdeal.main_arg14 (by decide)),
      (h c Cert.ReferenceIdeal.main_arg15).trans (ref_kept m' c Cert.ReferenceIdeal.main_arg15 (by decide)),
      (h c Cert.ReferenceIdeal.main_arg16).trans (ref_kept m' c Cert.ReferenceIdeal.main_arg16 (by decide)),
      (h c Cert.ReferenceIdeal.main_arg17).trans (ref_kept m' c Cert.ReferenceIdeal.main_arg17 (by decide)),
      (h c Cert.ReferenceIdeal.main_arg18).trans (ref_kept m' c Cert.ReferenceIdeal.main_arg18 (by decide))⟩)
    (Cert.ReferenceIdeal.Val.run_main (F := Ideal) m' ρ')

theorem algebraic : Cert.algebraic_KernelIdeal_ReferenceIdeal := fun m ρ m' ρ' _ hagree =>
  ⟨result m, kernel_run m ρ, ref_run m m' ρ' hagree⟩

end Cert.Proof

end
-- ==== Proof.lean ====
/-
  Two programs compute one graph network on 100000 nodes with 128 features, 800000 edges and 64 graphs, and end with
  the same 64 × 2 numbers; this file joins the pieces of that statement.

  The network (Spec.lean): a dense layer with a leaky rectifier on the node table; two rounds of message passing,
  each summing into every node the rows of the source nodes of the edges that end there, mixing that sum and the
  node's own row through two weight matrices and a bias, and rectifying, with a dense layer between the rounds; the
  mean of the rows of each graph; three closing dense layers.

  The kernel's program runs it as four launches with host operations between them: the first launch the opening dense
  layer, the second and the third the two rounds' mixing (the second with the dense layer that follows), block of 5000
  rows by block, the third also adding each block's rows into per-graph sums and counts, the fourth the closing layers;
  the neighbours' sums and the quotient of sums by counts are host operations. The reference is one straight line of host
  operations. Read over the extended reals, where every operation is exact and a change of float format is the
  identity, both are the network above, by these laws: a product into a zero accumulator is the finite sum of
  products; adding the bias after both products of a round or between them is the same sum, addition being commutative
  and associative; testing `0 < z` or `0 ≤ z` before scaling by the slope is the same rectifier, the two differing only
  at zero where both give zero; a product with a table of ones and zeros marking each node's graph is the sum over that
  graph's nodes, and the twenty blocks partition the nodes; a row lookup followed by an accumulating scatter is the sum
  over the edges ending at a node. No argument array is written by either program.

  The frames of the kernel's program and of its ideal reading are the generated ones; the ideal reading rewrites no
  operation, so there is nothing to preserve; the reference's frame and the equality of the two results are in
  Proof/Assemble.lean.
-/
import proofs.«426622_j23862838296799_2_alg».proof.Defs
import proofs.«426622_j23862838296799_2_alg».proof.Proof.Gen.Kernel
import proofs.«426622_j23862838296799_2_alg».proof.Proof.Gen.Kernel.Skeleton
import proofs.«426622_j23862838296799_2_alg».proof.Proof.Gen.Kernel.Launch
import proofs.«426622_j23862838296799_2_alg».proof.Proof.Gen.Kernel.Points
import proofs.«426622_j23862838296799_2_alg».proof.Proof.Gen.Kernel.Frame
import proofs.«426622_j23862838296799_2_alg».proof.Proof.Gen.KernelIdeal
import proofs.«426622_j23862838296799_2_alg».proof.Proof.Gen.KernelIdeal.Skeleton
import proofs.«426622_j23862838296799_2_alg».proof.Proof.Gen.KernelIdeal.Launch
import proofs.«426622_j23862838296799_2_alg».proof.Proof.Gen.KernelIdeal.Points
import proofs.«426622_j23862838296799_2_alg».proof.Proof.Gen.KernelIdeal.Frame
import proofs.«426622_j23862838296799_2_alg».proof.Proof.Gen.ReferenceIdeal
import proofs.«426622_j23862838296799_2_alg».proof.Proof.Gen.Pre_finite_inputs
import Idealize.ShloMosaic.Adequacy
import Idealize.ShloMosaic.Init
import proofs.«426622_j23862838296799_2_alg».proof.Proof.Assemble

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
